-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S1000x1024 .f32 .bf16
  ∧ IdealRules.truncf_extf.Statement Cert.KernelIdeal.S1000x1024 .f32 .bf16
  ∧ IdealRules.truncf_extf.Statement Cert.KernelIdeal.S1000x1024 .f32 .bf16
  ∧ IdealRules.truncf_extf.Statement Cert.KernelIdeal.S1000x1024 .f32 .bf16
  ∧ IdealRules.truncf_extf.Statement Cert.KernelIdeal.S1000x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg4 : IVec S500000 32) (main_arg12 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S500000 32 := broadcastInDim S500000 ![] bcast_S_S500000 main_c_22
  let main_v60 : IVec S500000 1 := cmpi .sge main_arg4 main_v59
  let main_c_23 : IVec S_ 1 := constantI S_ 1 1#1
  let main_v61 : IVec S_ 1 := (fun x v => Host.reduce IntOp.andi x v reducesTo_S500000_S_d0 h_S_) main_v60 main_c_23
  let main_v62 : IVec S_ 1 := andi main_v58 main_v61
  let main_c_24 : IVec S_ 32 := constantI S_ 32 1024#32
  let main_v63 : IVec S500000 32 := broadcastInDim S500000 ![] bcast_S_S500000 main_c_24
  let main_v64 : IVec S500000 1 := cmpi .slt main_arg4 main_v63
  let main_c_25 : IVec S_ 1 := constantI S_ 1 1#1
  let main_v65 : IVec S_ 1 := (fun x v => Host.reduce IntOp.andi x v reducesTo_S500000_S_d0 h_S_) main_v64 main_c_25
  let main_v66 : IVec S_ 1 := andi main_v62 main_v65
  main_v66

def fn_part2 {F : FTy → Type} [FloatOps F] (main_arg4 : IVec S500000 32) (main_arg8 : FVec F S256 .f32) (main_arg9 : FVec F S256x256 .f32) (main_arg10 : FVec F S256 .f32) (main_arg11 : FVec F S256x128 .f32) (main_arg12 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg4 main_arg12 main_v48 main_v49 main_v50

def fn_part1 {F : FTy → Type} [FloatOps F] (main_arg4 : IVec S500000 32) (main_arg5 : FVec F S512x256 .f32) (main_arg6 : FVec F S256 .f32) (main_arg7 : FVec F S256x256 .f32) (main_arg8 : FVec F S256 .f32) (main_arg9 : FVec F S256x256 .f32) (main_arg10 : FVec F S256 .f32) (main_arg11 : FVec F S256x128 .f32) (main_arg12 : FVec F S128 .f32) (main_v13 : IVec S_ 1) (main_v16 : IVec S500000x128 1) : IVec S_ 1 :=
  let main_c_5 : IVec S_ 1 := constantI S_ 1 1#1
  let main_v17 : IVec S_ 1 := (fun x v => Host.reduce IntOp.andi x v reducesTo_S500000x128_S_d0_1 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg4 main_arg8 main_arg9 main_arg10 main_arg11 main_arg12 main_v33

def fn {F : FTy → Type} [FloatOps F] (main_arg0 : FVec F S500000x128 .f32) (main_arg1 : FVec F S500000x128 .f32) (main_arg2 : FVec F S500000x128 .f32) (main_arg3 : FVec F S500000x128 .f32) (main_arg4 : IVec S500000 32) (main_arg5 : FVec F S512x256 .f32) (main_arg6 : FVec F S256 .f32) (main_arg7 : FVec F S256x256 .f32) (main_arg8 : FVec F S256 .f32) (main_arg9 : FVec F S256x256 .f32) (main_arg10 : FVec F S256 .f32) (main_arg11 : FVec F S256x128 .f32) (main_arg12 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S500000x128 .f32 := Host.absf main_arg3
  let main_cst_4 : FVec F S_ .f32 := constant S_ .f32 0x7F800000#32
  let main_v15 : FVec F S500000x128 .f32 := broadcastInDim S500000x128 ![] bcast_S_S500000x128 main_cst_4
  let main_v16 : IVec S500000x128 1 := cmpf .olt main_v14 main_v15
  fn_part1 (F := F) main_arg4 main_arg5 main_arg6 main_arg7 main_arg8 main_arg9 main_arg10 main_arg11 main_arg12 main_v13 main_v16
-- ==== Kernel.lean ====
abbrev S500000x128 : Shape := ⟨2, ![500000, 128]⟩
abbrev S500000 : Shape := ⟨1, ![500000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2x250000x128 : Shape := ⟨3, ![2, 250000, 128]⟩
abbrev S2x250000x1 : Shape := ⟨3, ![2, 250000, 1]⟩
abbrev S2x1024x128 : Shape := ⟨3, ![2, 1024, 128]⟩
abbrev S2x1x1024 : Shape := ⟨3, ![2, 1, 1024]⟩
abbrev S1x5000x128 : Shape := ⟨3, ![1, 5000, 128]⟩
abbrev S1x5000x1 : Shape := ⟨3, ![1, 5000, 1]⟩
abbrev S1x1024x128 : Shape := ⟨3, ![1, 1024, 128]⟩
abbrev S1x1x1024 : Shape := ⟨3, ![1, 1, 1024]⟩
abbrev S1024x128 : Shape := ⟨2, ![1024, 128]⟩
abbrev S1x1024 : Shape := ⟨2, ![1, 1024]⟩
abbrev S5000x128 : Shape := ⟨2, ![5000, 128]⟩
abbrev S5000x512 : Shape := ⟨2, ![5000, 512]⟩
abbrev S5000x256 : Shape := ⟨2, ![5000, 256]⟩
abbrev S1x256 : Shape := ⟨2, ![1, 256]⟩
abbrev S1x128 : Shape := ⟨2, ![1, 128]⟩
abbrev S1x1000x1 : Shape := ⟨3, ![1, 1000, 1]⟩
abbrev S1000x1 : Shape := ⟨2, ![1000, 1]⟩
abbrev S1000x1024 : Shape := ⟨2, ![1000, 1024]⟩
abbrev S1000x128 : Shape := ⟨2, ![1000, 128]⟩
abbrev S1024 : Shape := ⟨1, ![1024]⟩
abbrev S1024x1 : Shape := ⟨2, ![1024, 1]⟩
abbrev S_ : Shape := ⟨0, ![]⟩
abbrev S500000x1 : Shape := ⟨2, ![500000, 1]⟩
abbrev S10000x1 : Shape := ⟨2, ![10000, 1]⟩
abbrev S10000x128 : Shape := ⟨2, ![10000, 128]⟩
abbrev S2000x1 : Shape := ⟨2, ![2000, 1]⟩
abbrev S2000x1024 : Shape := ⟨2, ![2000, 1024]⟩
abbrev S2000x128 : Shape := ⟨2, ![2000, 128]⟩

abbrev nBuf : Space → Nat
  | .hbm => 46
  | .vmem => 30
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S500000x128, .f32⟩
  | .hbm, ⟨4, _⟩ => ⟨S500000, .i32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S512x256, .bf16⟩
  | .hbm, ⟨14, _⟩ => ⟨S256x256, .bf16⟩
  | .hbm, ⟨15, _⟩ => ⟨S256x256, .bf16⟩
  | .hbm, ⟨16, _⟩ => ⟨S256x128, .bf16⟩
  | .hbm, ⟨17, _⟩ => ⟨S2x250000x128, .f32⟩
  | .hbm, ⟨18, _⟩ => ⟨S2x250000x128, .f32⟩
  | .hbm, ⟨19, _⟩ => ⟨S2x250000x128, .f32⟩
  | .hbm, ⟨20, _⟩ => ⟨S2x250000x128, .f32⟩
  | .hbm, ⟨21, _⟩ => ⟨S2x250000x1, .i32⟩
  | .hbm, ⟨22, _⟩ => ⟨S2x1024x128, .f32⟩
  | .hbm, ⟨23, _⟩ => ⟨S2x1x1024, .f32⟩
  | .hbm, ⟨24, _⟩ => ⟨S1x1024x128, .f32⟩
  | .hbm, ⟨25, _⟩ => ⟨S1024x128, .f32⟩
  | .hbm, ⟨26, _⟩ => ⟨S1x1024x128, .f32⟩
  | .hbm, ⟨27, _⟩ => ⟨S1024x128, .f32⟩
  | .hbm, ⟨28, _⟩ => ⟨S1024x128, .f32⟩
  | .hbm, ⟨29, _⟩ => ⟨S1x1x1024, .f32⟩
  | .hbm, ⟨30, _⟩ => ⟨S1024, .f32⟩
  | .hbm, ⟨31, _⟩ => ⟨S1x1x1024, .f32⟩
  | .hbm, ⟨32, _⟩ => ⟨S1024, .f32⟩
  | .hbm, ⟨33, _⟩ => ⟨S1024, .f32⟩
  | .hbm, ⟨34, _⟩ => ⟨S1024x1, .f32⟩
  | .hbm, ⟨35, _⟩ => ⟨S_, .f32⟩
  | .hbm, ⟨36, _⟩ => ⟨S1024x1, .f32⟩
  | .hbm, ⟨37, _⟩ => ⟨S1024x1, .f32⟩
  | .hbm, ⟨38, _⟩ => ⟨S1024x128, .f32⟩
  | .hbm, ⟨39, _⟩ => ⟨S1024x128, .f32⟩
  | .hbm, ⟨40, _⟩ => ⟨S1024x128, .bf16⟩
  | .hbm, ⟨41, _⟩ => ⟨S1024x128, .f32⟩
  | .hbm, ⟨42, _⟩ => ⟨S1024x128, .f32⟩
  | .hbm, ⟨43, _⟩ => ⟨S1024x128, .bf16⟩
  | .hbm, ⟨44, _⟩ => ⟨S500000x1, .i32⟩
  | .hbm, ⟨45, _⟩ => ⟨S500000x128, .f32⟩
  | .local _ .vmem, ⟨0, _⟩ => ⟨S1x5000x128, .f32⟩
  | .local _ .vmem, ⟨1, _⟩ => ⟨S1x5000x128, .f32⟩
  | .local _ .vmem, ⟨2, _⟩ => ⟨S1x5000x128, .f32⟩
  | .local _ .vmem, ⟨3, _⟩ => ⟨S1x5000x128, .f32⟩
  | .local _ .vmem, ⟨4, _⟩ => ⟨S1x5000x128, .f32⟩
  | .local _ .vmem, ⟨5, _⟩ => ⟨S1x5000x128, .f32⟩
  | .local _ .vmem, ⟨6, _⟩ => ⟨S1x5000x128, .f32⟩
  | .local _ .vmem, ⟨7, _⟩ => ⟨S1x5000x128, .f32⟩
  | .local _ .vmem, ⟨8, _⟩ => ⟨S1x5000x1, .i32⟩
  | .local _ .vmem, ⟨9, _⟩ => ⟨S1x5000x1, .i32⟩
  | .local _ .vmem, ⟨10, _⟩ => ⟨S512x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S256x256, .bf16⟩
  | .local _ .vmem, ⟨15, _⟩ => ⟨S256, .f32⟩
  | .local _ .vmem, ⟨16, _⟩ => ⟨S256x128, .bf16⟩
  | .local _ .vmem, ⟨17, _⟩ => ⟨S128, .f32⟩
  | .local _ .vmem, ⟨18, _⟩ => ⟨S1x1024x128, .f32⟩
  | .local _ .vmem, ⟨19, _⟩ => ⟨S1x1024x128, .f32⟩
  | .local _ .vmem, ⟨20, _⟩ => ⟨S1x1x1024, .f32⟩
  | .local _ .vmem, ⟨21, _⟩ => ⟨S1x1x1024, .f32⟩
  | .local _ .vmem, ⟨22, _⟩ => ⟨S1024x128, .f32⟩
  | .local _ .vmem, ⟨23, _⟩ => ⟨S1x1024, .f32⟩
  | .local _ .vmem, ⟨24, _⟩ => ⟨S10000x1, .i32⟩
  | .local _ .vmem, ⟨25, _⟩ => ⟨S10000x1, .i32⟩
  | .local _ .vmem, ⟨26, _⟩ => ⟨S1024x128, .bf16⟩
  | .local _ .vmem, ⟨27, _⟩ => ⟨S1024x128, .bf16⟩
  | .local _ .vmem, ⟨28, _⟩ => ⟨S10000x128, .f32⟩
  | .local _ .vmem, ⟨29, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v170 : BitVec 1 := Scalar.cmpi .eq arg1 c49_i32
  let v171 : BitVec 32 := Scalar.extui v170
  let c0_i32_91 : BitVec 32 := 0#32
  let v172 : BitVec 1 := Scalar.cmpi .ne v171 c0_i32_91
  v172

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S500000x128_S2x250000x128 : S500000x128.ShapeCasts S2x250000x128
  shapeCasts_S500000_S2x250000x1 : S500000.ShapeCasts S2x250000x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  concatenates_S5000x128_S5000x128_S5000x128_S5000x128_S5000x512_d1 : Shape.Concatenates [S5000x128, S5000x128, S5000x128, S5000x128] S5000x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  iota_S1x1024_d1_w32 : S1x1024.Iotas .tc 32 [1]
  inb_S1x5000x1_S1x1000x1_0_0_0 : ∀ a, (![0, 0, 0] : Fin 3 → Nat) a + S1x1000x1.size a ≤ S1x5000x1.size a
  h_S1x1000x1 : 0 < S1x1000x1.numel
  shapeCasts_S1x1000x1_S1000x1 : S1x1000x1.ShapeCasts S1000x1
  broadcasts_S1000x1_S1000x1024 : S1000x1.Broadcasts S1000x1024
  broadcasts_S1x1024_S1000x1024 : S1x1024.Broadcasts S1000x1024
  natLt_1_32 : 1 < 32
  slices_S5000x128_o0_0_S1000x128 : S5000x128.Slices ![0, 0] S1000x128
  reduces_S1000x1024_S1024 : S1000x1024.Reduces [0] S1024
  shapeCasts_S1024_S1x1024 : S1024.ShapeCasts S1x1024
  inb_S1x5000x1_S1x1000x1_0_1000_0 : ∀ a, (![0, 1000, 0] : Fin 3 → Nat) a + S1x1000x1.size a ≤ S1x5000x1.size a
  slices_S5000x128_o1000_0_S1000x128 : S5000x128.Slices ![1000, 0] S1000x128
  inb_S1x5000x1_S1x1000x1_0_2000_0 : ∀ a, (![0, 2000, 0] : Fin 3 → Nat) a + S1x1000x1.size a ≤ S1x5000x1.size a
  slices_S5000x128_o2000_0_S1000x128 : S5000x128.Slices ![2000, 0] S1000x128
  inb_S1x5000x1_S1x1000x1_0_3000_0 : ∀ a, (![0, 3000, 0] : Fin 3 → Nat) a + S1x1000x1.size a ≤ S1x5000x1.size a
  slices_S5000x128_o3000_0_S1000x128 : S5000x128.Slices ![3000, 0] S1000x128
  inb_S1x5000x1_S1x1000x1_0_4000_0 : ∀ a, (![0, 4000, 0] : Fin 3 → Nat) a + S1x1000x1.size a ≤ S1x5000x1.size a
  slices_S5000x128_o4000_0_S1000x128 : S5000x128.Slices ![4000, 0] S1000x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  slices_S2x1024x128_S1x1024x128_0_0_0 : S2x1024x128.Slices ![0, 0, 0] S1x1024x128
  slices_S2x1024x128_S1x1024x128_1_0_0 : S2x1024x128.Slices ![1, 0, 0] S1x1024x128
  slices_S2x1x1024_S1x1x1024_0_0_0 : S2x1x1024.Slices ![0, 0, 0] S1x1x1024
  shapeCasts_S1x1x1024_S1024 : S1x1x1024.ShapeCasts S1024
  slices_S2x1x1024_S1x1x1024_1_0_0 : S2x1x1024.Slices ![1, 0, 0] S1x1x1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  shapeCasts_S500000_S500000x1 : S500000.ShapeCasts S500000x1
  inb_S10000x1_S2000x1_0_0 : ∀ a, (![0, 0] : Fin 2 → Nat) a + S2000x1.size a ≤ S10000x1.size a
  h_S2000x1 : 0 < S2000x1.numel
  shapeCasts_S2000x1_S2000x1 : S2000x1.ShapeCasts S2000x1
  broadcasts_S2000x1_S2000x1024 : S2000x1.Broadcasts S2000x1024
  broadcasts_S1x1024_S2000x1024 : S1x1024.Broadcasts S2000x1024
  inb_S10000x128_S2000x128_0_0 : ∀ a, (![0, 0] : Fin 2 → Nat) a + S2000x128.size a ≤ S10000x128.size a
  h_S2000x128 : 0 < S2000x128.numel
  inb_S10000x1_S2000x1_2000_0 : ∀ a, (![2000, 0] : Fin 2 → Nat) a + S2000x1.size a ≤ S10000x1.size a
  inb_S10000x128_S2000x128_2000_0 : ∀ a, (![2000, 0] : Fin 2 → Nat) a + S2000x128.size a ≤ S10000x128.size a
  inb_S10000x1_S2000x1_4000_0 : ∀ a, (![4000, 0] : Fin 2 → Nat) a + S2000x1.size a ≤ S10000x1.size a
  inb_S10000x128_S2000x128_4000_0 : ∀ a, (![4000, 0] : Fin 2 → Nat) a + S2000x128.size a ≤ S10000x128.size a
  inb_S10000x1_S2000x1_6000_0 : ∀ a, (![6000, 0] : Fin 2 → Nat) a + S2000x1.size a ≤ S10000x1.size a
  inb_S10000x128_S2000x128_6000_0 : ∀ a, (![6000, 0] : Fin 2 → Nat) a + S2000x128.size a ≤ S10000x128.size a
  inb_S10000x1_S2000x1_8000_0 : ∀ a, (![8000, 0] : Fin 2 → Nat) a + S2000x1.size a ≤ S10000x1.size a
  inb_S10000x128_S2000x128_8000_0 : ∀ a, (![8000, 0] : Fin 2 → Nat) a + S2000x128.size a ≤ S10000x128.size a
  dot_S5000x512_S512x256_S5000x256_1_0_0_1_n_n_wf : DotDims.WF S5000x512 S512x256 S5000x256 [1] [0] [0] [1] [] []
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  dot_S1000x1024_S1000x128_S1024x128_0_0_1_1_n_n_wf : DotDims.WF S1000x1024 S1000x128 S1024x128 [0] [0] [1] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S2x250000x128.size a
  hwx0_0 : ∀ i : grid0.Coords, EltTy.bits .f32 = 32 ∨ (Rect.block (s := S2x250000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x128.size a ≤ S2x250000x128.size a
  hwx0_1 : ∀ i : grid0.Coords, EltTy.bits .f32 = 32 ∨ (Rect.block (s := S2x250000x128) S1x5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x128.size a ≤ S2x250000x128.size a
  hwx0_2 : ∀ i : grid0.Coords, EltTy.bits .f32 = 32 ∨ (Rect.block (s := S2x250000x128) S1x5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5000x128.size a ≤ S2x250000x128.size a
  hwx0_3 : ∀ i : grid0.Coords, EltTy.bits .f32 = 32 ∨ (Rect.block (s := S2x250000x128) S1x5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5000x1.size a ≤ S2x250000x1.size a
  hwx0_4 : ∀ i : grid0.Coords, EltTy.bits .i32 = 32 ∨ (Rect.block (s := S2x250000x1) S1x5000x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .bf16 = 32 ∨ (Rect.block (s := S256x128) S256x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1024x128.size a ≤ S2x1024x128.size a
  hwx0_13 : ∀ i : grid0.Coords, EltTy.bits .f32 = 32 ∨ (Rect.block (s := S2x1024x128) S1x1024x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x1024.size a ≤ S2x1x1024.size a
  hwx0_14 : ∀ i : grid0.Coords, EltTy.bits .f32 = 32 ∨ (Rect.block (s := S2x1x1024) S1x1x1024.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S500000x1.size a
  hwx1_0 : ∀ i : grid1.Coords, EltTy.bits .i32 = 32 ∨ (Rect.block (s := S500000x1) S10000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .bf16 = 32 ∨ (Rect.block (s := S1024x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .bf16 = 32 ∨ (Rect.block (s := S1024x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S500000x128.size a
  hwx1_3 : ∀ i : grid1.Coords, EltTy.bits .f32 = 32 ∨ (Rect.block (s := S500000x128) S10000x128.size (cc1_transform_3 i) (hinb1_3 i)).WholeWords (EltTy.packing .f32)

variable [Facts₀]

def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S1000x1024_S1000x128_S1024x128_0_0_1_1_n_n : DotDims S1000x1024 S1000x128 S1024x128 where
  lhsContracting := [0]
  rhsContracting := [0]
  lhsNonContracting := [1]
  rhsNonContracting := [1]
  lhsBatch := []
  rhsBatch := []
  wf := dot_S1000x1024_S1000x128_S1024x128_0_0_1_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_v4) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9_0) S1x1024x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_1) S1x1x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | 14 => fun i => !(k0_cond2 i == 1#1) | ⟨_ + 15, h⟩ => absurd h (Nat.not_lt.2 (Nat.le_add_left _ _))

abbrev win1_0 : Pipeline.Window sig grid1 :=
  Pipeline.Window.ofSpec (Memref.whole main_v29) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000 : Shape := ⟨1, ![500000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S500000x512 : Shape := ⟨2, ![500000, 512]⟩
abbrev S500000x256 : Shape := ⟨2, ![500000, 256]⟩
abbrev S1x256 : Shape := ⟨2, ![1, 256]⟩
abbrev S_ : Shape := ⟨0, ![]⟩
abbrev S1x128 : Shape := ⟨2, ![1, 128]⟩
abbrev S1024x128 : Shape := ⟨2, ![1024, 128]⟩
abbrev S500000x1 : Shape := ⟨2, ![500000, 1]⟩
abbrev S1024 : Shape := ⟨1, ![1024]⟩
abbrev S1024x1 : Shape := ⟨2, ![1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S500000x128, .f32⟩
  | .hbm, ⟨4, _⟩ => ⟨S500000, .i32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S500000x512, .f32⟩
  | .hbm, ⟨14, _⟩ => ⟨S500000x256, .f32⟩
  | .hbm, ⟨15, _⟩ => ⟨S1x256, .f32⟩
  | .hbm, ⟨16, _⟩ => ⟨S500000x256, .f32⟩
  | .hbm, ⟨17, _⟩ => ⟨S500000x256, .f32⟩
  | .hbm, ⟨18, _⟩ => ⟨S_, .f32⟩
  | .hbm, ⟨19, _⟩ => ⟨S500000x256, .f32⟩
  | .hbm, ⟨20, _⟩ => ⟨S500000x256, .f32⟩
  | .hbm, ⟨21, _⟩ => ⟨S500000x256, .f32⟩
  | .hbm, ⟨22, _⟩ => ⟨S1x256, .f32⟩
  | .hbm, ⟨23, _⟩ => ⟨S500000x256, .f32⟩
  | .hbm, ⟨24, _⟩ => ⟨S500000x256, .f32⟩
  | .hbm, ⟨25, _⟩ => ⟨S_, .f32⟩
  | .hbm, ⟨26, _⟩ => ⟨S500000x256, .f32⟩
  | .hbm, ⟨27, _⟩ => ⟨S500000x256, .f32⟩
  | .hbm, ⟨28, _⟩ => ⟨S500000x256, .f32⟩
  | .hbm, ⟨29, _⟩ => ⟨S1x256, .f32⟩
  | .hbm, ⟨30, _⟩ => ⟨S500000x256, .f32⟩
  | .hbm, ⟨31, _⟩ => ⟨S500000x256, .f32⟩
  | .hbm, ⟨32, _⟩ => ⟨S_, .f32⟩
  | .hbm, ⟨33, _⟩ => ⟨S500000x256, .f32⟩
  | .hbm, ⟨34, _⟩ => ⟨S500000x256, .f32⟩
  | .hbm, ⟨35, _⟩ => ⟨S500000x128, .f32⟩
  | .hbm, ⟨36, _⟩ => ⟨S1x128, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S1024x128, .f32⟩
  | .hbm, ⟨41, _⟩ => ⟨S500000x1, .i32⟩
  | .hbm, ⟨42, _⟩ => ⟨S1024x128, .f32⟩
  | .hbm, ⟨43, _⟩ => ⟨S_, .f32⟩
  | .hbm, ⟨44, _⟩ => ⟨S500000, .f32⟩
  | .hbm, ⟨45, _⟩ => ⟨S_, .f32⟩
  | .hbm, ⟨46, _⟩ => ⟨S1024, .f32⟩
  | .hbm, ⟨47, _⟩ => ⟨S500000x1, .i32⟩
  | .hbm, ⟨48, _⟩ => ⟨S1024, .f32⟩
  | .hbm, ⟨49, _⟩ => ⟨S1024x1, .f32⟩
  | .hbm, ⟨50, _⟩ => ⟨S1024x128, .f32⟩
  | .hbm, ⟨51, _⟩ => ⟨S1024x128, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_cst : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call2_cst : Ref sig .tc := ⟨.hbm, 32, rfl⟩
abbrev main_call2_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_v31 : Ref sig .tc := ⟨.hbm, 54, rfl⟩
abbrev main_c_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  concatenates_S500000x128_S500000x128_S500000x128_S500000x128_S500000x512_d1 : Shape.Concatenates [S500000x128, S500000x128, S500000x128, S500000x128] S500000x512 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S1024x128 : S_.BroadcastsInDim S1024x128 (![] : Fin 0 → Fin S1024x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  dot_S500000x512_S512x256_S500000x256_1_0_0_1_n_n_wf : DotDims.WF S500000x512 S512x256 S500000x256 [1] [0] [0] [1] [] []
  dot_S500000x256_S256x256_S500000x256_1_0_0_1_n_n_wf : DotDims.WF S500000x256 S256x256 S500000x256 [1] [0] [0] [1] [] []
  dot_S500000x256_S256x128_S500000x128_1_0_0_1_n_n_wf : DotDims.WF S500000x256 S256x128 S500000x128 [1] [0] [0] [1] [] []
  scatter_S1024x128_S500000x1_S500000x128_1_0_0_1_wf : ScatterDims.WF S1024x128 S500000x1 S500000x128 [1] [0] [0] 1
  scatter_S1024_S500000x1_S500000_n_0_0_1_wf : ScatterDims.WF S1024 S500000x1 S500000 [] [0] [0] 1
  gather_S1024x128_S500000x1_S500000x128_1_0_n_n_0_1_1128_wf : GatherDims.WF S1024x128 S500000x1 S500000x128 [1] [0] [] [0] [] 1 ![1, 128]

variable [Facts₀]

def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def gather_S1024x128_S500000x1_S500000x128_1_0_n_n_0_1_1128 : GatherDims S1024x128 S500000x1 S500000x128 where
  offsetDims := [1]
  collapsedSliceDims := [0]
  operandBatchingDims := []
  startIndicesBatchingDims := []
  startIndexMap := [0]
  indexVectorDim := 1
  sliceSizes := ![1, 128]
  wf := gather_S1024x128_S500000x1_S500000x128_1_0_n_n_0_1_1128_wf

class Facts : Prop extends Facts₀ where

variable [Facts]
-- ==== Proof.K.Common.lean ====
/-
  What the two kernel regions share, at either float instance: the scalar tests the first kernel branches
  on, decided over its grid; the staging and scratch memrefs by name; each window's block at a grid point,
  read off the arrays as the region finds them; and, as explicit terms over those blocks, what one grid
  point of the first kernel leaves in its two accumulators (the segment sums and the segment counts after
  the point's five row chunks) and what one grid point of the second kernel leaves in its output block
  (five row chunks, each the indicator rows times the two tables, added).
-/
import proofs.«411350_j36593121362170_3_alg».proof.Proof.Gen.Kernel.Launch
import proofs.«411350_j36593121362170_3_alg».proof.Proof.Gen.Kernel.Skeleton
import proofs.«411350_j36593121362170_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The rectangles the bodies load and store through -/

abbrev rX : Rect S1x5000x128 := Rect.unit (s := S1x5000x128) ![0, 0, 0] S1x5000x128.size inb_S1x5000x128_S1x5000x128_0_0_0
abbrev rE0 : Rect S1x5000x1 := Rect.unit (s := S1x5000x1) ![0, 0, 0] S1x1000x1.size inb_S1x5000x1_S1x1000x1_0_0_0
abbrev rE1 : Rect S1x5000x1 := Rect.unit (s := S1x5000x1) ![0, 1000, 0] S1x1000x1.size inb_S1x5000x1_S1x1000x1_0_1000_0
abbrev rE2 : Rect S1x5000x1 := Rect.unit (s := S1x5000x1) ![0, 2000, 0] S1x1000x1.size inb_S1x5000x1_S1x1000x1_0_2000_0
abbrev rE3 : Rect S1x5000x1 := Rect.unit (s := S1x5000x1) ![0, 3000, 0] S1x1000x1.size inb_S1x5000x1_S1x1000x1_0_3000_0
abbrev rE4 : Rect S1x5000x1 := Rect.unit (s := S1x5000x1) ![0, 4000, 0] S1x1000x1.size inb_S1x5000x1_S1x1000x1_0_4000_0
abbrev rW1 : Rect S512x256 := Rect.unit (s := S512x256) ![0, 0] S512x256.size inb_S512x256_S512x256_0_0
abbrev rB256 : Rect S256 := Rect.unit (s := S256) ![0] S256.size inb_S256_S256_0
abbrev rW256 : Rect S256x256 := Rect.unit (s := S256x256) ![0, 0] S256x256.size inb_S256x256_S256x256_0_0
abbrev rW4 : Rect S256x128 := Rect.unit (s := S256x128) ![0, 0] S256x128.size inb_S256x128_S256x128_0_0
abbrev rB128 : Rect S128 := Rect.unit (s := S128) ![0] S128.size inb_S128_S128_0
abbrev rT : Rect S1024x128 := Rect.unit (s := S1024x128) ![0, 0] S1024x128.size inb_S1024x128_S1024x128_0_0
abbrev rC : Rect S1x1024 := Rect.unit (s := S1x1024) ![0, 0] S1x1024.size inb_S1x1024_S1x1024_0_0
abbrev rO13 : Rect S1x1024x128 := Rect.unit (s := S1x1024x128) ![0, 0, 0] S1x1024x128.size inb_S1x1024x128_S1x1024x128_0_0_0
abbrev rO14 : Rect S1x1x1024 := Rect.unit (s := S1x1x1024) ![0, 0, 0] S1x1x1024.size inb_S1x1x1024_S1x1x1024_0_0_0
abbrev rI0 : Rect S10000x1 := Rect.unit (s := S10000x1) ![0, 0] S2000x1.size inb_S10000x1_S2000x1_0_0
abbrev rI1 : Rect S10000x1 := Rect.unit (s := S10000x1) ![2000, 0] S2000x1.size inb_S10000x1_S2000x1_2000_0
abbrev rI2 : Rect S10000x1 := Rect.unit (s := S10000x1) ![4000, 0] S2000x1.size inb_S10000x1_S2000x1_4000_0
abbrev rI3 : Rect S10000x1 := Rect.unit (s := S10000x1) ![6000, 0] S2000x1.size inb_S10000x1_S2000x1_6000_0
abbrev rI4 : Rect S10000x1 := Rect.unit (s := S10000x1) ![8000, 0] S2000x1.size inb_S10000x1_S2000x1_8000_0
abbrev rQ0 : Rect S10000x128 := Rect.unit (s := S10000x128) ![0, 0] S2000x128.size inb_S10000x128_S2000x128_0_0
abbrev rQ1 : Rect S10000x128 := Rect.unit (s := S10000x128) ![2000, 0] S2000x128.size inb_S10000x128_S2000x128_2000_0
abbrev rQ2 : Rect S10000x128 := Rect.unit (s := S10000x128) ![4000, 0] S2000x128.size inb_S10000x128_S2000x128_4000_0
abbrev rQ3 : Rect S10000x128 := Rect.unit (s := S10000x128) ![6000, 0] S2000x128.size inb_S10000x128_S2000x128_6000_0
abbrev rQ4 : Rect S10000x128 := Rect.unit (s := S10000x128) ![8000, 0] S2000x128.size inb_S10000x128_S2000x128_8000_0

/-! ## One grid point of the first kernel, as a term over the blocks it is handed -/

/-- The lane ids 0, …, 1023 as a row: what an edge's segment id is compared with. -/
abbrev laneIds : IVec S1x1024 32 := iota .tc S1x1024 32 [1] iota_S1x1024_d1_w32

/-- The point's 5000 rows after the first two layers (the second not yet rectified). -/
def hid (x0 x1 x2 x3 : Vec F S1x5000x128 .f32) (w1 : Vec F S512x256 .bf16) (b1 : Vec F S256 .f32)
    (w2 : Vec F S256x256 .bf16) (b2 : Vec F S256 .f32) : FVec F S5000x256 .f32 :=
  k0_pay9 (View.ld x0 rX) (View.ld x1 rX) (View.ld x2 rX) (View.ld x3 rX) (View.ld w1 rW1) (View.ld b1 rB256) (View.ld w2 rW256) (View.ld b2 rB256)

/-- The point's 5000 activation rows: the perceptron of the four feature blocks laid side by side. -/
def act (x0 x1 x2 x3 : Vec F S1x5000x128 .f32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) : FVec F S5000x128 .bf16 :=
  k0_pay10 (hid x0 x1 x2 x3 w1 b1 w2 b2) (Scalar.ofBits .f32 0x00000000#32) (View.ld w3 rW256) (View.ld b3 rB256) (View.ld w4 rW4) (View.ld b4 rB128)

/-- The segment sums after the point: what it was handed (`xs0`) plus, chunk by chunk of 1000 rows, the
    indicator columns times the chunk's activation rows. -/
def sumsNext (x0 x1 x2 x3 : Vec F S1x5000x128 .f32) (eiB : Vec F S1x5000x1 .i32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) (xs0 : Vec F S1024x128 .f32) : Vec F S1024x128 .f32 :=
  k0_pay3 (act x0 x1 x2 x3 w1 b1 w2 b2 w3 b3 w4 b4) laneIds (View.ld eiB rE4)
    (k0_pay23 (act x0 x1 x2 x3 w1 b1 w2 b2 w3 b3 w4 b4) laneIds (View.ld eiB rE3)
      (k0_pay20 (k0_pay18 laneIds (View.ld eiB rE2)) (k0_pay19 (act x0 x1 x2 x3 w1 b1 w2 b2 w3 b3 w4 b4))
        (k0_pay16 (act x0 x1 x2 x3 w1 b1 w2 b2 w3 b3 w4 b4) laneIds (View.ld eiB rE1)
          (k0_pay12 (hid x0 x1 x2 x3 w1 b1 w2 b2) (Scalar.ofBits .f32 0x00000000#32) (View.ld w3 rW256) (View.ld b3 rB256) (View.ld w4 rW4) (View.ld b4 rB128) (View.ld eiB rE0) xs0))))

/-- The segment counts after the point: what it was handed (`xs1`) plus, chunk by chunk, the indicator
    columns' sums. -/
def cntNext (eiB : Vec F S1x5000x1 .i32) (xs1 : Vec F S1x1024 .f32) : Vec F S1x1024 .f32 :=
  k0_pay4 laneIds (View.ld eiB rE4)
    (k0_pay1 (k0_pay24 laneIds (View.ld eiB rE3)
      (k0_pay21 (k0_pay18 laneIds (View.ld eiB rE2))
        (k0_pay17 laneIds (View.ld eiB rE1)
          (k0_pay14 xs1 (k0_pay13 (View.ld eiB rE0)))))))

/-! ## One grid point of the second kernel, as a term over the blocks it is handed -/

/-- The output block after the point: its five chunks of 2000 rows, each the chunk's indicator rows times
    the two tables, added — as the stores' pieces, last first. -/
def gatherOut (eiB : Vec F S10000x1 .i32) (hi lo : Vec F S1024x128 .bf16) : Vec F S10000x128 .f32 :=
  View.canon [
    ⟨rQ4, k1_pay3 laneIds (k1_pay4 (View.ld hi rT)) (k1_pay5 (View.ld lo rT)) (View.ld eiB rI4)⟩,
    ⟨rQ3, k1_pay2 laneIds (k1_pay4 (View.ld hi rT)) (k1_pay5 (View.ld lo rT)) (View.ld eiB rI3)⟩,
    ⟨rQ2, k1_pay1 (k1_pay5 (View.ld lo rT)) (k1_pay8 (View.ld eiB rI2)) (k1_pay9 (View.ld hi rT) (View.ld eiB rI2))⟩,
    ⟨rQ1, k1_pay7 (View.ld hi rT) (View.ld lo rT) (View.ld eiB rI1)⟩,
    ⟨rQ0, k1_pay6 (View.ld hi rT) (View.ld lo rT) (View.ld eiB rI0)⟩]

end Cert.Kernel.Hand

end
-- ==== Proof.K.Data0.lean ====
/-
  The first kernel region's proof data, at either float instance and at a parameter `V` (the core's
  buffer contents when the region is entered): each window's block at a grid point; the two accumulators
  after every point (`accAt0`: at a core's first step the point's contribution over zeros, afterwards
  over what the point before left); the invariant between points (the accumulators held at those
  contents from the first point on); and what each window's staging buffer holds after a point — an
  input its block, the two outputs the accumulators as the last step of a core writes them out.
-/
import proofs.«411350_j36593121362170_3_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulators after point `t` when handed `xs0`, `xs1`: the point's blocks through `sumsNext`, `cntNext`. -/
def pt0 (c : Dev nD) (t : Fin cfg0.N) (xs0 : Vec F S1024x128 .f32) (xs1 : Vec F S1x1024 .f32) : Vec F S1024x128 .f32 × Vec F S1x1024 .f32 :=
  (sumsNext (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t) xs0,
    cntNext (iblk0 V c 4 t) xs1)

/-- THE ACCUMULATION: the two accumulators after the body at position `n`. A point whose step is the first of its
    core (position ≡ 0 mod 50) starts from the zero fills; any other continues what the point before left. -/
def accAt0 (c : Dev nD) : (n : ℕ) → n < cfg0.N → Vec F S1024x128 .f32 × Vec F S1x1024 .f32
  | 0, hn => pt0 V c ⟨0, hn⟩ k0_pay7 k0_pay8
  | n + 1, hn =>
    if (n + 1) % 50 = 0 then pt0 V c ⟨n + 1, hn⟩ k0_pay7 k0_pay8
    else pt0 V c ⟨n + 1, hn⟩ (accAt0 c n (Nat.lt_of_succ_lt hn)).1 (accAt0 c n (Nat.lt_of_succ_lt hn)).2

theorem accAt0_first (c : Dev nD) (t : Fin cfg0.N) (h0 : t.val % 50 = 0) :
    accAt0 V c t.val t.isLt = pt0 V c t k0_pay7 k0_pay8 := by
  obtain ⟨n, hn⟩ := t
  cases n with
  | zero => rfl
  | succ n => exact if_pos h0

theorem accAt0_next (c : Dev nD) (t : Fin cfg0.N) (h0 : ¬t.val % 50 = 0) :
    accAt0 V c t.val t.isLt = pt0 V c t (accAt0 V c (t.val - 1) (Nat.lt_of_le_of_lt (Nat.sub_le _ _) t.isLt)).1
      (accAt0 V c (t.val - 1) (Nat.lt_of_le_of_lt (Nat.sub_le _ _) t.isLt)).2 := by
  obtain ⟨n, hn⟩ := t
  cases n with
  | zero => exact absurd (Nat.zero_mod _) h0
  | succ n => exact if_neg h0

/-- The first kernel's two scratch operands: whole scoped buffers of its own. -/
abbrev scM0_0 : Memref sig .tc .vmem S1024x128 .f32 := Memref.whole cc0_scratch0
abbrev scM0_1 : Memref sig .tc .vmem S1x1024 .f32 := Memref.whole cc0_scratch1

/-- The core's scoped buffers that the first region neither stages through nor accumulates in (the second region's
    staging buffers), each whole at some contents. -/
def restBufs0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point everything scoped at anything; afterwards the
    two accumulators at what the point before left, the other scoped buffers at anything, the generator register at
    some state. -/
def PhiS0 (c : Dev nD) : (n : ℕ) → n ≤ cfg0.N → sProp 𝕄
  | 0, _ => Pipeline.ΦA spec0 c
  | n + 1, hn => iprop(owns (c : Thread nD τ) scM0_0 fullShare (accAt0 V c n hn).1 ∗ owns (c : Thread nD τ) scM0_1 fullShare (accAt0 V c n hn).2
      ∗ restBufs0 c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => k0_pay5 (accAt0 V c t.val t.isLt).1
    | ⟨14, _⟩ => k0_pay6 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_13 (c : Dev nD) (t : Fin cfg0.N) : (dat0 V c).after 13 t = k0_pay5 (accAt0 V c t.val t.isLt).1 := by dsimp only [dat0]
theorem after0_14 (c : Dev nD) (t : Fin cfg0.N) : (dat0 V c).after 14 t = k0_pay6 (accAt0 V c t.val t.isLt).2 := by dsimp only [dat0]

end

end Cert.Kernel.Hand

end
-- ==== Proof.K.Data1.lean ====
/-
  The second kernel region's proof data, at either float instance and at a parameter `V` (the core's buffer
  contents when the region is entered): each window's block at a grid point, and what each window's staging
  buffer holds after a point — an input its block, the output the five chunks of indicator rows times the two
  tables (`gatherOut` of the point's blocks). The region keeps nothing between points.
-/
import proofs.«411350_j36593121362170_3_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => gatherOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = gatherOut (iblk1 V c 0 t) (iblk1 V c 1 t) (iblk1 V c 2 t) := by dsimp only [dat1]

end

end Cert.Kernel.Hand

end
-- ==== Proof.K.Fold.lean ====
/-
  The buffer contents at each boundary of the program's four items (host operations, the first region, host
  operations, the second region), at either float instance, as a fold from the launch memory: a stretch of
  host operations leaves what its operations compute; a region leaves its arrays at what its write-backs
  leave (the proof data's `arrAt` at the grid's end) and every other buffer as entered.
-/
import proofs.«411350_j36593121362170_3_alg».proof.Proof.K.Data0
import proofs.«411350_j36593121362170_3_alg».proof.Proof.K.Data1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.Kernel.Hand

end
-- ==== Proof.K.Conds.lean ====
/-
  The two scalar tests the first kernel's body branches on, as propositions over a grid point's coordinates.
-/
import proofs.«411350_j36593121362170_3_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first kernel's first test: the step coordinate is zero (the accumulators are zero-filled). -/
abbrev cond0_0 (i : grid0.Coords) : Prop := (Scalar.cmpi .ne (Scalar.extui (Scalar.cmpi .eq (BitVec.ofNat 32 (i 1).val) 0#32)) 0#32) = 1#1
/-- Its second test: the step coordinate is the last, 49 (the accumulators are written out). -/
abbrev cond0_1 (i : grid0.Coords) : Prop := k0_cond2 i = 1#1

end Cert.Kernel.Hand

end
-- ==== Proof.K.Run0A.lean ====
/-
  The first kernel's body at a core's first step, on whole memrefs at stated contents, at either float instance:
  the accumulators, at anything, are zero-filled and take the point's contribution; the outputs and the feature,
  id and parameter blocks come back as handed in.
-/
import proofs.«411350_j36593121362170_3_alg».proof.Proof.K.Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two rectangle, as the constant function. -/
theorem zeroOff2 : (![0, 0] : Fin 2 → Nat) = fun _ => 0 := funext fun a => by fin_cases a <;> rfl

/-- What a buffer reads after a list of stores whose LAST is through the whole-shape rectangle at zero offsets:
    that store's payload, whatever the earlier stores and the contents before them. -/
theorem read_writes_last_whole {Val : EltTy → Type} {S : Shape} {e : EltTy} [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.Mem.head _, View.mem_set_unit_zero h inb y⟩), View.canon_cons_unit_zero h]

set_option maxHeartbeats 4000000 in
/-- CASE A, a core's first step: the accumulators, at anything, are zero-filled and take the point's contribution; the
    outputs are not touched. -/
theorem kernelRun0_A (c : Dev nD) (i : grid0.Coords) (arg2 : Memref sig .tc .vmem S1x5000x128 .f32) (harg2 : arg2.IsWhole) (arg3 : Memref sig .tc .vmem S1x5000x128 .f32) (harg3 : arg3.IsWhole)
    (arg4 : Memref sig .tc .vmem S1x5000x128 .f32) (harg4 : arg4.IsWhole) (arg5 : Memref sig .tc .vmem S1x5000x128 .f32) (harg5 : arg5.IsWhole)
    (arg6 : Memref sig .tc .vmem S1x5000x1 .i32) (harg6 : arg6.IsWhole) (arg7 : Memref sig .tc .vmem S512x256 .bf16) (harg7 : arg7.IsWhole)
    (arg8 : Memref sig .tc .vmem S256 .f32) (harg8 : arg8.IsWhole) (arg9 : Memref sig .tc .vmem S256x256 .bf16) (harg9 : arg9.IsWhole)
    (arg10 : Memref sig .tc .vmem S256 .f32) (harg10 : arg10.IsWhole) (arg11 : Memref sig .tc .vmem S256x256 .bf16) (harg11 : arg11.IsWhole)
    (arg12 : Memref sig .tc .vmem S256 .f32) (harg12 : arg12.IsWhole) (arg13 : Memref sig .tc .vmem S256x128 .bf16) (harg13 : arg13.IsWhole)
    (arg14 : Memref sig .tc .vmem S128 .f32) (harg14 : arg14.IsWhole) (arg15 : Memref sig .tc .vmem S1x1024x128 .f32) (harg15 : arg15.IsWhole)
    (arg16 : Memref sig .tc .vmem S1x1x1024 .f32) (harg16 : arg16.IsWhole) (arg17 : Memref sig .tc .vmem S1024x128 .f32) (harg17 : arg17.IsWhole)
    (arg18 : Memref sig .tc .vmem S1x1024 .f32) (harg18 : arg18.IsWhole)
    (hc0 : cond0_0 i) (hc1 : ¬cond0_1 i)
    (x0 x1 x2 x3 : Vec F S1x5000x128 .f32) (e : Vec F S1x5000x1 .i32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) (xo13 : Vec F S1x1024x128 .f32) (xo14 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
        ∗ owns (c : Thread nD τ) arg15 fullShare xo13 ∗ owns (c : Thread nD τ) arg16 fullShare xo14
        ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
            ∗ owns (c : Thread nD τ) arg15 fullShare xo13 ∗ owns (c : Thread nD τ) arg16 fullShare xo14
            ∗ owns (c : Thread nD τ) arg17 fullShare (sumsNext x0 x1 x2 x3 e w1 b1 w2 b2 w3 b3 w4 b4 k0_pay7)
            ∗ owns (c : Thread nD τ) arg18 fullShare (cntNext e k0_pay8)) -∗ K ⟨⟩))
      ⊢ wp frame (wpE (defs₀ (F := F)) Variants.none c none) E (cc0__mlp_segment_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__mlp_segment_kernel_eq_skeleton]; unfold cc0__mlp_segment_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  -- each block is named by what its buffer reads
  subst hf2; subst hf3; subst hf4; subst hf5; subst hf6; subst hf7; subst hf8; subst hf9; subst hf10; subst hf11; subst hf12; subst hf13; subst hf14; subst hf15; subst hf16
  sl_exec (disch := first | exact hc0 | exact hc1)
  sl_step
  iapply Hk
  -- the feature, id and parameter blocks and the two outputs are only loaded: their buffers come back as they were
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  -- the segment sums: six stores through the whole buffer, the zero fill then the five chunks' updates. The buffer
  -- reads the last store's payload; each update's accumulator argument is a load through the store before's own
  -- rectangle, which reads that store's payload, and so on down to the zero fill
  isplitl [H17]
  · iexists _; isplitr
    swap; · iexact H17
    ipureintro
    sl_unfold_run_names
    rw [read_writes_last_whole _ _ zeroOff2]
    simp only [View.readCov_cons_toLoadRect]
    rfl
  -- the segment counts: the same six stores, over the zero fill
  iexists _; isplitr
  swap; · iexact H18
  ipureintro
  sl_unfold_run_names
  rw [read_writes_last_whole _ _ zeroOff2]
  simp only [View.readCov_cons_toLoadRect]
  rfl

end Cert.Kernel.Hand

end
-- ==== Proof.K.Run0C.lean ====
/-
  The first kernel's body at a core's last step, on whole memrefs at stated contents, at either float instance:
  the accumulators take the point's contribution and the two output buffers end at the accumulators as written
  out; the feature, id and parameter blocks come back as handed in.
-/
import proofs.«411350_j36593121362170_3_alg».proof.Proof.K.Conds
import proofs.«411350_j36593121362170_3_alg».proof.Proof.K.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-buffer rectangle of three axes are all zero. -/
theorem zeroOff3 : (![0, 0, 0] : Fin 3 → Nat) = fun _ => 0 := funext fun a => by fin_cases a <;> rfl

set_option maxHeartbeats 4000000 in
/-- CASE C, a core's last step: the accumulators take the point's contribution and the outputs, at anything, end at the
    accumulators as written out. -/
theorem kernelRun0_C (c : Dev nD) (i : grid0.Coords) (arg2 : Memref sig .tc .vmem S1x5000x128 .f32) (harg2 : arg2.IsWhole) (arg3 : Memref sig .tc .vmem S1x5000x128 .f32) (harg3 : arg3.IsWhole)
    (arg4 : Memref sig .tc .vmem S1x5000x128 .f32) (harg4 : arg4.IsWhole) (arg5 : Memref sig .tc .vmem S1x5000x128 .f32) (harg5 : arg5.IsWhole)
    (arg6 : Memref sig .tc .vmem S1x5000x1 .i32) (harg6 : arg6.IsWhole) (arg7 : Memref sig .tc .vmem S512x256 .bf16) (harg7 : arg7.IsWhole)
    (arg8 : Memref sig .tc .vmem S256 .f32) (harg8 : arg8.IsWhole) (arg9 : Memref sig .tc .vmem S256x256 .bf16) (harg9 : arg9.IsWhole)
    (arg10 : Memref sig .tc .vmem S256 .f32) (harg10 : arg10.IsWhole) (arg11 : Memref sig .tc .vmem S256x256 .bf16) (harg11 : arg11.IsWhole)
    (arg12 : Memref sig .tc .vmem S256 .f32) (harg12 : arg12.IsWhole) (arg13 : Memref sig .tc .vmem S256x128 .bf16) (harg13 : arg13.IsWhole)
    (arg14 : Memref sig .tc .vmem S128 .f32) (harg14 : arg14.IsWhole) (arg15 : Memref sig .tc .vmem S1x1024x128 .f32) (harg15 : arg15.IsWhole)
    (arg16 : Memref sig .tc .vmem S1x1x1024 .f32) (harg16 : arg16.IsWhole) (arg17 : Memref sig .tc .vmem S1024x128 .f32) (harg17 : arg17.IsWhole)
    (arg18 : Memref sig .tc .vmem S1x1024 .f32) (harg18 : arg18.IsWhole)
    (hc0 : ¬cond0_0 i) (hc1 : cond0_1 i)
    (x0 x1 x2 x3 : Vec F S1x5000x128 .f32) (e : Vec F S1x5000x1 .i32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) (xs0 : Vec F S1024x128 .f32) (xs1 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
        ∗ (∃ d, owns (c : Thread nD τ) arg15 fullShare d) ∗ (∃ d, owns (c : Thread nD τ) arg16 fullShare d)
        ∗ owns (c : Thread nD τ) arg17 fullShare xs0 ∗ owns (c : Thread nD τ) arg18 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
            ∗ owns (c : Thread nD τ) arg15 fullShare (k0_pay5 (sumsNext x0 x1 x2 x3 e w1 b1 w2 b2 w3 b3 w4 b4 xs0))
            ∗ owns (c : Thread nD τ) arg16 fullShare (k0_pay6 (cntNext e xs1))
            ∗ owns (c : Thread nD τ) arg17 fullShare (sumsNext x0 x1 x2 x3 e w1 b1 w2 b2 w3 b3 w4 b4 xs0)
            ∗ owns (c : Thread nD τ) arg18 fullShare (cntNext e xs1)) -∗ K ⟨⟩))
      ⊢ wp frame (wpE (defs₀ (F := F)) Variants.none c none) E (cc0__mlp_segment_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__mlp_segment_kernel_eq_skeleton]; unfold cc0__mlp_segment_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, ⟨%f11, %hf11, H11⟩, ⟨%f12, %hf12, H12⟩, ⟨%f13, %hf13, H13⟩, ⟨%f14, %hf14, H14⟩,
    ⟨%d15, %f15, -, H15⟩, ⟨%d16, %f16, -, H16⟩, ⟨%f17, %hf17, H17⟩, ⟨%f18, %hf18, H18⟩, Hk⟩
  subst hf2; subst hf3; subst hf4; subst hf5; subst hf6; subst hf7; subst hf8; subst hf9; subst hf10; subst hf11
  subst hf12; subst hf13; subst hf14; subst hf17; subst hf18
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  -- before any store, a load of an accumulator through its whole rectangle reads the contents it was handed
  have e17 : View.readAt (Elt F) arg17.view (Rect.unit (s := S1024x128) ![0, 0] S1024x128.size inb_S1024x128_S1024x128_0_0).toLoadRect f17
      = arg17.view.read (Elt F) f17 := View.ld_unit_zero (S := S1024x128) zeroOff2 inb_S1024x128_S1024x128_0_0 _
  have e18 : View.readAt (Elt F) arg18.view (Rect.unit (s := S1x1024) ![0, 0] S1x1024.size inb_S1x1024_S1x1024_0_0).toLoadRect f18
      = arg18.view.read (Elt F) f18 := View.ld_unit_zero (S := S1x1024) zeroOff2 inb_S1x1024_S1x1024_0_0 _
  -- each output holds one whole-buffer store: the written-out form of the accumulator as its last store left it
  isplitl [H15]
  · iexists _; isplitr
    swap; · iexact H15
    ipureintro
    sl_unfold_run_names
    rw [read_writes_last_whole _ _ zeroOff3]
    simp only [View.readCov_cons_toLoadRect, e17]
    rfl
  isplitl [H16]
  · iexists _; isplitr
    swap; · iexact H16
    ipureintro
    sl_unfold_run_names
    rw [read_writes_last_whole _ _ zeroOff3]
    simp only [View.readCov_cons_toLoadRect, e18]
    rfl
  -- each accumulator's last store is through its whole rectangle and alone decides; every load in between is
  -- through the rectangle of the store before it, so it reads that store's payload
  isplitl [H17]
  · iexists _; isplitr
    swap; · iexact H17
    ipureintro
    sl_unfold_run_names
    rw [read_writes_last_whole _ _ zeroOff2]
    simp only [View.readCov_cons_toLoadRect, e17]
    rfl
  iexists _; isplitr
  swap; · iexact H18
  ipureintro
  sl_unfold_run_names
  rw [read_writes_last_whole _ _ zeroOff2]
  simp only [View.readCov_cons_toLoadRect, e18]
  rfl

end Cert.Kernel.Hand

end
-- ==== Proof.K.Run0.lean ====
/-
  The first kernel's body, run once per case of its two tests, on whole memrefs at stated contents, at either
  float instance. In every case the feature, id and parameter blocks come back as handed in, and the two
  accumulators end at the point's contribution (`sumsNext`, `cntNext`) over what they started from — the zero
  fills at a core's first step, the handed contents otherwise. At a core's last step the two output buffers
  end at the accumulators as written out; at the other steps they come back untouched. The first-step and
  last-step cases are the two modules imported; the middle-step case is here: the accumulators, at the contents
  the step before left, take the point's contribution, and the outputs come back as handed in.
-/
import proofs.«411350_j36593121362170_3_alg».proof.Proof.K.Run0A
import proofs.«411350_j36593121362170_3_alg».proof.Proof.K.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- CASE B, a middle step: the accumulators, at `xs0`, `xs1`, take the point's contribution; the outputs are not touched. -/
theorem kernelRun0_B (c : Dev nD) (i : grid0.Coords) (arg2 : Memref sig .tc .vmem S1x5000x128 .f32) (harg2 : arg2.IsWhole) (arg3 : Memref sig .tc .vmem S1x5000x128 .f32) (harg3 : arg3.IsWhole)
    (arg4 : Memref sig .tc .vmem S1x5000x128 .f32) (harg4 : arg4.IsWhole) (arg5 : Memref sig .tc .vmem S1x5000x128 .f32) (harg5 : arg5.IsWhole)
    (arg6 : Memref sig .tc .vmem S1x5000x1 .i32) (harg6 : arg6.IsWhole) (arg7 : Memref sig .tc .vmem S512x256 .bf16) (harg7 : arg7.IsWhole)
    (arg8 : Memref sig .tc .vmem S256 .f32) (harg8 : arg8.IsWhole) (arg9 : Memref sig .tc .vmem S256x256 .bf16) (harg9 : arg9.IsWhole)
    (arg10 : Memref sig .tc .vmem S256 .f32) (harg10 : arg10.IsWhole) (arg11 : Memref sig .tc .vmem S256x256 .bf16) (harg11 : arg11.IsWhole)
    (arg12 : Memref sig .tc .vmem S256 .f32) (harg12 : arg12.IsWhole) (arg13 : Memref sig .tc .vmem S256x128 .bf16) (harg13 : arg13.IsWhole)
    (arg14 : Memref sig .tc .vmem S128 .f32) (harg14 : arg14.IsWhole) (arg15 : Memref sig .tc .vmem S1x1024x128 .f32) (harg15 : arg15.IsWhole)
    (arg16 : Memref sig .tc .vmem S1x1x1024 .f32) (harg16 : arg16.IsWhole) (arg17 : Memref sig .tc .vmem S1024x128 .f32) (harg17 : arg17.IsWhole)
    (arg18 : Memref sig .tc .vmem S1x1024 .f32) (harg18 : arg18.IsWhole)
    (hc0 : ¬cond0_0 i) (hc1 : ¬cond0_1 i)
    (x0 x1 x2 x3 : Vec F S1x5000x128 .f32) (e : Vec F S1x5000x1 .i32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) (xs0 : Vec F S1024x128 .f32) (xs1 : Vec F S1x1024 .f32) (xo13 : Vec F S1x1024x128 .f32) (xo14 : Vec F S1x1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
        ∗ owns (c : Thread nD τ) arg15 fullShare xo13 ∗ owns (c : Thread nD τ) arg16 fullShare xo14
        ∗ owns (c : Thread nD τ) arg17 fullShare xs0 ∗ owns (c : Thread nD τ) arg18 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
            ∗ owns (c : Thread nD τ) arg15 fullShare xo13 ∗ owns (c : Thread nD τ) arg16 fullShare xo14
            ∗ owns (c : Thread nD τ) arg17 fullShare (sumsNext x0 x1 x2 x3 e w1 b1 w2 b2 w3 b3 w4 b4 xs0)
            ∗ owns (c : Thread nD τ) arg18 fullShare (cntNext e xs1)) -∗ K ⟨⟩))
      ⊢ wp frame (wpE (defs₀ (F := F)) Variants.none c none) E (cc0__mlp_segment_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__mlp_segment_kernel_eq_skeleton]; unfold cc0__mlp_segment_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  -- each block is named by what its buffer reads
  subst hf2; subst hf3; subst hf4; subst hf5; subst hf6; subst hf7; subst hf8; subst hf9; subst hf10; subst hf11; subst hf12; subst hf13; subst hf14; subst hf15; subst hf16; subst hf17; subst hf18
  -- a load of an accumulator's whole buffer, before any store of the run, reads the contents handed in
  have e17 : View.readAt (Elt F) arg17.view (Rect.unit (s := S1024x128) ![0, 0] S1024x128.size inb_S1024x128_S1024x128_0_0).toLoadRect f17
      = arg17.view.read (Elt F) f17 := View.ld_unit_zero (S := S1024x128) zeroOff2 inb_S1024x128_S1024x128_0_0 _
  have e18 : View.readAt (Elt F) arg18.view (Rect.unit (s := S1x1024) ![0, 0] S1x1024.size inb_S1x1024_S1x1024_0_0).toLoadRect f18
      = arg18.view.read (Elt F) f18 := View.ld_unit_zero (S := S1x1024) zeroOff2 inb_S1x1024_S1x1024_0_0 _
  sl_exec (disch := first | exact hc0 | exact hc1)
  sl_step
  iapply Hk
  -- the feature, id and parameter blocks and the two outputs are only loaded: their buffers come back as they were
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  -- the segment sums: five stores through the whole buffer, one per chunk of rows. The buffer reads the last store's
  -- payload; each update's accumulator argument is a load through the store before's own rectangle, which reads that
  -- store's payload, and so on down to the first chunk's, whose load reads the contents handed in
  isplitl [H17]
  · iexists _; isplitr
    swap; · iexact H17
    ipureintro
    sl_unfold_run_names
    rw [read_writes_last_whole _ _ zeroOff2]
    simp only [View.readCov_cons_toLoadRect, e17]
    rfl
  -- the segment counts: the same five stores, over the contents handed in
  iexists _; isplitr
  swap; · iexact H18
  ipureintro
  sl_unfold_run_names
  rw [read_writes_last_whole _ _ zeroOff2]
  simp only [View.readCov_cons_toLoadRect, e18]
  rfl

end Cert.Kernel.Hand

end
-- ==== Proof.K.Frame0.lean ====
/-
  The first kernel region's body obligation, at either float instance and at any entry contents `V`: at every
  grid point the body, handed the invariant and the windows' staging buffers, returns them at the proof data's
  next contents. Which of the body's three cases a point is in is decided by its position modulo 50; an
  input's staging buffer holds its block whether fetched at the point or kept; the two outputs are idle and
  handed back untouched except at a core's last step, where the body stores them whole. The invariant hands the
  body the two accumulators at what the point before left (at anything before the first point) and takes them
  back at this point's contents.
-/
import proofs.«411350_j36593121362170_3_alg».proof.Proof.K.Data0
import proofs.«411350_j36593121362170_3_alg».proof.Proof.K.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two tests in closed form, and where the outputs are idle -/

/-- The first test holds at a core's first step: the positions ≡ 0 (mod 50). -/
theorem hcond0_0 : ∀ t : Fin cfg0.N, cond0_0 (grid0.coords t) ↔ t.val % 50 = 0 :=
  (by decide +kernel : ∀ t : Fin grid0.N, cond0_0 (grid0.coords t) ↔ t.val % 50 = 0)

/-- The second test holds at a core's last step: the positions ≡ 49 (mod 50). -/
theorem hcond0_1 : ∀ t : Fin cfg0.N, cond0_1 (grid0.coords t) ↔ t.val % 50 = 49 :=
  (by decide +kernel : ∀ t : Fin grid0.N, cond0_1 (grid0.coords t) ↔ t.val % 50 = 49)

/-- Away from a core's last step the two outputs are idle, -/
theorem idleAt0_13 : ∀ t : Fin cfg0.N, ¬cond0_1 (grid0.coords t) → cfg0.idle 13 (grid0.coords t) = true := by decide +kernel
theorem idleAt0_14 : ∀ t : Fin cfg0.N, ¬cond0_1 (grid0.coords t) → cfg0.idle 14 (grid0.coords t) = true := by decide +kernel
/-- at it they are live, -/
theorem liveAt0_13 : ∀ t : Fin cfg0.N, cond0_1 (grid0.coords t) → cfg0.idle 13 (grid0.coords t) = false := by decide +kernel
theorem liveAt0_14 : ∀ t : Fin cfg0.N, cond0_1 (grid0.coords t) → cfg0.idle 14 (grid0.coords t) = false := by decide +kernel
/-- and away from it their blocks are not written back. -/
theorem noFlush0_13 (t : Fin cfg0.N) (h : ¬t.val % 50 = 49) : (cfg0.win 13).flush t = false :=
  Bool.eq_false_iff.mpr fun hf => h ((flush0_13 t).mp hf)
theorem noFlush0_14 (t : Fin cfg0.N) (h : ¬t.val % 50 = 49) : (cfg0.win 14).flush t = false :=
  Bool.eq_false_iff.mpr fun hf => h ((flush0_14 t).mp hf)

/-! ## The staging memrefs as the body is called with them -/

abbrev ms0_0 (t : Fin cfg0.N) : Memref sig .tc .vmem S1x5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5000x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x1024 .f32 := win0_14.stage (cfg0.slots t 14)
abbrev hs0_14 (t : Fin cfg0.N) : (ms0_14 t).IsWhole := hstage0_14 ((cfg0.slots t 14).cast nbuf0_14)

section
variable (V : (c : Dev nD) → (b : Ref sig .tc) → Buf (Elt F) ((c : Thread nD τ).loc b))

/-! ## What each input's staging buffer holds when the body runs -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]

/-- Input 0's staging buffer holds its block at every point, fetched there or kept. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input 1's staging buffer holds its block at every point, fetched there or kept. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input 2's staging buffer holds its block at every point, fetched there or kept. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input 3's staging buffer holds its block at every point, fetched there or kept. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- Input 4's staging buffer holds its block at every point, fetched there or kept. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- Input 5's staging buffer holds its block at every point, fetched there or kept. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- Input 6's staging buffer holds its block at every point, fetched there or kept. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
/-- Input 7's staging buffer holds its block at every point, fetched there or kept. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
/-- Input 8's staging buffer holds its block at every point, fetched there or kept. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
/-- Input 9's staging buffer holds its block at every point, fetched there or kept. -/
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
/-- Input 10's staging buffer holds its block at every point, fetched there or kept. -/
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
/-- Input 11's staging buffer holds its block at every point, fetched there or kept. -/
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
/-- Input 12's staging buffer holds its block at every point, fetched there or kept. -/
theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)

/-! ## The invariant between points -/

/-- What the launch hands the region, with the two accumulators as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ restBufs0 c)
          ∗ (∃ r, prngReg c r)) := by
  unfold Pipeline.ΦA restBufs0; rw [scopedRest0_eq]; simp only [scM0_0, scM0_1, owns_whole]; try rfl

theorem PhiS0_zero (c : Dev nD) (n : ℕ) (h : n ≤ cfg0.N) (hz : n = 0) : PhiS0 V c n h = Pipeline.ΦA spec0 c := by
  subst hz; rfl

/-- After point `n`: the accumulators at that point's contents. -/
theorem PhiS0_succ (c : Dev nD) (n : ℕ) (hn : n < cfg0.N) :
    PhiS0 V c (n + 1) hn = iprop(owns (c : Thread nD τ) scM0_0 fullShare (accAt0 V c n hn).1 ∗ owns (c : Thread nD τ) scM0_1 fullShare (accAt0 V c n hn).2
      ∗ restBufs0 c ∗ (∃ r, prngReg c r)) := rfl

/-- Before a point that is not the first: the accumulators at what the point before left. -/
theorem PhiS0_pos (c : Dev nD) (n : ℕ) (h : n ≤ cfg0.N) (hz : n ≠ 0) :
    PhiS0 V c n h = iprop(owns (c : Thread nD τ) scM0_0 fullShare (accAt0 V c (n - 1) (by omega)).1
      ∗ owns (c : Thread nD τ) scM0_1 fullShare (accAt0 V c (n - 1) (by omega)).2
      ∗ restBufs0 c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The accumulators after a point, component by component -/

theorem accAt0_first_fst (c : Dev nD) (t : Fin cfg0.N) (h0 : t.val % 50 = 0) :
    (accAt0 V c t.val t.isLt).1 = sumsNext (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) k0_pay7 := by
  rw [accAt0_first V c t h0]; rfl
theorem accAt0_first_snd (c : Dev nD) (t : Fin cfg0.N) (h0 : t.val % 50 = 0) :
    (accAt0 V c t.val t.isLt).2 = cntNext (iblk0 V c 4 t) k0_pay8 := by
  rw [accAt0_first V c t h0]; rfl
theorem accAt0_next_fst (c : Dev nD) (t : Fin cfg0.N) (h0 : ¬t.val % 50 = 0) :
    (accAt0 V c t.val t.isLt).1 = sumsNext (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (accAt0 V c (t.val - 1) (Nat.lt_of_le_of_lt (Nat.sub_le _ _) t.isLt)).1 := by
  rw [accAt0_next V c t h0]; rfl
theorem accAt0_next_snd (c : Dev nD) (t : Fin cfg0.N) (h0 : ¬t.val % 50 = 0) :
    (accAt0 V c t.val t.isLt).2 = cntNext (iblk0 V c 4 t) (accAt0 V c (t.val - 1) (Nat.lt_of_le_of_lt (Nat.sub_le _ _) t.isLt)).2 := by
  rw [accAt0_next V c t h0]; rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t)

/-- Input 0 is never idle: the body leaves its buffer at its block. -/
theorem leaves0_0 (c : Dev nD) (t : Fin cfg0.N) :
    (dat0 V c).leavesExact 0 t = owns (c : Thread nD τ) (ms0_0 t) fullShare (iblk0 V c 0 t) := by
  unfold Dat.leavesExact; rw [show cfg0.idle 0 (cfg0.grid.coords t) = false from rfl, after0_0]
/-- Input 1 is never idle: the body leaves its buffer at its block. -/
theorem leaves0_1 (c : Dev nD) (t : Fin cfg0.N) :
    (dat0 V c).leavesExact 1 t = owns (c : Thread nD τ) (ms0_1 t) fullShare (iblk0 V c 1 t) := by
  unfold Dat.leavesExact; rw [show cfg0.idle 1 (cfg0.grid.coords t) = false from rfl, after0_1]
/-- Input 2 is never idle: the body leaves its buffer at its block. -/
theorem leaves0_2 (c : Dev nD) (t : Fin cfg0.N) :
    (dat0 V c).leavesExact 2 t = owns (c : Thread nD τ) (ms0_2 t) fullShare (iblk0 V c 2 t) := by
  unfold Dat.leavesExact; rw [show cfg0.idle 2 (cfg0.grid.coords t) = false from rfl, after0_2]
/-- Input 3 is never idle: the body leaves its buffer at its block. -/
theorem leaves0_3 (c : Dev nD) (t : Fin cfg0.N) :
    (dat0 V c).leavesExact 3 t = owns (c : Thread nD τ) (ms0_3 t) fullShare (iblk0 V c 3 t) := by
  unfold Dat.leavesExact; rw [show cfg0.idle 3 (cfg0.grid.coords t) = false from rfl, after0_3]
/-- Input 4 is never idle: the body leaves its buffer at its block. -/
theorem leaves0_4 (c : Dev nD) (t : Fin cfg0.N) :
    (dat0 V c).leavesExact 4 t = owns (c : Thread nD τ) (ms0_4 t) fullShare (iblk0 V c 4 t) := by
  unfold Dat.leavesExact; rw [show cfg0.idle 4 (cfg0.grid.coords t) = false from rfl, after0_4]
/-- Input 5 is never idle: the body leaves its buffer at its block. -/
theorem leaves0_5 (c : Dev nD) (t : Fin cfg0.N) :
    (dat0 V c).leavesExact 5 t = owns (c : Thread nD τ) (ms0_5 t) fullShare (iblk0 V c 5 t) := by
  unfold Dat.leavesExact; rw [show cfg0.idle 5 (cfg0.grid.coords t) = false from rfl, after0_5]
/-- Input 6 is never idle: the body leaves its buffer at its block. -/
theorem leaves0_6 (c : Dev nD) (t : Fin cfg0.N) :
    (dat0 V c).leavesExact 6 t = owns (c : Thread nD τ) (ms0_6 t) fullShare (iblk0 V c 6 t) := by
  unfold Dat.leavesExact; rw [show cfg0.idle 6 (cfg0.grid.coords t) = false from rfl, after0_6]
/-- Input 7 is never idle: the body leaves its buffer at its block. -/
theorem leaves0_7 (c : Dev nD) (t : Fin cfg0.N) :
    (dat0 V c).leavesExact 7 t = owns (c : Thread nD τ) (ms0_7 t) fullShare (iblk0 V c 7 t) := by
  unfold Dat.leavesExact; rw [show cfg0.idle 7 (cfg0.grid.coords t) = false from rfl, after0_7]
/-- Input 8 is never idle: the body leaves its buffer at its block. -/
theorem leaves0_8 (c : Dev nD) (t : Fin cfg0.N) :
    (dat0 V c).leavesExact 8 t = owns (c : Thread nD τ) (ms0_8 t) fullShare (iblk0 V c 8 t) := by
  unfold Dat.leavesExact; rw [show cfg0.idle 8 (cfg0.grid.coords t) = false from rfl, after0_8]
/-- Input 9 is never idle: the body leaves its buffer at its block. -/
theorem leaves0_9 (c : Dev nD) (t : Fin cfg0.N) :
    (dat0 V c).leavesExact 9 t = owns (c : Thread nD τ) (ms0_9 t) fullShare (iblk0 V c 9 t) := by
  unfold Dat.leavesExact; rw [show cfg0.idle 9 (cfg0.grid.coords t) = false from rfl, after0_9]
/-- Input 10 is never idle: the body leaves its buffer at its block. -/
theorem leaves0_10 (c : Dev nD) (t : Fin cfg0.N) :
    (dat0 V c).leavesExact 10 t = owns (c : Thread nD τ) (ms0_10 t) fullShare (iblk0 V c 10 t) := by
  unfold Dat.leavesExact; rw [show cfg0.idle 10 (cfg0.grid.coords t) = false from rfl, after0_10]
/-- Input 11 is never idle: the body leaves its buffer at its block. -/
theorem leaves0_11 (c : Dev nD) (t : Fin cfg0.N) :
    (dat0 V c).leavesExact 11 t = owns (c : Thread nD τ) (ms0_11 t) fullShare (iblk0 V c 11 t) := by
  unfold Dat.leavesExact; rw [show cfg0.idle 11 (cfg0.grid.coords t) = false from rfl, after0_11]
/-- Input 12 is never idle: the body leaves its buffer at its block. -/
theorem leaves0_12 (c : Dev nD) (t : Fin cfg0.N) :
    (dat0 V c).leavesExact 12 t = owns (c : Thread nD τ) (ms0_12 t) fullShare (iblk0 V c 12 t) := by
  unfold Dat.leavesExact; rw [show cfg0.idle 12 (cfg0.grid.coords t) = false from rfl, after0_12]

/-- Away from a core's last step an output's buffer is handed back as it was found. -/
theorem leaves0_13_idle (c : Dev nD) (t : Fin cfg0.N) (h1 : ¬t.val % 50 = 49) :
    (dat0 V c).leavesExact 13 t = iprop(∃ d, owns (c : Thread nD τ) (ms0_13 t) fullShare ((dat0 V c).before 13 t d)) :=
  Dat.leavesExact_idle (dat0 V c) 13 t (idleAt0_13 t fun h => h1 ((hcond0_1 t).mp h)) (noFlush0_13 t h1)
theorem leaves0_14_idle (c : Dev nD) (t : Fin cfg0.N) (h1 : ¬t.val % 50 = 49) :
    (dat0 V c).leavesExact 14 t = iprop(∃ d, owns (c : Thread nD τ) (ms0_14 t) fullShare ((dat0 V c).before 14 t d)) :=
  Dat.leavesExact_idle (dat0 V c) 14 t (idleAt0_14 t fun h => h1 ((hcond0_1 t).mp h)) (noFlush0_14 t h1)

/-- At a core's last step an output's buffer is left at the accumulator as written out. -/
theorem leaves0_13_live (c : Dev nD) (t : Fin cfg0.N) (h1 : t.val % 50 = 49) :
    (dat0 V c).leavesExact 13 t = owns (c : Thread nD τ) (ms0_13 t) fullShare (k0_pay5 (accAt0 V c t.val t.isLt).1) := by
  unfold Dat.leavesExact; rw [liveAt0_13 t ((hcond0_1 t).mpr h1), after0_13]
theorem leaves0_14_live (c : Dev nD) (t : Fin cfg0.N) (h1 : t.val % 50 = 49) :
    (dat0 V c).leavesExact 14 t = owns (c : Thread nD τ) (ms0_14 t) fullShare (k0_pay6 (accAt0 V c t.val t.isLt).2) := by
  unfold Dat.leavesExact; rw [liveAt0_14 t ((hcond0_1 t).mpr h1), after0_14]

set_option maxHeartbeats 4800000 in
/-- The body at any point. The inputs' buffers hold their blocks; the position modulo 50 says which case the point is
    in, and that case's run applies. The invariant hands the body the accumulators at what the point before left (at
    anything before the first point; at a core's first step the named contents are forgotten, the body zero-fills
    them) and takes them back at this point's contents; an output's buffer comes back as found except at a core's
    last step, where it comes back at the accumulator as written out; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl]
  rw [show (dat0 V c).Φ t.succ = PhiS0 V c (t.val + 1) t.isLt from rfl, PhiS0_succ]
  rw [leaves0_0 V c t, leaves0_1 V c t, leaves0_2 V c t, leaves0_3 V c t, leaves0_4 V c t, leaves0_5 V c t, leaves0_6 V c t, leaves0_7 V c t, leaves0_8 V c t, leaves0_9 V c t, leaves0_10 V c t, leaves0_11 V c t, leaves0_12 V c t]
  have hN : t.val < 100 := lt_of_lt_of_eq t.isLt (show cfg0.N = 100 from N_0)
  by_cases h0 : t.val % 50 = 0
  · have h1 : ¬t.val % 50 = 49 := by omega
    rw [leaves0_13_idle V c t h1, leaves0_14_idle V c t h1]
    rw [accAt0_first_fst V c t h0, accAt0_first_snd V c t h0]
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) ((dat0 V c).before 13 t d13) ((dat0 V c).before 14 t d14) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, H10, H11, H12, H13, H14, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      iexists _; iexact H14
    · rw [PhiS0_castSucc V c t, PhiS0_pos V c _ _ hz]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) ((dat0 V c).before 13 t d13) ((dat0 V c).before 14 t d14) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexists _; iexact HS0
      isplitl [HS1]; · iexists _; iexact HS1
      iintro ⟨H0, H1, H2, H3, H4, H5, H6, H7, H8, H9, H10, H11, H12, H13, H14, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      iexists _; iexact H14
  · have hz : t.val ≠ 0 := fun h => h0 (by rw [h])
    rw [accAt0_next_fst V c t h0, accAt0_next_snd V c t h0]
    rw [PhiS0_castSucc V c t, PhiS0_pos V c _ _ hz]
    by_cases h1 : t.val % 50 = 49
    · rw [leaves0_13_live V c t h1, leaves0_14_live V c t h1]
      rw [accAt0_next_fst V c t h0, accAt0_next_snd V c t h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (accAt0 V c (t.val - 1) (Nat.lt_of_le_of_lt (Nat.sub_le _ _) t.isLt)).1 (accAt0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [leaves0_13_idle V c t h1, leaves0_14_idle V c t h1]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (accAt0 V c (t.val - 1) (Nat.lt_of_le_of_lt (Nat.sub_le _ _) t.isLt)).1 (accAt0 V c (t.val - 1) (Nat.lt_of_le_of_lt (Nat.sub_le _ _) t.isLt)).2 ((dat0 V c).before 13 t d13) ((dat0 V c).before 14 t d14) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, H10, H11, H12, H13, H14, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      iexists _; iexact H14

/-- The library's body obligation for the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives everything scoped back at some contents: the accumulators' named
    contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 100 := N_0; omega), PhiA0_eq]
  iintro ⟨HS0, HS1, HR, Hg⟩
  isplitl [HS0 HS1 HR]
  · isplitl [HS0]; · iexists _; iexact HS0
    isplitl [HS1]; · iexists _; iexact HS1
    iexact HR
  iexact Hg

end

end Cert.Kernel.Hand

end
-- ==== Proof.K.Frame1.lean ====
/-
  The second kernel region's body, at either float instance: on whole memrefs holding the id block and the two
  tables, with the output buffer at anything, it runs to the end leaving the inputs as they were and the
  output at its five chunks (`gatherOut`); and from it the region's body obligation at any entry contents `V`.
  The region keeps nothing between points, so its invariant is the same before and after every point.
-/
import proofs.«411350_j36593121362170_3_alg».proof.Proof.K.Data1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The five chunks of 2000 rows tile the output block, so they cover it. -/
theorem cover1_3 (p4 p3 p2 p1 p0 : Vec F S2000x128 .f32) (y : S10000x128.Idx) :
    ∃ pc ∈ ([⟨rQ4, p4⟩, ⟨rQ3, p3⟩, ⟨rQ2, p2⟩, ⟨rQ1, p1⟩, ⟨rQ0, p0⟩] : List (View.Piece (Elt F) S10000x128 .f32)), y ∈ pc.1.set :=
  View.cover_of_tiled [⟨rQ4, p4⟩, ⟨rQ3, p3⟩, ⟨rQ2, p2⟩, ⟨rQ1, p1⟩, ⟨rQ0, p0⟩] S2000x128.size (by rfl) y

set_option maxHeartbeats 1000000 in
/-- The second kernel's body on whole memrefs. -/
theorem kernelRun1 (c : Dev nD) (i : grid1.Coords) (arg1 : Memref sig .tc .vmem S10000x1 .i32) (harg1 : arg1.IsWhole)
    (arg2 : Memref sig .tc .vmem S1024x128 .bf16) (harg2 : arg2.IsWhole) (arg3 : Memref sig .tc .vmem S1024x128 .bf16) (harg3 : arg3.IsWhole)
    (arg4 : Memref sig .tc .vmem S10000x128 .f32) (harg4 : arg4.IsWhole)
    (e : Vec F S10000x1 .i32) (hi lo : Vec F S1024x128 .bf16) (E : Set ℕ) (K : PUnit → sProp 𝕄) :
    iprop(owns (c : Thread nD τ) arg1 fullShare e ∗ owns (c : Thread nD τ) arg2 fullShare hi ∗ owns (c : Thread nD τ) arg3 fullShare lo
        ∗ (∃ d, owns (c : Thread nD τ) arg4 fullShare d)
        ∗ (iprop(owns (c : Thread nD τ) arg1 fullShare e ∗ owns (c : Thread nD τ) arg2 fullShare hi ∗ owns (c : Thread nD τ) arg3 fullShare lo
            ∗ owns (c : Thread nD τ) arg4 fullShare (gatherOut e hi lo)) -∗ K ⟨⟩))
      ⊢ wp frame (wpE (defs₀ (F := F)) Variants.none c none) E (cc1__gather_kernel i arg1 harg1 arg2 harg2 arg3 harg3 arg4 harg4) K := by
  simp only [cc1__gather_kernel_eq_skeleton]; unfold cc1__gather_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _ _ _ _ _)

section
variable (V : (c : Dev nD) → (b : Ref sig .tc) → Buf (Elt F) ((c : Thread nD τ).loc b))

/-- Each input window's current staging buffer holds its block at every point, fetched there or not: the body
    leaves the block in place, and where the window is not fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- What the body is called with at point `t`, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' memrefs hold their blocks, so the body's run on whole memrefs applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (kernelRun1 c (grid1.coords t) _ _ _ _ _ _ _ _ (iblk1 V c 0 t) (iblk1 V c 1 t) (iblk1 V c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the second region, at every point. -/
theorem body_obligation1 (c : Dev nD) : BodyObligation (dat1 (F := F) V c) (defs₀ (F := F)) Variants.none () Set.univ := by
  intro t
  rw [bigSep_W1, bigSep_W1]
  exact sound_body1 V c t

end

end Cert.Kernel.Hand

end
-- ==== Proof.K.RunAll.lean ====
/-
  The whole program's run, at either float instance: the launch over its four items (two stretches of host
  operations, two kernel regions), each region entered from what the item before it left and left at the
  fold's next contents.  Every weakly fair execution terminates, nothing faulting, and the final memory holds
  every unscoped buffer at the fold's last contents; no host operation and no region writes an argument array,
  so each argument reads back through the fold to its launch contents.
-/
import proofs.«411350_j36593121362170_3_alg».proof.Proof.K.Fold
import proofs.«411350_j36593121362170_3_alg».proof.Proof.K.Frame0
import proofs.«411350_j36593121362170_3_alg».proof.Proof.K.Frame1
import proofs.«411350_j36593121362170_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments through the fold -/

/-- A buffer that no window of the second region stages, that neither stretch of host operations writes, and that the
    first region leaves as entered, holds its launch contents at the end. -/
theorem W4_through (c : Dev nD) (b : Ref sig .tc) (h4 : ∀ w, Pipeline.arrRef spec1 w ≠ b)
    (h3 : b ∉ (hostOps1_W : List (Ref sig .tc)))
    (h2 : W2 m ρ c (Proc.devRef .tc b) = W1 m ρ c (Proc.devRef .tc b))
    (h1 : b ∉ (hostOps0_W : List (Ref sig .tc))) :
    W4 m ρ c (Proc.devRef .tc b) = m ((c : Thread nD τ).loc b) :=
  (W4_of_ne m ρ c b h4).trans <| (StableHlo.after_of_writes_sub hostOps1 _ hostOps1_writes h3).trans <| h2.trans <|
    (StableHlo.after_of_writes_sub hostOps0 _ hostOps0_writes h1).trans rfl

/-- The first region leaves an input window's array as entered. -/
theorem W2_input (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- An argument array reaches the end as launched. -/
theorem W4_arg (c : Dev nD) (b : Ref sig .tc)
    (hb : b ∈ ([main_arg0, main_arg1, main_arg2, main_arg3, main_arg4, main_arg5, main_arg6, main_arg7, main_arg8, main_arg9, main_arg10, main_arg11, main_arg12] : List (Ref sig .tc))) :
    W4 m ρ c (Proc.devRef .tc b) = m ((c : Thread nD τ).loc b) := by
  simp only [List.mem_cons, List.mem_nil_iff, or_false] at hb
  rcases hb with rfl | rfl | rfl | rfl | rfl | rfl | rfl | rfl | rfl | rfl | rfl | rfl | rfl
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_input m ρ c 6 rfl) (by decide)
  · exact W4_through m ρ c _ (by decide) (by decide) (W2_of_ne m ρ c _ (by decide)) (by decide)
  · exact W4_through m ρ c _ (by decide) (by decide) (W2_input m ρ c 8 rfl) (by decide)
  · exact W4_through m ρ c _ (by decide) (by decide) (W2_of_ne m ρ c _ (by decide)) (by decide)
  · exact W4_through m ρ c _ (by decide) (by decide) (W2_input m ρ c 10 rfl) (by decide)
  · exact W4_through m ρ c _ (by decide) (by decide) (W2_of_ne m ρ c _ (by decide)) (by decide)
  · exact W4_through m ρ c _ (by decide) (by decide) (W2_input m ρ c 12 rfl) (by decide)

/-- The result array at the end is what the second region's write-backs leave. -/
theorem W4_main_v30 (c : Dev nD) : W4 m ρ c (Proc.devRef .tc main_v30) = (dat1 (V3 m ρ) c).arrAt 3 cfg1.N :=
  W4_arr m ρ c 3

/-- The first region's result arrays at its exit are what its write-backs leave. -/
theorem W2_main_v9_0 (c : Dev nD) : W2 m ρ c (Proc.devRef .tc main_v9_0) = (dat0 (V1 m ρ) c).arrAt 13 cfg0.N :=
  W2_arr m ρ c 13
theorem W2_main_v9_1 (c : Dev nD) : W2 m ρ c (Proc.devRef .tc main_v9_1) = (dat0 (V1 m ρ) c).arrAt 14 cfg0.N :=
  W2_arr m ρ c 14

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the fold's last contents, the generator
    register at some state. -/
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- THE FIRST REGION over the thread state: entered from every unscoped buffer at `W1`, left at `W2`.  Its arrays
    split out of the unscoped buffers and are put back at the exit contents; the generator register and the scoped
    buffers enter the invariant before the first point and come back out of the invariant after the last; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W3`, left at `W4` (what the
    launch reads at the end).  Its invariant is the same before and after every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's four items in order: a host item per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the items. -/
theorem main_run (c : Dev nD) : main (F := F) c = Pipeline.Seg.run (segs m ρ) := (main_chain c).trans (by chain_rfl)

set_option backward.isDefEq.respectTransparency.types false in
/-- THE RUN: every weakly fair execution of @main terminates and every final memory holds each unscoped buffer
    at the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME at either instance: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have arg : ∀ (s : MemSt nD τ sig (Elt F)) (h : ∀ c : Dev nD, ∀ b ∈ Pipeline.ucRefs τ sig, s.mem (((c : Thread nD τ)).1, b) = W4 m ρ c b)
      (c : Dev nD) (b : Ref sig .tc) (hu : ¬ (Proc.devRef .tc b : DevRef τ sig).isScoped)
      (hb : b ∈ ([main_arg0, main_arg1, main_arg2, main_arg3, main_arg4, main_arg5, main_arg6, main_arg7, main_arg8, main_arg9, main_arg10, main_arg11, main_arg12] : List (Ref sig .tc))),
      s.mem ((c.tc : Thread nD τ).loc b) = m ((c.tc : Thread nD τ).loc b) :=
    fun s h c b hu hb => (h c _ (mem_uc b hu)).trans (W4_arg m ρ c b hb)
  refine (θ_run defs _ _).mono (Q := fun r => ∀ c : Dev nD, ∀ b ∈ Pipeline.ucRefs τ sig, r.2.mem (((c : Thread nD τ)).1, b) = W4 m ρ c b)
    (fun r h c => ?_) (run_all m ρ)
  exact ⟨arg r.2 h c main_arg0 (by decide) (by decide), arg r.2 h c main_arg1 (by decide) (by decide),
    arg r.2 h c main_arg2 (by decide) (by decide), arg r.2 h c main_arg3 (by decide) (by decide),
    arg r.2 h c main_arg4 (by decide) (by decide), arg r.2 h c main_arg5 (by decide) (by decide),
    arg r.2 h c main_arg6 (by decide) (by decide), arg r.2 h c main_arg7 (by decide) (by decide),
    arg r.2 h c main_arg8 (by decide) (by decide), arg r.2 h c main_arg9 (by decide) (by decide),
    arg r.2 h c main_arg10 (by decide) (by decide), arg r.2 h c main_arg11 (by decide) (by decide),
    arg r.2 h c main_arg12 (by decide) (by decide)⟩

end Cert.Kernel.Hand

end
-- ==== Proof.KI.Common.lean ====
/-
  What the two kernel regions share, at either float instance: the scalar tests the first kernel branches
  on, decided over its grid; the staging and scratch memrefs by name; each window's block at a grid point,
  read off the arrays as the region finds them; and, as explicit terms over those blocks, what one grid
  point of the first kernel leaves in its two accumulators (the segment sums and the segment counts after
  the point's five row chunks) and what one grid point of the second kernel leaves in its output block
  (five row chunks, each the indicator rows times the two tables, added).
-/
import proofs.«411350_j36593121362170_3_alg».proof.Proof.Gen.KernelIdeal.Launch
import proofs.«411350_j36593121362170_3_alg».proof.Proof.Gen.KernelIdeal.Skeleton
import proofs.«411350_j36593121362170_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The rectangles the bodies load and store through -/

abbrev rX : Rect S1x5000x128 := Rect.unit (s := S1x5000x128) ![0, 0, 0] S1x5000x128.size inb_S1x5000x128_S1x5000x128_0_0_0
abbrev rE0 : Rect S1x5000x1 := Rect.unit (s := S1x5000x1) ![0, 0, 0] S1x1000x1.size inb_S1x5000x1_S1x1000x1_0_0_0
abbrev rE1 : Rect S1x5000x1 := Rect.unit (s := S1x5000x1) ![0, 1000, 0] S1x1000x1.size inb_S1x5000x1_S1x1000x1_0_1000_0
abbrev rE2 : Rect S1x5000x1 := Rect.unit (s := S1x5000x1) ![0, 2000, 0] S1x1000x1.size inb_S1x5000x1_S1x1000x1_0_2000_0
abbrev rE3 : Rect S1x5000x1 := Rect.unit (s := S1x5000x1) ![0, 3000, 0] S1x1000x1.size inb_S1x5000x1_S1x1000x1_0_3000_0
abbrev rE4 : Rect S1x5000x1 := Rect.unit (s := S1x5000x1) ![0, 4000, 0] S1x1000x1.size inb_S1x5000x1_S1x1000x1_0_4000_0
abbrev rW1 : Rect S512x256 := Rect.unit (s := S512x256) ![0, 0] S512x256.size inb_S512x256_S512x256_0_0
abbrev rB256 : Rect S256 := Rect.unit (s := S256) ![0] S256.size inb_S256_S256_0
abbrev rW256 : Rect S256x256 := Rect.unit (s := S256x256) ![0, 0] S256x256.size inb_S256x256_S256x256_0_0
abbrev rW4 : Rect S256x128 := Rect.unit (s := S256x128) ![0, 0] S256x128.size inb_S256x128_S256x128_0_0
abbrev rB128 : Rect S128 := Rect.unit (s := S128) ![0] S128.size inb_S128_S128_0
abbrev rT : Rect S1024x128 := Rect.unit (s := S1024x128) ![0, 0] S1024x128.size inb_S1024x128_S1024x128_0_0
abbrev rC : Rect S1x1024 := Rect.unit (s := S1x1024) ![0, 0] S1x1024.size inb_S1x1024_S1x1024_0_0
abbrev rO13 : Rect S1x1024x128 := Rect.unit (s := S1x1024x128) ![0, 0, 0] S1x1024x128.size inb_S1x1024x128_S1x1024x128_0_0_0
abbrev rO14 : Rect S1x1x1024 := Rect.unit (s := S1x1x1024) ![0, 0, 0] S1x1x1024.size inb_S1x1x1024_S1x1x1024_0_0_0
abbrev rI0 : Rect S10000x1 := Rect.unit (s := S10000x1) ![0, 0] S2000x1.size inb_S10000x1_S2000x1_0_0
abbrev rI1 : Rect S10000x1 := Rect.unit (s := S10000x1) ![2000, 0] S2000x1.size inb_S10000x1_S2000x1_2000_0
abbrev rI2 : Rect S10000x1 := Rect.unit (s := S10000x1) ![4000, 0] S2000x1.size inb_S10000x1_S2000x1_4000_0
abbrev rI3 : Rect S10000x1 := Rect.unit (s := S10000x1) ![6000, 0] S2000x1.size inb_S10000x1_S2000x1_6000_0
abbrev rI4 : Rect S10000x1 := Rect.unit (s := S10000x1) ![8000, 0] S2000x1.size inb_S10000x1_S2000x1_8000_0
abbrev rQ0 : Rect S10000x128 := Rect.unit (s := S10000x128) ![0, 0] S2000x128.size inb_S10000x128_S2000x128_0_0
abbrev rQ1 : Rect S10000x128 := Rect.unit (s := S10000x128) ![2000, 0] S2000x128.size inb_S10000x128_S2000x128_2000_0
abbrev rQ2 : Rect S10000x128 := Rect.unit (s := S10000x128) ![4000, 0] S2000x128.size inb_S10000x128_S2000x128_4000_0
abbrev rQ3 : Rect S10000x128 := Rect.unit (s := S10000x128) ![6000, 0] S2000x128.size inb_S10000x128_S2000x128_6000_0
abbrev rQ4 : Rect S10000x128 := Rect.unit (s := S10000x128) ![8000, 0] S2000x128.size inb_S10000x128_S2000x128_8000_0

/-! ## One grid point of the first kernel, as a term over the blocks it is handed -/

/-- The lane ids 0, …, 1023 as a row: what an edge's segment id is compared with. -/
abbrev laneIds : IVec S1x1024 32 := iota .tc S1x1024 32 [1] iota_S1x1024_d1_w32

/-- The point's 5000 rows after the first two layers (the second not yet rectified). -/
def hid (x0 x1 x2 x3 : Vec F S1x5000x128 .f32) (w1 : Vec F S512x256 .bf16) (b1 : Vec F S256 .f32)
    (w2 : Vec F S256x256 .bf16) (b2 : Vec F S256 .f32) : FVec F S5000x256 .f32 :=
  k0_pay9 (View.ld x0 rX) (View.ld x1 rX) (View.ld x2 rX) (View.ld x3 rX) (View.ld w1 rW1) (View.ld b1 rB256) (View.ld w2 rW256) (View.ld b2 rB256)

/-- The point's 5000 activation rows: the perceptron of the four feature blocks laid side by side. -/
def act (x0 x1 x2 x3 : Vec F S1x5000x128 .f32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) : FVec F S5000x128 .bf16 :=
  k0_pay10 (hid x0 x1 x2 x3 w1 b1 w2 b2) (Scalar.ofBits .f32 0x00000000#32) (View.ld w3 rW256) (View.ld b3 rB256) (View.ld w4 rW4) (View.ld b4 rB128)

/-- The segment sums after the point: what it was handed (`xs0`) plus, chunk by chunk of 1000 rows, the
    indicator columns times the chunk's activation rows. -/
def sumsNext (x0 x1 x2 x3 : Vec F S1x5000x128 .f32) (eiB : Vec F S1x5000x1 .i32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) (xs0 : Vec F S1024x128 .f32) : Vec F S1024x128 .f32 :=
  k0_pay3 (act x0 x1 x2 x3 w1 b1 w2 b2 w3 b3 w4 b4) laneIds (View.ld eiB rE4)
    (k0_pay24 (act x0 x1 x2 x3 w1 b1 w2 b2 w3 b3 w4 b4) laneIds (View.ld eiB rE3)
      (k0_pay21 (k0_pay19 laneIds (View.ld eiB rE2)) (k0_pay20 (act x0 x1 x2 x3 w1 b1 w2 b2 w3 b3 w4 b4))
        (k0_pay16 (act x0 x1 x2 x3 w1 b1 w2 b2 w3 b3 w4 b4) laneIds (View.ld eiB rE1)
          (k0_pay12 (hid x0 x1 x2 x3 w1 b1 w2 b2) (Scalar.ofBits .f32 0x00000000#32) (View.ld w3 rW256) (View.ld b3 rB256) (View.ld w4 rW4) (View.ld b4 rB128) (View.ld eiB rE0) xs0))))

/-- The segment counts after the point: what it was handed (`xs1`) plus, chunk by chunk, the indicator
    columns' sums. -/
def cntNext (eiB : Vec F S1x5000x1 .i32) (xs1 : Vec F S1x1024 .f32) : Vec F S1x1024 .f32 :=
  k0_pay4 laneIds (View.ld eiB rE4)
    (k0_pay1 (k0_pay25 laneIds (View.ld eiB rE3)
      (k0_pay22 (k0_pay18 laneIds (View.ld eiB rE2))
        (k0_pay17 laneIds (View.ld eiB rE1)
          (k0_pay14 xs1 (k0_pay13 (View.ld eiB rE0)))))))

/-! ## One grid point of the second kernel, as a term over the blocks it is handed -/

/-- The output block after the point: its five chunks of 2000 rows, each the chunk's indicator rows times
    the two tables, added — as the stores' pieces, last first. -/
def gatherOut (eiB : Vec F S10000x1 .i32) (hi lo : Vec F S1024x128 .bf16) : Vec F S10000x128 .f32 :=
  View.canon [
    ⟨rQ4, k1_pay3 laneIds (k1_pay4 (View.ld hi rT)) (k1_pay5 (View.ld lo rT)) (View.ld eiB rI4)⟩,
    ⟨rQ3, k1_pay2 laneIds (k1_pay4 (View.ld hi rT)) (k1_pay5 (View.ld lo rT)) (View.ld eiB rI3)⟩,
    ⟨rQ2, k1_pay1 (k1_pay5 (View.ld lo rT)) (k1_pay8 (View.ld eiB rI2)) (k1_pay9 (View.ld hi rT) (View.ld eiB rI2))⟩,
    ⟨rQ1, k1_pay7 (View.ld hi rT) (View.ld lo rT) (View.ld eiB rI1)⟩,
    ⟨rQ0, k1_pay6 (View.ld hi rT) (View.ld lo rT) (View.ld eiB rI0)⟩]

end Cert.KernelIdeal.Hand

end
-- ==== Proof.KI.Data0.lean ====
/-
  The first kernel region's proof data, at either float instance and at a parameter `V` (the core's
  buffer contents when the region is entered): each window's block at a grid point; the two accumulators
  after every point (`accAt0`: at a core's first step the point's contribution over zeros, afterwards
  over what the point before left); the invariant between points (the accumulators held at those
  contents from the first point on); and what each window's staging buffer holds after a point — an
  input its block, the two outputs the accumulators as the last step of a core writes them out.
-/
import proofs.«411350_j36593121362170_3_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulators after point `t` when handed `xs0`, `xs1`: the point's blocks through `sumsNext`, `cntNext`. -/
def pt0 (c : Dev nD) (t : Fin cfg0.N) (xs0 : Vec F S1024x128 .f32) (xs1 : Vec F S1x1024 .f32) : Vec F S1024x128 .f32 × Vec F S1x1024 .f32 :=
  (sumsNext (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t) xs0,
    cntNext (iblk0 V c 4 t) xs1)

/-- THE ACCUMULATION: the two accumulators after the body at position `n`. A point whose step is the first of its
    core (position ≡ 0 mod 50) starts from the zero fills; any other continues what the point before left. -/
def accAt0 (c : Dev nD) : (n : ℕ) → n < cfg0.N → Vec F S1024x128 .f32 × Vec F S1x1024 .f32
  | 0, hn => pt0 V c ⟨0, hn⟩ k0_pay7 k0_pay8
  | n + 1, hn =>
    if (n + 1) % 50 = 0 then pt0 V c ⟨n + 1, hn⟩ k0_pay7 k0_pay8
    else pt0 V c ⟨n + 1, hn⟩ (accAt0 c n (Nat.lt_of_succ_lt hn)).1 (accAt0 c n (Nat.lt_of_succ_lt hn)).2

theorem accAt0_first (c : Dev nD) (t : Fin cfg0.N) (h0 : t.val % 50 = 0) :
    accAt0 V c t.val t.isLt = pt0 V c t k0_pay7 k0_pay8 := by
  obtain ⟨n, hn⟩ := t
  cases n with
  | zero => rfl
  | succ n => exact if_pos h0

theorem accAt0_next (c : Dev nD) (t : Fin cfg0.N) (h0 : ¬t.val % 50 = 0) :
    accAt0 V c t.val t.isLt = pt0 V c t (accAt0 V c (t.val - 1) (Nat.lt_of_le_of_lt (Nat.sub_le _ _) t.isLt)).1
      (accAt0 V c (t.val - 1) (Nat.lt_of_le_of_lt (Nat.sub_le _ _) t.isLt)).2 := by
  obtain ⟨n, hn⟩ := t
  cases n with
  | zero => exact absurd (Nat.zero_mod _) h0
  | succ n => exact if_neg h0

/-- The first kernel's two scratch operands: whole scoped buffers of its own. -/
abbrev scM0_0 : Memref sig .tc .vmem S1024x128 .f32 := Memref.whole cc0_scratch0
abbrev scM0_1 : Memref sig .tc .vmem S1x1024 .f32 := Memref.whole cc0_scratch1

/-- The core's scoped buffers that the first region neither stages through nor accumulates in (the second region's
    staging buffers), each whole at some contents. -/
def restBufs0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point everything scoped at anything; afterwards the
    two accumulators at what the point before left, the other scoped buffers at anything, the generator register at
    some state. -/
def PhiS0 (c : Dev nD) : (n : ℕ) → n ≤ cfg0.N → sProp 𝕄
  | 0, _ => Pipeline.ΦA spec0 c
  | n + 1, hn => iprop(owns (c : Thread nD τ) scM0_0 fullShare (accAt0 V c n hn).1 ∗ owns (c : Thread nD τ) scM0_1 fullShare (accAt0 V c n hn).2
      ∗ restBufs0 c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => k0_pay5 (accAt0 V c t.val t.isLt).1
    | ⟨14, _⟩ => k0_pay6 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_13 (c : Dev nD) (t : Fin cfg0.N) : (dat0 V c).after 13 t = k0_pay5 (accAt0 V c t.val t.isLt).1 := by dsimp only [dat0]
theorem after0_14 (c : Dev nD) (t : Fin cfg0.N) : (dat0 V c).after 14 t = k0_pay6 (accAt0 V c t.val t.isLt).2 := by dsimp only [dat0]

end

end Cert.KernelIdeal.Hand

end
-- ==== Proof.KI.Data1.lean ====
/-
  The second kernel region's proof data, at either float instance and at a parameter `V` (the core's buffer
  contents when the region is entered): each window's block at a grid point, and what each window's staging
  buffer holds after a point — an input its block, the output the five chunks of indicator rows times the two
  tables (`gatherOut` of the point's blocks). The region keeps nothing between points.
-/
import proofs.«411350_j36593121362170_3_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => gatherOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = gatherOut (iblk1 V c 0 t) (iblk1 V c 1 t) (iblk1 V c 2 t) := by dsimp only [dat1]

end

end Cert.KernelIdeal.Hand

end
-- ==== Proof.KI.Fold.lean ====
/-
  The buffer contents at each boundary of the program's four items (host operations, the first region, host
  operations, the second region), at either float instance, as a fold from the launch memory: a stretch of
  host operations leaves what its operations compute; a region leaves its arrays at what its write-backs
  leave (the proof data's `arrAt` at the grid's end) and every other buffer as entered.
-/
import proofs.«411350_j36593121362170_3_alg».proof.Proof.KI.Data0
import proofs.«411350_j36593121362170_3_alg».proof.Proof.KI.Data1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.KernelIdeal.Hand

end
-- ==== Proof.KI.Conds.lean ====
/-
  The two scalar tests the first kernel's body branches on, as propositions over a grid point's coordinates.
-/
import proofs.«411350_j36593121362170_3_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first kernel's first test: the step coordinate is zero (the accumulators are zero-filled). -/
abbrev cond0_0 (i : grid0.Coords) : Prop := (Scalar.cmpi .ne (Scalar.extui (Scalar.cmpi .eq (BitVec.ofNat 32 (i 1).val) 0#32)) 0#32) = 1#1
/-- Its second test: the step coordinate is the last, 49 (the accumulators are written out). -/
abbrev cond0_1 (i : grid0.Coords) : Prop := k0_cond2 i = 1#1

end Cert.KernelIdeal.Hand

end
-- ==== Proof.KI.Run0A.lean ====
/-
  The first kernel's body at a core's first step, on whole memrefs at stated contents, at either float instance:
  the accumulators, at anything, are zero-filled and take the point's contribution; the outputs and the feature,
  id and parameter blocks come back as handed in.
-/
import proofs.«411350_j36593121362170_3_alg».proof.Proof.KI.Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-two rectangle, as the constant function. -/
theorem zeroOff2 : (![0, 0] : Fin 2 → Nat) = fun _ => 0 := funext fun a => by fin_cases a <;> rfl

/-- What a buffer reads after a list of stores whose LAST is through the whole-shape rectangle at zero offsets:
    that store's payload, whatever the earlier stores and the contents before them. -/
theorem read_writes_last_whole {Val : EltTy → Type} {S : Shape} {e : EltTy} [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.Mem.head _, View.mem_set_unit_zero h inb y⟩), View.canon_cons_unit_zero h]

set_option maxHeartbeats 4000000 in
/-- CASE A, a core's first step: the accumulators, at anything, are zero-filled and take the point's contribution; the
    outputs are not touched. -/
theorem kernelRun0_A (c : Dev nD) (i : grid0.Coords) (arg2 : Memref sig .tc .vmem S1x5000x128 .f32) (harg2 : arg2.IsWhole) (arg3 : Memref sig .tc .vmem S1x5000x128 .f32) (harg3 : arg3.IsWhole)
    (arg4 : Memref sig .tc .vmem S1x5000x128 .f32) (harg4 : arg4.IsWhole) (arg5 : Memref sig .tc .vmem S1x5000x128 .f32) (harg5 : arg5.IsWhole)
    (arg6 : Memref sig .tc .vmem S1x5000x1 .i32) (harg6 : arg6.IsWhole) (arg7 : Memref sig .tc .vmem S512x256 .bf16) (harg7 : arg7.IsWhole)
    (arg8 : Memref sig .tc .vmem S256 .f32) (harg8 : arg8.IsWhole) (arg9 : Memref sig .tc .vmem S256x256 .bf16) (harg9 : arg9.IsWhole)
    (arg10 : Memref sig .tc .vmem S256 .f32) (harg10 : arg10.IsWhole) (arg11 : Memref sig .tc .vmem S256x256 .bf16) (harg11 : arg11.IsWhole)
    (arg12 : Memref sig .tc .vmem S256 .f32) (harg12 : arg12.IsWhole) (arg13 : Memref sig .tc .vmem S256x128 .bf16) (harg13 : arg13.IsWhole)
    (arg14 : Memref sig .tc .vmem S128 .f32) (harg14 : arg14.IsWhole) (arg15 : Memref sig .tc .vmem S1x1024x128 .f32) (harg15 : arg15.IsWhole)
    (arg16 : Memref sig .tc .vmem S1x1x1024 .f32) (harg16 : arg16.IsWhole) (arg17 : Memref sig .tc .vmem S1024x128 .f32) (harg17 : arg17.IsWhole)
    (arg18 : Memref sig .tc .vmem S1x1024 .f32) (harg18 : arg18.IsWhole)
    (hc0 : cond0_0 i) (hc1 : ¬cond0_1 i)
    (x0 x1 x2 x3 : Vec F S1x5000x128 .f32) (e : Vec F S1x5000x1 .i32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) (xo13 : Vec F S1x1024x128 .f32) (xo14 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
        ∗ owns (c : Thread nD τ) arg15 fullShare xo13 ∗ owns (c : Thread nD τ) arg16 fullShare xo14
        ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
            ∗ owns (c : Thread nD τ) arg15 fullShare xo13 ∗ owns (c : Thread nD τ) arg16 fullShare xo14
            ∗ owns (c : Thread nD τ) arg17 fullShare (sumsNext x0 x1 x2 x3 e w1 b1 w2 b2 w3 b3 w4 b4 k0_pay7)
            ∗ owns (c : Thread nD τ) arg18 fullShare (cntNext e k0_pay8)) -∗ K ⟨⟩))
      ⊢ wp frame (wpE (defs₀ (F := F)) Variants.none c none) E (cc0__mlp_segment_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__mlp_segment_kernel_eq_skeleton]; unfold cc0__mlp_segment_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  -- each block is named by what its buffer reads
  subst hf2; subst hf3; subst hf4; subst hf5; subst hf6; subst hf7; subst hf8; subst hf9; subst hf10; subst hf11; subst hf12; subst hf13; subst hf14; subst hf15; subst hf16
  sl_exec (disch := first | exact hc0 | exact hc1)
  sl_step
  iapply Hk
  -- the feature, id and parameter blocks and the two outputs are only loaded: their buffers come back as they were
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  -- the segment sums: six stores through the whole buffer, the zero fill then the five chunks' updates. The buffer
  -- reads the last store's payload; each update's accumulator argument is a load through the store before's own
  -- rectangle, which reads that store's payload, and so on down to the zero fill
  isplitl [H17]
  · iexists _; isplitr
    swap; · iexact H17
    ipureintro
    sl_unfold_run_names
    rw [read_writes_last_whole _ _ zeroOff2]
    simp only [View.readCov_cons_toLoadRect]
    rfl
  -- the segment counts: the same six stores, over the zero fill
  iexists _; isplitr
  swap; · iexact H18
  ipureintro
  sl_unfold_run_names
  rw [read_writes_last_whole _ _ zeroOff2]
  simp only [View.readCov_cons_toLoadRect]
  rfl

end Cert.KernelIdeal.Hand

end
-- ==== Proof.KI.Run0C.lean ====
/-
  The first kernel's body at a core's last step, on whole memrefs at stated contents, at either float instance:
  the accumulators take the point's contribution and the two output buffers end at the accumulators as written
  out; the feature, id and parameter blocks come back as handed in.
-/
import proofs.«411350_j36593121362170_3_alg».proof.Proof.KI.Conds
import proofs.«411350_j36593121362170_3_alg».proof.Proof.KI.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-buffer rectangle of three axes are all zero. -/
theorem zeroOff3 : (![0, 0, 0] : Fin 3 → Nat) = fun _ => 0 := funext fun a => by fin_cases a <;> rfl

set_option maxHeartbeats 4000000 in
/-- CASE C, a core's last step: the accumulators take the point's contribution and the outputs, at anything, end at the
    accumulators as written out. -/
theorem kernelRun0_C (c : Dev nD) (i : grid0.Coords) (arg2 : Memref sig .tc .vmem S1x5000x128 .f32) (harg2 : arg2.IsWhole) (arg3 : Memref sig .tc .vmem S1x5000x128 .f32) (harg3 : arg3.IsWhole)
    (arg4 : Memref sig .tc .vmem S1x5000x128 .f32) (harg4 : arg4.IsWhole) (arg5 : Memref sig .tc .vmem S1x5000x128 .f32) (harg5 : arg5.IsWhole)
    (arg6 : Memref sig .tc .vmem S1x5000x1 .i32) (harg6 : arg6.IsWhole) (arg7 : Memref sig .tc .vmem S512x256 .bf16) (harg7 : arg7.IsWhole)
    (arg8 : Memref sig .tc .vmem S256 .f32) (harg8 : arg8.IsWhole) (arg9 : Memref sig .tc .vmem S256x256 .bf16) (harg9 : arg9.IsWhole)
    (arg10 : Memref sig .tc .vmem S256 .f32) (harg10 : arg10.IsWhole) (arg11 : Memref sig .tc .vmem S256x256 .bf16) (harg11 : arg11.IsWhole)
    (arg12 : Memref sig .tc .vmem S256 .f32) (harg12 : arg12.IsWhole) (arg13 : Memref sig .tc .vmem S256x128 .bf16) (harg13 : arg13.IsWhole)
    (arg14 : Memref sig .tc .vmem S128 .f32) (harg14 : arg14.IsWhole) (arg15 : Memref sig .tc .vmem S1x1024x128 .f32) (harg15 : arg15.IsWhole)
    (arg16 : Memref sig .tc .vmem S1x1x1024 .f32) (harg16 : arg16.IsWhole) (arg17 : Memref sig .tc .vmem S1024x128 .f32) (harg17 : arg17.IsWhole)
    (arg18 : Memref sig .tc .vmem S1x1024 .f32) (harg18 : arg18.IsWhole)
    (hc0 : ¬cond0_0 i) (hc1 : cond0_1 i)
    (x0 x1 x2 x3 : Vec F S1x5000x128 .f32) (e : Vec F S1x5000x1 .i32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) (xs0 : Vec F S1024x128 .f32) (xs1 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
        ∗ (∃ d, owns (c : Thread nD τ) arg15 fullShare d) ∗ (∃ d, owns (c : Thread nD τ) arg16 fullShare d)
        ∗ owns (c : Thread nD τ) arg17 fullShare xs0 ∗ owns (c : Thread nD τ) arg18 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
            ∗ owns (c : Thread nD τ) arg15 fullShare (k0_pay5 (sumsNext x0 x1 x2 x3 e w1 b1 w2 b2 w3 b3 w4 b4 xs0))
            ∗ owns (c : Thread nD τ) arg16 fullShare (k0_pay6 (cntNext e xs1))
            ∗ owns (c : Thread nD τ) arg17 fullShare (sumsNext x0 x1 x2 x3 e w1 b1 w2 b2 w3 b3 w4 b4 xs0)
            ∗ owns (c : Thread nD τ) arg18 fullShare (cntNext e xs1)) -∗ K ⟨⟩))
      ⊢ wp frame (wpE (defs₀ (F := F)) Variants.none c none) E (cc0__mlp_segment_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__mlp_segment_kernel_eq_skeleton]; unfold cc0__mlp_segment_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, ⟨%f11, %hf11, H11⟩, ⟨%f12, %hf12, H12⟩, ⟨%f13, %hf13, H13⟩, ⟨%f14, %hf14, H14⟩,
    ⟨%d15, %f15, -, H15⟩, ⟨%d16, %f16, -, H16⟩, ⟨%f17, %hf17, H17⟩, ⟨%f18, %hf18, H18⟩, Hk⟩
  subst hf2; subst hf3; subst hf4; subst hf5; subst hf6; subst hf7; subst hf8; subst hf9; subst hf10; subst hf11
  subst hf12; subst hf13; subst hf14; subst hf17; subst hf18
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  -- before any store, a load of an accumulator through its whole rectangle reads the contents it was handed
  have e17 : View.readAt (Elt F) arg17.view (Rect.unit (s := S1024x128) ![0, 0] S1024x128.size inb_S1024x128_S1024x128_0_0).toLoadRect f17
      = arg17.view.read (Elt F) f17 := View.ld_unit_zero (S := S1024x128) zeroOff2 inb_S1024x128_S1024x128_0_0 _
  have e18 : View.readAt (Elt F) arg18.view (Rect.unit (s := S1x1024) ![0, 0] S1x1024.size inb_S1x1024_S1x1024_0_0).toLoadRect f18
      = arg18.view.read (Elt F) f18 := View.ld_unit_zero (S := S1x1024) zeroOff2 inb_S1x1024_S1x1024_0_0 _
  -- each output holds one whole-buffer store: the written-out form of the accumulator as its last store left it
  isplitl [H15]
  · iexists _; isplitr
    swap; · iexact H15
    ipureintro
    sl_unfold_run_names
    rw [read_writes_last_whole _ _ zeroOff3]
    simp only [View.readCov_cons_toLoadRect, e17]
    rfl
  isplitl [H16]
  · iexists _; isplitr
    swap; · iexact H16
    ipureintro
    sl_unfold_run_names
    rw [read_writes_last_whole _ _ zeroOff3]
    simp only [View.readCov_cons_toLoadRect, e18]
    rfl
  -- each accumulator's last store is through its whole rectangle and alone decides; every load in between is
  -- through the rectangle of the store before it, so it reads that store's payload
  isplitl [H17]
  · iexists _; isplitr
    swap; · iexact H17
    ipureintro
    sl_unfold_run_names
    rw [read_writes_last_whole _ _ zeroOff2]
    simp only [View.readCov_cons_toLoadRect, e17]
    rfl
  iexists _; isplitr
  swap; · iexact H18
  ipureintro
  sl_unfold_run_names
  rw [read_writes_last_whole _ _ zeroOff2]
  simp only [View.readCov_cons_toLoadRect, e18]
  rfl

end Cert.KernelIdeal.Hand

end
-- ==== Proof.KI.Run0.lean ====
/-
  The first kernel's body, run once per case of its two tests, on whole memrefs at stated contents, at either
  float instance. In every case the feature, id and parameter blocks come back as handed in, and the two
  accumulators end at the point's contribution (`sumsNext`, `cntNext`) over what they started from — the zero
  fills at a core's first step, the handed contents otherwise. At a core's last step the two output buffers
  end at the accumulators as written out; at the other steps they come back untouched. The first-step and
  last-step cases are the two modules imported; the middle-step case is here: the accumulators, at the contents
  the step before left, take the point's contribution, and the outputs come back as handed in.
-/
import proofs.«411350_j36593121362170_3_alg».proof.Proof.KI.Run0A
import proofs.«411350_j36593121362170_3_alg».proof.Proof.KI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- CASE B, a middle step: the accumulators, at `xs0`, `xs1`, take the point's contribution; the outputs are not touched. -/
theorem kernelRun0_B (c : Dev nD) (i : grid0.Coords) (arg2 : Memref sig .tc .vmem S1x5000x128 .f32) (harg2 : arg2.IsWhole) (arg3 : Memref sig .tc .vmem S1x5000x128 .f32) (harg3 : arg3.IsWhole)
    (arg4 : Memref sig .tc .vmem S1x5000x128 .f32) (harg4 : arg4.IsWhole) (arg5 : Memref sig .tc .vmem S1x5000x128 .f32) (harg5 : arg5.IsWhole)
    (arg6 : Memref sig .tc .vmem S1x5000x1 .i32) (harg6 : arg6.IsWhole) (arg7 : Memref sig .tc .vmem S512x256 .bf16) (harg7 : arg7.IsWhole)
    (arg8 : Memref sig .tc .vmem S256 .f32) (harg8 : arg8.IsWhole) (arg9 : Memref sig .tc .vmem S256x256 .bf16) (harg9 : arg9.IsWhole)
    (arg10 : Memref sig .tc .vmem S256 .f32) (harg10 : arg10.IsWhole) (arg11 : Memref sig .tc .vmem S256x256 .bf16) (harg11 : arg11.IsWhole)
    (arg12 : Memref sig .tc .vmem S256 .f32) (harg12 : arg12.IsWhole) (arg13 : Memref sig .tc .vmem S256x128 .bf16) (harg13 : arg13.IsWhole)
    (arg14 : Memref sig .tc .vmem S128 .f32) (harg14 : arg14.IsWhole) (arg15 : Memref sig .tc .vmem S1x1024x128 .f32) (harg15 : arg15.IsWhole)
    (arg16 : Memref sig .tc .vmem S1x1x1024 .f32) (harg16 : arg16.IsWhole) (arg17 : Memref sig .tc .vmem S1024x128 .f32) (harg17 : arg17.IsWhole)
    (arg18 : Memref sig .tc .vmem S1x1024 .f32) (harg18 : arg18.IsWhole)
    (hc0 : ¬cond0_0 i) (hc1 : ¬cond0_1 i)
    (x0 x1 x2 x3 : Vec F S1x5000x128 .f32) (e : Vec F S1x5000x1 .i32) (w1 : Vec F S512x256 .bf16) (b1 : Vec F S256 .f32)
    (w2 : Vec F S256x256 .bf16) (b2 : Vec F S256 .f32) (w3 : Vec F S256x256 .bf16) (b3 : Vec F S256 .f32)
    (w4 : Vec F S256x128 .bf16) (b4 : Vec F S128 .f32) (xs0 : Vec F S1024x128 .f32) (xs1 : Vec F S1x1024 .f32) (xo13 : Vec F S1x1024x128 .f32) (xo14 : Vec F S1x1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
        ∗ owns (c : Thread nD τ) arg15 fullShare xo13 ∗ owns (c : Thread nD τ) arg16 fullShare xo14
        ∗ owns (c : Thread nD τ) arg17 fullShare xs0 ∗ owns (c : Thread nD τ) arg18 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare e ∗ owns (c : Thread nD τ) arg7 fullShare w1
        ∗ owns (c : Thread nD τ) arg8 fullShare b1 ∗ owns (c : Thread nD τ) arg9 fullShare w2 ∗ owns (c : Thread nD τ) arg10 fullShare b2
        ∗ owns (c : Thread nD τ) arg11 fullShare w3 ∗ owns (c : Thread nD τ) arg12 fullShare b3 ∗ owns (c : Thread nD τ) arg13 fullShare w4
        ∗ owns (c : Thread nD τ) arg14 fullShare b4
            ∗ owns (c : Thread nD τ) arg15 fullShare xo13 ∗ owns (c : Thread nD τ) arg16 fullShare xo14
            ∗ owns (c : Thread nD τ) arg17 fullShare (sumsNext x0 x1 x2 x3 e w1 b1 w2 b2 w3 b3 w4 b4 xs0)
            ∗ owns (c : Thread nD τ) arg18 fullShare (cntNext e xs1)) -∗ K ⟨⟩))
      ⊢ wp frame (wpE (defs₀ (F := F)) Variants.none c none) E (cc0__mlp_segment_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__mlp_segment_kernel_eq_skeleton]; unfold cc0__mlp_segment_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  -- each block is named by what its buffer reads
  subst hf2; subst hf3; subst hf4; subst hf5; subst hf6; subst hf7; subst hf8; subst hf9; subst hf10; subst hf11; subst hf12; subst hf13; subst hf14; subst hf15; subst hf16; subst hf17; subst hf18
  -- a load of an accumulator's whole buffer, before any store of the run, reads the contents handed in
  have e17 : View.readAt (Elt F) arg17.view (Rect.unit (s := S1024x128) ![0, 0] S1024x128.size inb_S1024x128_S1024x128_0_0).toLoadRect f17
      = arg17.view.read (Elt F) f17 := View.ld_unit_zero (S := S1024x128) zeroOff2 inb_S1024x128_S1024x128_0_0 _
  have e18 : View.readAt (Elt F) arg18.view (Rect.unit (s := S1x1024) ![0, 0] S1x1024.size inb_S1x1024_S1x1024_0_0).toLoadRect f18
      = arg18.view.read (Elt F) f18 := View.ld_unit_zero (S := S1x1024) zeroOff2 inb_S1x1024_S1x1024_0_0 _
  sl_exec (disch := first | exact hc0 | exact hc1)
  sl_step
  iapply Hk
  -- the feature, id and parameter blocks and the two outputs are only loaded: their buffers come back as they were
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  -- the segment sums: five stores through the whole buffer, one per chunk of rows. The buffer reads the last store's
  -- payload; each update's accumulator argument is a load through the store before's own rectangle, which reads that
  -- store's payload, and so on down to the first chunk's, whose load reads the contents handed in
  isplitl [H17]
  · iexists _; isplitr
    swap; · iexact H17
    ipureintro
    sl_unfold_run_names
    rw [read_writes_last_whole _ _ zeroOff2]
    simp only [View.readCov_cons_toLoadRect, e17]
    rfl
  -- the segment counts: the same five stores, over the contents handed in
  iexists _; isplitr
  swap; · iexact H18
  ipureintro
  sl_unfold_run_names
  rw [read_writes_last_whole _ _ zeroOff2]
  simp only [View.readCov_cons_toLoadRect, e18]
  rfl

end Cert.KernelIdeal.Hand

end
-- ==== Proof.KI.Frame0.lean ====
/-
  The first kernel region's body obligation, at either float instance and at any entry contents `V`: at every
  grid point the body, handed the invariant and the windows' staging buffers, returns them at the proof data's
  next contents. Which of the body's three cases a point is in is decided by its position modulo 50; an
  input's staging buffer holds its block whether fetched at the point or kept; the two outputs are idle and
  handed back untouched except at a core's last step, where the body stores them whole. The invariant hands the
  body the two accumulators at what the point before left (at anything before the first point) and takes them
  back at this point's contents.
-/
import proofs.«411350_j36593121362170_3_alg».proof.Proof.KI.Data0
import proofs.«411350_j36593121362170_3_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two tests in closed form, and where the outputs are idle -/

/-- The first test holds at a core's first step: the positions ≡ 0 (mod 50). -/
theorem hcond0_0 : ∀ t : Fin cfg0.N, cond0_0 (grid0.coords t) ↔ t.val % 50 = 0 :=
  (by decide +kernel : ∀ t : Fin grid0.N, cond0_0 (grid0.coords t) ↔ t.val % 50 = 0)

/-- The second test holds at a core's last step: the positions ≡ 49 (mod 50). -/
theorem hcond0_1 : ∀ t : Fin cfg0.N, cond0_1 (grid0.coords t) ↔ t.val % 50 = 49 :=
  (by decide +kernel : ∀ t : Fin grid0.N, cond0_1 (grid0.coords t) ↔ t.val % 50 = 49)

/-- Away from a core's last step the two outputs are idle, -/
theorem idleAt0_13 : ∀ t : Fin cfg0.N, ¬cond0_1 (grid0.coords t) → cfg0.idle 13 (grid0.coords t) = true := by decide +kernel
theorem idleAt0_14 : ∀ t : Fin cfg0.N, ¬cond0_1 (grid0.coords t) → cfg0.idle 14 (grid0.coords t) = true := by decide +kernel
/-- at it they are live, -/
theorem liveAt0_13 : ∀ t : Fin cfg0.N, cond0_1 (grid0.coords t) → cfg0.idle 13 (grid0.coords t) = false := by decide +kernel
theorem liveAt0_14 : ∀ t : Fin cfg0.N, cond0_1 (grid0.coords t) → cfg0.idle 14 (grid0.coords t) = false := by decide +kernel
/-- and away from it their blocks are not written back. -/
theorem noFlush0_13 (t : Fin cfg0.N) (h : ¬t.val % 50 = 49) : (cfg0.win 13).flush t = false :=
  Bool.eq_false_iff.mpr fun hf => h ((flush0_13 t).mp hf)
theorem noFlush0_14 (t : Fin cfg0.N) (h : ¬t.val % 50 = 49) : (cfg0.win 14).flush t = false :=
  Bool.eq_false_iff.mpr fun hf => h ((flush0_14 t).mp hf)

/-! ## The staging memrefs as the body is called with them -/

abbrev ms0_0 (t : Fin cfg0.N) : Memref sig .tc .vmem S1x5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5000x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x1024 .f32 := win0_14.stage (cfg0.slots t 14)
abbrev hs0_14 (t : Fin cfg0.N) : (ms0_14 t).IsWhole := hstage0_14 ((cfg0.slots t 14).cast nbuf0_14)

section
variable (V : (c : Dev nD) → (b : Ref sig .tc) → Buf (Elt F) ((c : Thread nD τ).loc b))

/-! ## What each input's staging buffer holds when the body runs -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]

/-- Input 0's staging buffer holds its block at every point, fetched there or kept. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input 1's staging buffer holds its block at every point, fetched there or kept. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input 2's staging buffer holds its block at every point, fetched there or kept. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input 3's staging buffer holds its block at every point, fetched there or kept. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- Input 4's staging buffer holds its block at every point, fetched there or kept. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- Input 5's staging buffer holds its block at every point, fetched there or kept. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- Input 6's staging buffer holds its block at every point, fetched there or kept. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
/-- Input 7's staging buffer holds its block at every point, fetched there or kept. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
/-- Input 8's staging buffer holds its block at every point, fetched there or kept. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
/-- Input 9's staging buffer holds its block at every point, fetched there or kept. -/
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
/-- Input 10's staging buffer holds its block at every point, fetched there or kept. -/
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
/-- Input 11's staging buffer holds its block at every point, fetched there or kept. -/
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
/-- Input 12's staging buffer holds its block at every point, fetched there or kept. -/
theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)

/-! ## The invariant between points -/

/-- What the launch hands the region, with the two accumulators as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ restBufs0 c)
          ∗ (∃ r, prngReg c r)) := by
  unfold Pipeline.ΦA restBufs0; rw [scopedRest0_eq]; simp only [scM0_0, scM0_1, owns_whole]; try rfl

theorem PhiS0_zero (c : Dev nD) (n : ℕ) (h : n ≤ cfg0.N) (hz : n = 0) : PhiS0 V c n h = Pipeline.ΦA spec0 c := by
  subst hz; rfl

/-- After point `n`: the accumulators at that point's contents. -/
theorem PhiS0_succ (c : Dev nD) (n : ℕ) (hn : n < cfg0.N) :
    PhiS0 V c (n + 1) hn = iprop(owns (c : Thread nD τ) scM0_0 fullShare (accAt0 V c n hn).1 ∗ owns (c : Thread nD τ) scM0_1 fullShare (accAt0 V c n hn).2
      ∗ restBufs0 c ∗ (∃ r, prngReg c r)) := rfl

/-- Before a point that is not the first: the accumulators at what the point before left. -/
theorem PhiS0_pos (c : Dev nD) (n : ℕ) (h : n ≤ cfg0.N) (hz : n ≠ 0) :
    PhiS0 V c n h = iprop(owns (c : Thread nD τ) scM0_0 fullShare (accAt0 V c (n - 1) (by omega)).1
      ∗ owns (c : Thread nD τ) scM0_1 fullShare (accAt0 V c (n - 1) (by omega)).2
      ∗ restBufs0 c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The accumulators after a point, component by component -/

theorem accAt0_first_fst (c : Dev nD) (t : Fin cfg0.N) (h0 : t.val % 50 = 0) :
    (accAt0 V c t.val t.isLt).1 = sumsNext (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) k0_pay7 := by
  rw [accAt0_first V c t h0]; rfl
theorem accAt0_first_snd (c : Dev nD) (t : Fin cfg0.N) (h0 : t.val % 50 = 0) :
    (accAt0 V c t.val t.isLt).2 = cntNext (iblk0 V c 4 t) k0_pay8 := by
  rw [accAt0_first V c t h0]; rfl
theorem accAt0_next_fst (c : Dev nD) (t : Fin cfg0.N) (h0 : ¬t.val % 50 = 0) :
    (accAt0 V c t.val t.isLt).1 = sumsNext (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (accAt0 V c (t.val - 1) (Nat.lt_of_le_of_lt (Nat.sub_le _ _) t.isLt)).1 := by
  rw [accAt0_next V c t h0]; rfl
theorem accAt0_next_snd (c : Dev nD) (t : Fin cfg0.N) (h0 : ¬t.val % 50 = 0) :
    (accAt0 V c t.val t.isLt).2 = cntNext (iblk0 V c 4 t) (accAt0 V c (t.val - 1) (Nat.lt_of_le_of_lt (Nat.sub_le _ _) t.isLt)).2 := by
  rw [accAt0_next V c t h0]; rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t)

/-- Input 0 is never idle: the body leaves its buffer at its block. -/
theorem leaves0_0 (c : Dev nD) (t : Fin cfg0.N) :
    (dat0 V c).leavesExact 0 t = owns (c : Thread nD τ) (ms0_0 t) fullShare (iblk0 V c 0 t) := by
  unfold Dat.leavesExact; rw [show cfg0.idle 0 (cfg0.grid.coords t) = false from rfl, after0_0]
/-- Input 1 is never idle: the body leaves its buffer at its block. -/
theorem leaves0_1 (c : Dev nD) (t : Fin cfg0.N) :
    (dat0 V c).leavesExact 1 t = owns (c : Thread nD τ) (ms0_1 t) fullShare (iblk0 V c 1 t) := by
  unfold Dat.leavesExact; rw [show cfg0.idle 1 (cfg0.grid.coords t) = false from rfl, after0_1]
/-- Input 2 is never idle: the body leaves its buffer at its block. -/
theorem leaves0_2 (c : Dev nD) (t : Fin cfg0.N) :
    (dat0 V c).leavesExact 2 t = owns (c : Thread nD τ) (ms0_2 t) fullShare (iblk0 V c 2 t) := by
  unfold Dat.leavesExact; rw [show cfg0.idle 2 (cfg0.grid.coords t) = false from rfl, after0_2]
/-- Input 3 is never idle: the body leaves its buffer at its block. -/
theorem leaves0_3 (c : Dev nD) (t : Fin cfg0.N) :
    (dat0 V c).leavesExact 3 t = owns (c : Thread nD τ) (ms0_3 t) fullShare (iblk0 V c 3 t) := by
  unfold Dat.leavesExact; rw [show cfg0.idle 3 (cfg0.grid.coords t) = false from rfl, after0_3]
/-- Input 4 is never idle: the body leaves its buffer at its block. -/
theorem leaves0_4 (c : Dev nD) (t : Fin cfg0.N) :
    (dat0 V c).leavesExact 4 t = owns (c : Thread nD τ) (ms0_4 t) fullShare (iblk0 V c 4 t) := by
  unfold Dat.leavesExact; rw [show cfg0.idle 4 (cfg0.grid.coords t) = false from rfl, after0_4]
/-- Input 5 is never idle: the body leaves its buffer at its block. -/
theorem leaves0_5 (c : Dev nD) (t : Fin cfg0.N) :
    (dat0 V c).leavesExact 5 t = owns (c : Thread nD τ) (ms0_5 t) fullShare (iblk0 V c 5 t) := by
  unfold Dat.leavesExact; rw [show cfg0.idle 5 (cfg0.grid.coords t) = false from rfl, after0_5]
/-- Input 6 is never idle: the body leaves its buffer at its block. -/
theorem leaves0_6 (c : Dev nD) (t : Fin cfg0.N) :
    (dat0 V c).leavesExact 6 t = owns (c : Thread nD τ) (ms0_6 t) fullShare (iblk0 V c 6 t) := by
  unfold Dat.leavesExact; rw [show cfg0.idle 6 (cfg0.grid.coords t) = false from rfl, after0_6]
/-- Input 7 is never idle: the body leaves its buffer at its block. -/
theorem leaves0_7 (c : Dev nD) (t : Fin cfg0.N) :
    (dat0 V c).leavesExact 7 t = owns (c : Thread nD τ) (ms0_7 t) fullShare (iblk0 V c 7 t) := by
  unfold Dat.leavesExact; rw [show cfg0.idle 7 (cfg0.grid.coords t) = false from rfl, after0_7]
/-- Input 8 is never idle: the body leaves its buffer at its block. -/
theorem leaves0_8 (c : Dev nD) (t : Fin cfg0.N) :
    (dat0 V c).leavesExact 8 t = owns (c : Thread nD τ) (ms0_8 t) fullShare (iblk0 V c 8 t) := by
  unfold Dat.leavesExact; rw [show cfg0.idle 8 (cfg0.grid.coords t) = false from rfl, after0_8]
/-- Input 9 is never idle: the body leaves its buffer at its block. -/
theorem leaves0_9 (c : Dev nD) (t : Fin cfg0.N) :
    (dat0 V c).leavesExact 9 t = owns (c : Thread nD τ) (ms0_9 t) fullShare (iblk0 V c 9 t) := by
  unfold Dat.leavesExact; rw [show cfg0.idle 9 (cfg0.grid.coords t) = false from rfl, after0_9]
/-- Input 10 is never idle: the body leaves its buffer at its block. -/
theorem leaves0_10 (c : Dev nD) (t : Fin cfg0.N) :
    (dat0 V c).leavesExact 10 t = owns (c : Thread nD τ) (ms0_10 t) fullShare (iblk0 V c 10 t) := by
  unfold Dat.leavesExact; rw [show cfg0.idle 10 (cfg0.grid.coords t) = false from rfl, after0_10]
/-- Input 11 is never idle: the body leaves its buffer at its block. -/
theorem leaves0_11 (c : Dev nD) (t : Fin cfg0.N) :
    (dat0 V c).leavesExact 11 t = owns (c : Thread nD τ) (ms0_11 t) fullShare (iblk0 V c 11 t) := by
  unfold Dat.leavesExact; rw [show cfg0.idle 11 (cfg0.grid.coords t) = false from rfl, after0_11]
/-- Input 12 is never idle: the body leaves its buffer at its block. -/
theorem leaves0_12 (c : Dev nD) (t : Fin cfg0.N) :
    (dat0 V c).leavesExact 12 t = owns (c : Thread nD τ) (ms0_12 t) fullShare (iblk0 V c 12 t) := by
  unfold Dat.leavesExact; rw [show cfg0.idle 12 (cfg0.grid.coords t) = false from rfl, after0_12]

/-- Away from a core's last step an output's buffer is handed back as it was found. -/
theorem leaves0_13_idle (c : Dev nD) (t : Fin cfg0.N) (h1 : ¬t.val % 50 = 49) :
    (dat0 V c).leavesExact 13 t = iprop(∃ d, owns (c : Thread nD τ) (ms0_13 t) fullShare ((dat0 V c).before 13 t d)) :=
  Dat.leavesExact_idle (dat0 V c) 13 t (idleAt0_13 t fun h => h1 ((hcond0_1 t).mp h)) (noFlush0_13 t h1)
theorem leaves0_14_idle (c : Dev nD) (t : Fin cfg0.N) (h1 : ¬t.val % 50 = 49) :
    (dat0 V c).leavesExact 14 t = iprop(∃ d, owns (c : Thread nD τ) (ms0_14 t) fullShare ((dat0 V c).before 14 t d)) :=
  Dat.leavesExact_idle (dat0 V c) 14 t (idleAt0_14 t fun h => h1 ((hcond0_1 t).mp h)) (noFlush0_14 t h1)

/-- At a core's last step an output's buffer is left at the accumulator as written out. -/
theorem leaves0_13_live (c : Dev nD) (t : Fin cfg0.N) (h1 : t.val % 50 = 49) :
    (dat0 V c).leavesExact 13 t = owns (c : Thread nD τ) (ms0_13 t) fullShare (k0_pay5 (accAt0 V c t.val t.isLt).1) := by
  unfold Dat.leavesExact; rw [liveAt0_13 t ((hcond0_1 t).mpr h1), after0_13]
theorem leaves0_14_live (c : Dev nD) (t : Fin cfg0.N) (h1 : t.val % 50 = 49) :
    (dat0 V c).leavesExact 14 t = owns (c : Thread nD τ) (ms0_14 t) fullShare (k0_pay6 (accAt0 V c t.val t.isLt).2) := by
  unfold Dat.leavesExact; rw [liveAt0_14 t ((hcond0_1 t).mpr h1), after0_14]

set_option maxHeartbeats 4800000 in
/-- The body at any point. The inputs' buffers hold their blocks; the position modulo 50 says which case the point is
    in, and that case's run applies. The invariant hands the body the accumulators at what the point before left (at
    anything before the first point; at a core's first step the named contents are forgotten, the body zero-fills
    them) and takes them back at this point's contents; an output's buffer comes back as found except at a core's
    last step, where it comes back at the accumulator as written out; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl]
  rw [show (dat0 V c).Φ t.succ = PhiS0 V c (t.val + 1) t.isLt from rfl, PhiS0_succ]
  rw [leaves0_0 V c t, leaves0_1 V c t, leaves0_2 V c t, leaves0_3 V c t, leaves0_4 V c t, leaves0_5 V c t, leaves0_6 V c t, leaves0_7 V c t, leaves0_8 V c t, leaves0_9 V c t, leaves0_10 V c t, leaves0_11 V c t, leaves0_12 V c t]
  have hN : t.val < 100 := lt_of_lt_of_eq t.isLt (show cfg0.N = 100 from N_0)
  by_cases h0 : t.val % 50 = 0
  · have h1 : ¬t.val % 50 = 49 := by omega
    rw [leaves0_13_idle V c t h1, leaves0_14_idle V c t h1]
    rw [accAt0_first_fst V c t h0, accAt0_first_snd V c t h0]
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) ((dat0 V c).before 13 t d13) ((dat0 V c).before 14 t d14) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, H10, H11, H12, H13, H14, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      iexists _; iexact H14
    · rw [PhiS0_castSucc V c t, PhiS0_pos V c _ _ hz]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) ((dat0 V c).before 13 t d13) ((dat0 V c).before 14 t d14) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexists _; iexact HS0
      isplitl [HS1]; · iexists _; iexact HS1
      iintro ⟨H0, H1, H2, H3, H4, H5, H6, H7, H8, H9, H10, H11, H12, H13, H14, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      iexists _; iexact H14
  · have hz : t.val ≠ 0 := fun h => h0 (by rw [h])
    rw [accAt0_next_fst V c t h0, accAt0_next_snd V c t h0]
    rw [PhiS0_castSucc V c t, PhiS0_pos V c _ _ hz]
    by_cases h1 : t.val % 50 = 49
    · rw [leaves0_13_live V c t h1, leaves0_14_live V c t h1]
      rw [accAt0_next_fst V c t h0, accAt0_next_snd V c t h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (accAt0 V c (t.val - 1) (Nat.lt_of_le_of_lt (Nat.sub_le _ _) t.isLt)).1 (accAt0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [leaves0_13_idle V c t h1, leaves0_14_idle V c t h1]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (accAt0 V c (t.val - 1) (Nat.lt_of_le_of_lt (Nat.sub_le _ _) t.isLt)).1 (accAt0 V c (t.val - 1) (Nat.lt_of_le_of_lt (Nat.sub_le _ _) t.isLt)).2 ((dat0 V c).before 13 t d13) ((dat0 V c).before 14 t d14) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, H10, H11, H12, H13, H14, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      iexists _; iexact H14

/-- The library's body obligation for the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives everything scoped back at some contents: the accumulators' named
    contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 100 := N_0; omega), PhiA0_eq]
  iintro ⟨HS0, HS1, HR, Hg⟩
  isplitl [HS0 HS1 HR]
  · isplitl [HS0]; · iexists _; iexact HS0
    isplitl [HS1]; · iexists _; iexact HS1
    iexact HR
  iexact Hg

end

end Cert.KernelIdeal.Hand

end
-- ==== Proof.KI.Frame1.lean ====
/-
  The second kernel region's body, at either float instance: on whole memrefs holding the id block and the two
  tables, with the output buffer at anything, it runs to the end leaving the inputs as they were and the
  output at its five chunks (`gatherOut`); and from it the region's body obligation at any entry contents `V`.
  The region keeps nothing between points, so its invariant is the same before and after every point.
-/
import proofs.«411350_j36593121362170_3_alg».proof.Proof.KI.Data1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The five chunks of 2000 rows tile the output block, so they cover it. -/
theorem cover1_3 (p4 p3 p2 p1 p0 : Vec F S2000x128 .f32) (y : S10000x128.Idx) :
    ∃ pc ∈ ([⟨rQ4, p4⟩, ⟨rQ3, p3⟩, ⟨rQ2, p2⟩, ⟨rQ1, p1⟩, ⟨rQ0, p0⟩] : List (View.Piece (Elt F) S10000x128 .f32)), y ∈ pc.1.set :=
  View.cover_of_tiled [⟨rQ4, p4⟩, ⟨rQ3, p3⟩, ⟨rQ2, p2⟩, ⟨rQ1, p1⟩, ⟨rQ0, p0⟩] S2000x128.size (by rfl) y

set_option maxHeartbeats 1000000 in
/-- The second kernel's body on whole memrefs. -/
theorem kernelRun1 (c : Dev nD) (i : grid1.Coords) (arg1 : Memref sig .tc .vmem S10000x1 .i32) (harg1 : arg1.IsWhole)
    (arg2 : Memref sig .tc .vmem S1024x128 .bf16) (harg2 : arg2.IsWhole) (arg3 : Memref sig .tc .vmem S1024x128 .bf16) (harg3 : arg3.IsWhole)
    (arg4 : Memref sig .tc .vmem S10000x128 .f32) (harg4 : arg4.IsWhole)
    (e : Vec F S10000x1 .i32) (hi lo : Vec F S1024x128 .bf16) (E : Set ℕ) (K : PUnit → sProp 𝕄) :
    iprop(owns (c : Thread nD τ) arg1 fullShare e ∗ owns (c : Thread nD τ) arg2 fullShare hi ∗ owns (c : Thread nD τ) arg3 fullShare lo
        ∗ (∃ d, owns (c : Thread nD τ) arg4 fullShare d)
        ∗ (iprop(owns (c : Thread nD τ) arg1 fullShare e ∗ owns (c : Thread nD τ) arg2 fullShare hi ∗ owns (c : Thread nD τ) arg3 fullShare lo
            ∗ owns (c : Thread nD τ) arg4 fullShare (gatherOut e hi lo)) -∗ K ⟨⟩))
      ⊢ wp frame (wpE (defs₀ (F := F)) Variants.none c none) E (cc1__gather_kernel i arg1 harg1 arg2 harg2 arg3 harg3 arg4 harg4) K := by
  simp only [cc1__gather_kernel_eq_skeleton]; unfold cc1__gather_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _ _ _ _ _)

section
variable (V : (c : Dev nD) → (b : Ref sig .tc) → Buf (Elt F) ((c : Thread nD τ).loc b))

/-- Each input window's current staging buffer holds its block at every point, fetched there or not: the body
    leaves the block in place, and where the window is not fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- What the body is called with at point `t`, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' memrefs hold their blocks, so the body's run on whole memrefs applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (kernelRun1 c (grid1.coords t) _ _ _ _ _ _ _ _ (iblk1 V c 0 t) (iblk1 V c 1 t) (iblk1 V c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the second region, at every point. -/
theorem body_obligation1 (c : Dev nD) : BodyObligation (dat1 (F := F) V c) (defs₀ (F := F)) Variants.none () Set.univ := by
  intro t
  rw [bigSep_W1, bigSep_W1]
  exact sound_body1 V c t

end

end Cert.KernelIdeal.Hand

end
-- ==== Proof.KI.RunAll.lean ====
/-
  The whole program's run, at either float instance: the launch over its four items (two stretches of host
  operations, two kernel regions), each region entered from what the item before it left and left at the
  fold's next contents.  Every weakly fair execution terminates, nothing faulting, and the final memory holds
  every unscoped buffer at the fold's last contents; no host operation and no region writes an argument array,
  so each argument reads back through the fold to its launch contents.
-/
import proofs.«411350_j36593121362170_3_alg».proof.Proof.KI.Fold
import proofs.«411350_j36593121362170_3_alg».proof.Proof.KI.Frame0
import proofs.«411350_j36593121362170_3_alg».proof.Proof.KI.Frame1
import proofs.«411350_j36593121362170_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments through the fold -/

/-- A buffer that no window of the second region stages, that neither stretch of host operations writes, and that the
    first region leaves as entered, holds its launch contents at the end. -/
theorem W4_through (c : Dev nD) (b : Ref sig .tc) (h4 : ∀ w, Pipeline.arrRef spec1 w ≠ b)
    (h3 : b ∉ (hostOps1_W : List (Ref sig .tc)))
    (h2 : W2 m ρ c (Proc.devRef .tc b) = W1 m ρ c (Proc.devRef .tc b))
    (h1 : b ∉ (hostOps0_W : List (Ref sig .tc))) :
    W4 m ρ c (Proc.devRef .tc b) = m ((c : Thread nD τ).loc b) :=
  (W4_of_ne m ρ c b h4).trans <| (StableHlo.after_of_writes_sub hostOps1 _ hostOps1_writes h3).trans <| h2.trans <|
    (StableHlo.after_of_writes_sub hostOps0 _ hostOps0_writes h1).trans rfl

/-- The first region leaves an input window's array as entered. -/
theorem W2_input (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- An argument array reaches the end as launched. -/
theorem W4_arg (c : Dev nD) (b : Ref sig .tc)
    (hb : b ∈ ([main_arg0, main_arg1, main_arg2, main_arg3, main_arg4, main_arg5, main_arg6, main_arg7, main_arg8, main_arg9, main_arg10, main_arg11, main_arg12] : List (Ref sig .tc))) :
    W4 m ρ c (Proc.devRef .tc b) = m ((c : Thread nD τ).loc b) := by
  simp only [List.mem_cons, List.mem_nil_iff, or_false] at hb
  rcases hb with rfl | rfl | rfl | rfl | rfl | rfl | rfl | rfl | rfl | rfl | rfl | rfl | rfl
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_of_ne m ρ c _ (by decide)) (by decide)
  · exact W4_through m ρ c _ (by decide) (by decide) (W2_input m ρ c 6 rfl) (by decide)
  · exact W4_through m ρ c _ (by decide) (by decide) (W2_of_ne m ρ c _ (by decide)) (by decide)
  · exact W4_through m ρ c _ (by decide) (by decide) (W2_input m ρ c 8 rfl) (by decide)
  · exact W4_through m ρ c _ (by decide) (by decide) (W2_of_ne m ρ c _ (by decide)) (by decide)
  · exact W4_through m ρ c _ (by decide) (by decide) (W2_input m ρ c 10 rfl) (by decide)
  · exact W4_through m ρ c _ (by decide) (by decide) (W2_of_ne m ρ c _ (by decide)) (by decide)
  · exact W4_through m ρ c _ (by decide) (by decide) (W2_input m ρ c 12 rfl) (by decide)

/-- The result array at the end is what the second region's write-backs leave. -/
theorem W4_main_v30 (c : Dev nD) : W4 m ρ c (Proc.devRef .tc main_v30) = (dat1 (V3 m ρ) c).arrAt 3 cfg1.N :=
  W4_arr m ρ c 3

/-- The first region's result arrays at its exit are what its write-backs leave. -/
theorem W2_main_v9_0 (c : Dev nD) : W2 m ρ c (Proc.devRef .tc main_v9_0) = (dat0 (V1 m ρ) c).arrAt 13 cfg0.N :=
  W2_arr m ρ c 13
theorem W2_main_v9_1 (c : Dev nD) : W2 m ρ c (Proc.devRef .tc main_v9_1) = (dat0 (V1 m ρ) c).arrAt 14 cfg0.N :=
  W2_arr m ρ c 14

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the fold's last contents, the generator
    register at some state. -/
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- THE FIRST REGION over the thread state: entered from every unscoped buffer at `W1`, left at `W2`.  Its arrays
    split out of the unscoped buffers and are put back at the exit contents; the generator register and the scoped
    buffers enter the invariant before the first point and come back out of the invariant after the last; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W3`, left at `W4` (what the
    launch reads at the end).  Its invariant is the same before and after every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's four items in order: a host item per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the items. -/
theorem main_run (c : Dev nD) : main (F := F) c = Pipeline.Seg.run (segs m ρ) := (main_chain c).trans (by chain_rfl)

set_option backward.isDefEq.respectTransparency.types false in
/-- THE RUN: every weakly fair execution of @main terminates and every final memory holds each unscoped buffer
    at the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME at either instance: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have arg : ∀ (s : MemSt nD τ sig (Elt F)) (h : ∀ c : Dev nD, ∀ b ∈ Pipeline.ucRefs τ sig, s.mem (((c : Thread nD τ)).1, b) = W4 m ρ c b)
      (c : Dev nD) (b : Ref sig .tc) (hu : ¬ (Proc.devRef .tc b : DevRef τ sig).isScoped)
      (hb : b ∈ ([main_arg0, main_arg1, main_arg2, main_arg3, main_arg4, main_arg5, main_arg6, main_arg7, main_arg8, main_arg9, main_arg10, main_arg11, main_arg12] : List (Ref sig .tc))),
      s.mem ((c.tc : Thread nD τ).loc b) = m ((c.tc : Thread nD τ).loc b) :=
    fun s h c b hu hb => (h c _ (mem_uc b hu)).trans (W4_arg m ρ c b hb)
  refine (θ_run defs _ _).mono (Q := fun r => ∀ c : Dev nD, ∀ b ∈ Pipeline.ucRefs τ sig, r.2.mem (((c : Thread nD τ)).1, b) = W4 m ρ c b)
    (fun r h c => ?_) (run_all m ρ)
  exact ⟨arg r.2 h c main_arg0 (by decide) (by decide), arg r.2 h c main_arg1 (by decide) (by decide),
    arg r.2 h c main_arg2 (by decide) (by decide), arg r.2 h c main_arg3 (by decide) (by decide),
    arg r.2 h c main_arg4 (by decide) (by decide), arg r.2 h c main_arg5 (by decide) (by decide),
    arg r.2 h c main_arg6 (by decide) (by decide), arg r.2 h c main_arg7 (by decide) (by decide),
    arg r.2 h c main_arg8 (by decide) (by decide), arg r.2 h c main_arg9 (by decide) (by decide),
    arg r.2 h c main_arg10 (by decide) (by decide), arg r.2 h c main_arg11 (by decide) (by decide),
    arg r.2 h c main_arg12 (by decide) (by decide)⟩

end Cert.KernelIdeal.Hand

end
-- ==== Proof.Math.Spec.lean ====
/-
  The mathematics of the segment mean, over the extended reals, free of any program text.

  An edge `t` carries a feature row (four 128-wide pieces laid side by side), a four-layer perceptron
  turns it into an activation row `a t`, and a segment id `ei t`.  The segment mean of segment `s` is
  the sum of the activation rows of the edges of `s` divided by their number; every edge receives the
  mean of its own segment.  The definitions below name each of these as a plain function of `Fin`
  indices, so that both programs' results can be stated over them.
-/
import Idealize.ShloMosaic.PureOps.Ideal
import Idealize.ShloMosaic.Lib.ValueIdx

noncomputable section

namespace Cert.SegMean

open Idealize.ShloMosaic

/-- One dense layer on a row: `x · W + b`, the product a sum over the input width. -/
def linRow {k j : ℕ} (x : Fin k → EReal) (W : Fin k → Fin j → EReal) (b : Fin j → EReal) : Fin j → EReal :=
  fun o => (∑ q : Fin k, x q * W q o) + b o

/-- The rectifier on a row: the larger of the entry and zero. -/
def reluRow {j : ℕ} (x : Fin j → EReal) : Fin j → EReal := fun o => max (x o) 0

/-- The perceptron's eight parameter arrays. -/
structure Weights where
  W1 : Fin 512 → Fin 256 → EReal
  b1 : Fin 256 → EReal
  W2 : Fin 256 → Fin 256 → EReal
  b2 : Fin 256 → EReal
  W3 : Fin 256 → Fin 256 → EReal
  b3 : Fin 256 → EReal
  W4 : Fin 256 → Fin 128 → EReal
  b4 : Fin 128 → EReal

/-- Every parameter is a real number. -/
def Weights.Finite (P : Weights) : Prop :=
  (∀ q o, ∃ r : ℝ, P.W1 q o = (r : EReal)) ∧ (∀ o, ∃ r : ℝ, P.b1 o = (r : EReal))
  ∧ (∀ q o, ∃ r : ℝ, P.W2 q o = (r : EReal)) ∧ (∀ o, ∃ r : ℝ, P.b2 o = (r : EReal))
  ∧ (∀ q o, ∃ r : ℝ, P.W3 q o = (r : EReal)) ∧ (∀ o, ∃ r : ℝ, P.b3 o = (r : EReal))
  ∧ (∀ q o, ∃ r : ℝ, P.W4 q o = (r : EReal)) ∧ (∀ o, ∃ r : ℝ, P.b4 o = (r : EReal))

/-- The four-layer perceptron on one feature row: three rectified layers and a linear one. -/
def mlpRow (P : Weights) (x : Fin 512 → EReal) : Fin 128 → EReal :=
  linRow (reluRow (linRow (reluRow (linRow (reluRow (linRow x P.W1 P.b1)) P.W2 P.b2)) P.W3 P.b3)) P.W4 P.b4

/-- The feature row of an edge: its four 128-wide pieces side by side. -/
def featRow (g ns nr e : Fin 128 → EReal) : Fin 512 → EReal := fun k =>
  if h0 : k.val < 128 then g ⟨k.val, h0⟩
  else if h1 : k.val < 256 then ns ⟨k.val - 128, by omega⟩
  else if h2 : k.val < 384 then nr ⟨k.val - 256, by omega⟩
  else e ⟨k.val - 384, by omega⟩

/-- The indicator "this edge's segment id is `s`", as an extended real: one or zero. -/
def ind (w : BitVec 32) (s : Fin 1024) : EReal := if w = BitVec.ofNat 32 s.val then 1 else 0

/-- The sum of the activation rows of the edges of segment `s`, among `n` edges. -/
def segSum {n : ℕ} (ei : Fin n → BitVec 32) (a : Fin n → Fin 128 → EReal) (s : Fin 1024) (d : Fin 128) : EReal :=
  ∑ t : Fin n, ind (ei t) s * a t d

/-- The number of edges of segment `s`, among `n` edges. -/
def segCnt {n : ℕ} (ei : Fin n → BitVec 32) (s : Fin 1024) : EReal := ∑ t : Fin n, ind (ei t) s

/-- Edge `r` of half `c` of the 500000 edges (the first 250000 edges are half 0). -/
def half (c : Fin 2) (r : Fin 250000) : Fin 500000 := ⟨c.val * 250000 + r.val, by have := c.isLt; have := r.isLt; omega⟩

/-- The mean the two-pass program forms: the two halves' sums added, divided by the two halves' counts
    added and raised to at least one. -/
def splitMean (ei : Fin 500000 → BitVec 32) (a : Fin 500000 → Fin 128 → EReal) (s : Fin 1024) (d : Fin 128) : EReal :=
  Ideal.div (segSum (fun r => ei (half 0 r)) (fun r => a (half 0 r)) s d + segSum (fun r => ei (half 1 r)) (fun r => a (half 1 r)) s d)
    (max (segCnt (fun r => ei (half 0 r)) s + segCnt (fun r => ei (half 1 r)) s) 1)

/-- What the two-pass program hands edge `t`: the table of means read through the indicator row, once
    for the table itself and once for the table's residue against itself. -/
def splitOut (ei : Fin 500000 → BitVec 32) (a : Fin 500000 → Fin 128 → EReal) (t : Fin 500000) (d : Fin 128) : EReal :=
  (∑ s : Fin 1024, ind (ei t) s * splitMean ei a s d)
    + (∑ s : Fin 1024, ind (ei t) s * (splitMean ei a s d - splitMean ei a s d))

/-- What the plain program hands an edge of segment `s`: the segment's sum over its count. -/
def plainOut (ei : Fin 500000 → BitVec 32) (a : Fin 500000 → Fin 128 → EReal) (s : Fin 1024) (d : Fin 128) : EReal :=
  Ideal.div (segSum ei a s d) (segCnt ei s)

/-! ## The same, read off arrays -/

open ValueIdx

/-- The perceptron's parameters read off the eight arrays. -/
def weightsOf (W1 : (⟨2, ![512, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (W4 : (⟨2, ![256, 128]⟩ : Shape).Idx → EReal) (b4 : (⟨1, ![128]⟩ : Shape).Idx → EReal) : Weights where
  W1 q o := W1 (ix2 q o)
  b1 o := b1 (ix1 o)
  W2 q o := W2 (ix2 q o)
  b2 o := b2 (ix1 o)
  W3 q o := W3 (ix2 q o)
  b3 o := b3 (ix1 o)
  W4 q o := W4 (ix2 q o)
  b4 o := b4 (ix1 o)

/-- Every edge's activation row, from the four feature arrays and the parameters. -/
def actOf (g ns nr e : (⟨2, ![500000, 128]⟩ : Shape).Idx → EReal) (P : Weights) : Fin 500000 → Fin 128 → EReal :=
  fun t => mlpRow P (featRow (fun k => g (ix2 t k)) (fun k => ns (ix2 t k)) (fun k => nr (ix2 t k)) (fun k => e (ix2 t k)))

/-- Every edge's segment id, from the id array. -/
def segOf (ei : (⟨1, ![500000]⟩ : Shape).Idx → BitVec 32) : Fin 500000 → BitVec 32 := fun t => ei (ix1 t)

end Cert.SegMean

end
-- ==== Proof.Math.Algebra.lean ====
/-
  The law that joins the two programs: for edges whose segment ids lie in range and activations that are
  real numbers, reading the table of means through the indicator row (table plus residue) gives the
  segment's sum over its count.  Two facts carry it: a sum over all 500000 edges splits into the two
  halves' sums, and a segment that holds the edge itself has a count of at least one, so raising the
  count to at least one changes nothing.  Finiteness enters once: the residue `x - x` vanishes only for a
  real `x`.
-/
import proofs.«411350_j36593121362170_3_alg».proof.Proof.Math.Spec

noncomputable section

namespace Cert.SegMean

open Idealize.ShloMosaic

/-- A finite sum of real numbers is a real number. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, h1⟩ := hf a (Finset.mem_insert_self a s)
    obtain ⟨r2, h2⟩ := ih (fun i hi => hf i (Finset.mem_insert_of_mem hi))
    exact ⟨r1 + r2, by rw [Finset.sum_insert ha, h1, h2, EReal.coe_add]⟩

/-- The rectifier of a real row is a real row. -/
theorem reluRow_finite {j : ℕ} (x : Fin j → EReal) (hx : ∀ q, ∃ r : ℝ, x q = (r : EReal)) (o : Fin j) :
    ∃ r : ℝ, reluRow x o = (r : EReal) := by
  obtain ⟨r, hr⟩ := hx o
  unfold reluRow
  rcases le_total (x o) 0 with h | h
  · exact ⟨0, by rw [max_eq_right h, EReal.coe_zero]⟩
  · exact ⟨r, by rw [max_eq_left h, hr]⟩

/-- A dense layer of real rows and real parameters is a real row. -/
theorem linRow_finite {k j : ℕ} (x : Fin k → EReal) (W : Fin k → Fin j → EReal) (b : Fin j → EReal)
    (hx : ∀ q, ∃ r : ℝ, x q = (r : EReal)) (hW : ∀ q o, ∃ r : ℝ, W q o = (r : EReal)) (hb : ∀ o, ∃ r : ℝ, b o = (r : EReal)) (o : Fin j) :
    ∃ r : ℝ, linRow x W b o = (r : EReal) := by
  obtain ⟨rs, hs⟩ := sum_real Finset.univ (fun q => x q * W q o) (fun q _ => by
    obtain ⟨r1, h1⟩ := hx q
    obtain ⟨r2, h2⟩ := hW q o
    exact ⟨r1 * r2, by rw [h1, h2, EReal.coe_mul]⟩)
  obtain ⟨rb, hb'⟩ := hb o
  exact ⟨rs + rb, by unfold linRow; rw [hs, hb', EReal.coe_add]⟩

/-- The perceptron of a real feature row under real parameters is a real row. -/
theorem mlpRow_finite (P : Weights) (hP : P.Finite) (x : Fin 512 → EReal) (hx : ∀ q, ∃ r : ℝ, x q = (r : EReal)) (o : Fin 128) :
    ∃ r : ℝ, mlpRow P x o = (r : EReal) := by
  obtain ⟨hW1, hb1, hW2, hb2, hW3, hb3, hW4, hb4⟩ := hP
  unfold mlpRow
  have l1 := linRow_finite x P.W1 P.b1 hx hW1 hb1
  have r1 := reluRow_finite _ l1
  have l2 := linRow_finite _ P.W2 P.b2 r1 hW2 hb2
  have r2 := reluRow_finite _ l2
  have l3 := linRow_finite _ P.W3 P.b3 r2 hW3 hb3
  have r3 := reluRow_finite _ l3
  exact linRow_finite _ P.W4 P.b4 r3 hW4 hb4 o

/-- A feature row of four real pieces is real. -/
theorem featRow_finite (g ns nr e : Fin 128 → EReal) (hg : ∀ q, ∃ r : ℝ, g q = (r : EReal)) (hns : ∀ q, ∃ r : ℝ, ns q = (r : EReal))
    (hnr : ∀ q, ∃ r : ℝ, nr q = (r : EReal)) (he : ∀ q, ∃ r : ℝ, e q = (r : EReal)) (k : Fin 512) :
    ∃ r : ℝ, featRow g ns nr e k = (r : EReal) := by
  unfold featRow
  split_ifs
  · exact hg _
  · exact hns _
  · exact hnr _
  · exact he _

/-- A sum over all edges is the first half's plus the second half's. -/
theorem sum_halves {M : Type*} [AddCommMonoid M] (f : Fin 500000 → M) :
    ∑ t : Fin 500000, f t = (∑ r : Fin 250000, f (half 0 r)) + ∑ r : Fin 250000, f (half 1 r) := by
  have h := Fin.sum_univ_add (M := M) (a := 250000) (b := 250000) f
  have h0 : ∀ r : Fin 250000, half 0 r = Fin.castAdd 250000 r := fun r => Fin.ext (by
    show (0 : Fin 2).val * 250000 + r.val = r.val
    have hz : (0 : Fin 2).val = 0 := rfl
    omega)
  have h1 : ∀ r : Fin 250000, half 1 r = Fin.natAdd 250000 r := fun r => Fin.ext (by
    show (1 : Fin 2).val * 250000 + r.val = 250000 + r.val
    have ho : (1 : Fin 2).val = 1 := rfl
    omega)
  simp only [h0, h1]
  exact h

/-- A sum over `N * B` consecutive edges is the sum over `N` blocks of the sums over each block's `B` edges. -/
theorem sum_blocks {M : Type*} [AddCommMonoid M] (N B : ℕ) (f : Fin (N * B) → M) :
    ∑ t : Fin (N * B), f t = ∑ i : Fin N, ∑ r : Fin B, f ⟨i.val * B + r.val, by
      have hi := i.isLt; have hr := r.isLt
      calc i.val * B + r.val < i.val * B + B := by omega
        _ = (i.val + 1) * B := by ring
        _ ≤ N * B := Nat.mul_le_mul_right B hi⟩ := by
  rw [← finProdFinEquiv.sum_comp f, Fintype.sum_prod_type]
  refine Finset.sum_congr rfl (fun i _ => Finset.sum_congr rfl (fun r _ => ?_))
  congr 1
  apply Fin.ext
  simp only [finProdFinEquiv, Equiv.coe_fn_mk]
  ring

/-- An indicator is zero or one, hence a real number. -/
theorem ind_real (w : BitVec 32) (s : Fin 1024) : ∃ r : ℝ, ind w s = (r : EReal) := by
  unfold ind
  split_ifs
  · exact ⟨1, EReal.coe_one.symm⟩
  · exact ⟨0, EReal.coe_zero.symm⟩

/-- An indicator is not negative. -/
theorem ind_nonneg (w : BitVec 32) (s : Fin 1024) : 0 ≤ ind w s := by
  unfold ind
  split_ifs
  · exact zero_le_one
  · exact le_refl 0

/-- Segment ids below 1024 with the same 32-bit word are the same id. -/
theorem ofNat_inj (s s' : Fin 1024) (h : BitVec.ofNat 32 s.val = BitVec.ofNat 32 s'.val) : s = s' := by
  have h2 := congrArg BitVec.toNat h
  simp only [BitVec.toNat_ofNat] at h2
  apply Fin.ext
  have h3 := s.isLt
  have h4 := s'.isLt
  omega

/-- The indicator of an edge's own segment is one. -/
theorem ind_self (w : BitVec 32) (s : Fin 1024) (hs : w = BitVec.ofNat 32 s.val) : ind w s = 1 := by
  unfold ind
  rw [if_pos hs]

/-- The indicator of any other segment is zero. -/
theorem ind_ne (w : BitVec 32) (s s' : Fin 1024) (hs : w = BitVec.ofNat 32 s.val) (hne : s' ≠ s) : ind w s' = 0 := by
  unfold ind
  rw [if_neg]
  intro h
  exact hne (ofNat_inj s' s (h.symm.trans hs))

/-- The two halves' segment sums add to the segment sum over all edges. -/
theorem segSum_halves (ei : Fin 500000 → BitVec 32) (a : Fin 500000 → Fin 128 → EReal) (s : Fin 1024) (d : Fin 128) :
    segSum (fun r => ei (half 0 r)) (fun r => a (half 0 r)) s d + segSum (fun r => ei (half 1 r)) (fun r => a (half 1 r)) s d
      = segSum ei a s d := by
  unfold segSum
  exact (sum_halves (fun t => ind (ei t) s * a t d)).symm

/-- The two halves' counts add to the count over all edges. -/
theorem segCnt_halves (ei : Fin 500000 → BitVec 32) (s : Fin 1024) :
    segCnt (fun r => ei (half 0 r)) s + segCnt (fun r => ei (half 1 r)) s = segCnt ei s := by
  unfold segCnt
  exact (sum_halves (fun t => ind (ei t) s)).symm

/-- A segment's count is a real number. -/
theorem segCnt_real {n : ℕ} (ei : Fin n → BitVec 32) (s : Fin 1024) : ∃ r : ℝ, segCnt ei s = (r : EReal) := by
  unfold segCnt
  exact sum_real Finset.univ _ (fun t _ => ind_real (ei t) s)

/-- A segment's sum of real activations is a real number. -/
theorem segSum_real {n : ℕ} (ei : Fin n → BitVec 32) (a : Fin n → Fin 128 → EReal)
    (ha : ∀ t d, ∃ r : ℝ, a t d = (r : EReal)) (s : Fin 1024) (d : Fin 128) : ∃ r : ℝ, segSum ei a s d = (r : EReal) := by
  unfold segSum
  refine sum_real Finset.univ _ (fun t _ => ?_)
  obtain ⟨r1, h1⟩ := ind_real (ei t) s
  obtain ⟨r2, h2⟩ := ha t d
  exact ⟨r1 * r2, by rw [h1, h2, EReal.coe_mul]⟩

/-- A segment that holds an edge has a count of at least one. -/
theorem one_le_segCnt {n : ℕ} (ei : Fin n → BitVec 32) (s : Fin 1024) (t : Fin n) (hs : ei t = BitVec.ofNat 32 s.val) :
    1 ≤ segCnt ei s := by
  unfold segCnt
  calc (1 : EReal) = ind (ei t) s := (ind_self _ _ hs).symm
    _ ≤ ∑ t : Fin n, ind (ei t) s :=
      Finset.single_le_sum (f := fun t => ind (ei t) s) (fun i _ => ind_nonneg _ _) (Finset.mem_univ t)

/-- For a segment that holds an edge, the two-pass mean is the plain mean, and it is a real number. -/
theorem splitMean_real_eq (ei : Fin 500000 → BitVec 32) (a : Fin 500000 → Fin 128 → EReal)
    (ha : ∀ t d, ∃ r : ℝ, a t d = (r : EReal)) (t : Fin 500000) (s : Fin 1024) (hs : ei t = BitVec.ofNat 32 s.val) (d : Fin 128) :
    ∃ r : ℝ, splitMean ei a s d = (r : EReal) ∧ plainOut ei a s d = (r : EReal) := by
  unfold splitMean plainOut
  rw [segSum_halves, segCnt_halves]
  have h1 := one_le_segCnt ei s t hs
  rw [max_eq_left h1]
  obtain ⟨c, hc⟩ := segCnt_real ei s
  obtain ⟨m, hm⟩ := segSum_real ei a ha s d
  rw [hc] at h1 ⊢
  rw [hm]
  have hc1 : (1 : ℝ) ≤ c := by
    rw [← EReal.coe_one] at h1
    exact EReal.coe_le_coe_iff.mp h1
  have hc0 : c ≠ 0 := by
    intro h0
    rw [h0] at hc1
    exact absurd hc1 (by norm_num)
  rw [Ideal.div_coe hc0]
  exact ⟨m * (1 / c), by rw [EReal.coe_mul], by rw [EReal.coe_mul]⟩

/-- THE LAW. With every activation a real number and edge `t` in segment `s`, the two-pass program's
    value at `t` is the plain program's. -/
theorem splitOut_eq_plainOut (ei : Fin 500000 → BitVec 32) (a : Fin 500000 → Fin 128 → EReal)
    (ha : ∀ t d, ∃ r : ℝ, a t d = (r : EReal)) (t : Fin 500000) (s : Fin 1024) (hs : ei t = BitVec.ofNat 32 s.val) (d : Fin 128) :
    splitOut ei a t d = plainOut ei a s d := by
  obtain ⟨m, hsm, hpl⟩ := splitMean_real_eq ei a ha t s hs d
  have e1 : (∑ s' : Fin 1024, ind (ei t) s' * splitMean ei a s' d) = (m : EReal) := by
    rw [Finset.sum_eq_single s]
    · rw [ind_self _ _ hs, one_mul, hsm]
    · intro b _ hb
      rw [ind_ne _ _ _ hs hb, zero_mul]
    · intro h
      exact absurd (Finset.mem_univ s) h
  have e2 : (∑ s' : Fin 1024, ind (ei t) s' * (splitMean ei a s' d - splitMean ei a s' d)) = 0 := by
    rw [Finset.sum_eq_single s]
    · rw [ind_self _ _ hs, one_mul, hsm, ← EReal.coe_sub, sub_self, EReal.coe_zero]
    · intro b _ hb
      rw [ind_ne _ _ _ hs hb, zero_mul]
    · intro h
      exact absurd (Finset.mem_univ s) h
  unfold splitOut
  rw [e1, e2, add_zero, hpl]

end Cert.SegMean

end
-- ==== Proof.KI.Value0Pay.lean ====
/-
  One grid point of the first kernel region read at an index, over the extended reals.  The indicator
  columns of a chunk of 1000 rows are one where the row's segment id is the lane and zero elsewhere; a
  chunk adds to the segment sums the indicator columns times the chunk's activation rows (a product
  contracted over the rows) and to the segment counts the indicator columns' sums; the activation rows are
  the four-layer perceptron of the four feature blocks laid side by side.
-/
import proofs.«411350_j36593121362170_3_alg».proof.Proof.KI.Data0
import proofs.«411350_j36593121362170_3_alg».proof.Proof.Math.Algebra
import Idealize.ShloMosaic.Lib.Pipeline.Value
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.SegMean

/-! ## The indicator columns of a chunk -/

/-- A chunk's segment ids spread over the lanes, at (row, lane): the row's id. -/
theorem ids_bcast_apply (e : Vec Ideal S1x1000x1 .i32) (r : Fin 1000) (s : Fin 1024) :
    broadcastTo S1000x1024 (shapeCast S1000x1 e shapeCasts_S1x1000x1_S1000x1 : IVec S1000x1 32) broadcasts_S1000x1_S1000x1024 (ix2 r s)
      = e (ix3 0 r 0) := by
  refine (broadcastTo_apply _ broadcasts_S1000x1_S1000x1024 (ix2 r s) (ix2 r (0 : Fin 1)) (fun a => ?_)).trans ?_
  · match a with
    | ⟨0, _⟩ => show r.val = if (1000 : ℕ) = 1 then 0 else r.val; rw [if_neg (by decide)]
    | ⟨1, _⟩ => show 0 = if (1 : ℕ) = 1 then 0 else s.val; rw [if_pos rfl]
  · exact shapeCast_1ab_ab_apply e shapeCasts_S1x1000x1_S1000x1 r 0

/-- The lane ids spread over the rows, at (row, lane): the lane. -/
theorem lanes_bcast_apply (r : Fin 1000) (s : Fin 1024) :
    broadcastTo S1000x1024 laneIds broadcasts_S1x1024_S1000x1024 (ix2 r s) = BitVec.ofNat 32 s.val := by
  refine (broadcastTo_1b_ab_apply laneIds broadcasts_S1x1024_S1000x1024 r s).trans ?_
  exact iota_single_apply .tc S1x1024 32 1 iota_S1x1024_d1_w32 (ix2 (0 : Fin 1) s)

/-- A one-bit condition widened and converted is one or zero. -/
theorem sitofp_bit (b : BitVec 1) : (FloatOps.sitofp (F := Ideal) .f32 (b.setWidth 32) : EReal) = if b = 1#1 then 1 else 0 := by
  show ((((b.setWidth 32).toInt : ℤ) : ℝ) : EReal) = _
  have hb : b = 0#1 ∨ b = 1#1 := by revert b; decide
  rcases hb with rfl | rfl
  · rw [if_neg (by decide)]; simp
  · rw [if_pos rfl]; simp

/-- The indicator columns of a chunk at (row, lane): one where the row's segment id is the lane. -/
theorem indic_apply (e : Vec Ideal S1x1000x1 .i32) (r : Fin 1000) (s : Fin 1024) :
    k0_pay2 (F := Ideal) laneIds e (ix2 r s) = ind (e (ix3 0 r 0)) s := by
  unfold k0_pay2
  show FloatOps.sitofp (F := Ideal) .f32 ((IntOp.cmpi .eq
      (broadcastTo S1000x1024 (shapeCast S1000x1 e shapeCasts_S1x1000x1_S1000x1 : IVec S1000x1 32) broadcasts_S1000x1_S1000x1024 (ix2 r s))
      (broadcastTo S1000x1024 laneIds broadcasts_S1x1024_S1000x1024 (ix2 r s))).setWidth 32) = _
  rw [ids_bcast_apply, lanes_bcast_apply, sitofp_bit]
  unfold ind
  by_cases h : e (ix3 0 r 0) = BitVec.ofNat 32 s.val
  · rw [if_pos h, if_pos (IntOp.cmpi_eq.mpr h)]
  · rw [if_neg h, if_neg (fun hc => h (IntOp.cmpi_eq.mp hc))]

/-! ## One chunk's update of the segment sums -/

/-- The product's record contracts the rows of both operands: the operand indices at result (lane, feature)
    and contraction position `q` are (q, lane) and (q, feature). -/
theorem lhs_seg_0 (i : S1024x128.Idx) (q : Cert.KernelIdeal.dot_S1000x1024_S1000x128_S1024x128_0_0_1_1_n_n.contr.Idx) :
    (Cert.KernelIdeal.dot_S1000x1024_S1000x128_S1024x128_0_0_1_1_n_n.lhsIdx i q 0).val = (q ⟨0, by decide⟩).val :=
  Cert.KernelIdeal.dot_S1000x1024_S1000x128_S1024x128_0_0_1_1_n_n.lhsIdx_val_of_single rfl i q
theorem lhs_seg_1 (i : S1024x128.Idx) (q : Cert.KernelIdeal.dot_S1000x1024_S1000x128_S1024x128_0_0_1_1_n_n.contr.Idx) :
    (Cert.KernelIdeal.dot_S1000x1024_S1000x128_S1024x128_0_0_1_1_n_n.lhsIdx i q 1).val = (i 0).val := by
  unfold DotDims.lhsIdx
  rw [dif_neg (show ¬(1 : Fin S1000x1024.rank) ∈ Cert.KernelIdeal.dot_S1000x1024_S1000x128_S1024x128_0_0_1_1_n_n.lhsBatch by decide), dif_pos (show (1 : Fin S1000x1024.rank) ∈ Cert.KernelIdeal.dot_S1000x1024_S1000x128_S1024x128_0_0_1_1_n_n.lhsNonContracting by decide)]
  rfl
theorem rhs_seg_0 (i : S1024x128.Idx) (q : Cert.KernelIdeal.dot_S1000x1024_S1000x128_S1024x128_0_0_1_1_n_n.contr.Idx) :
    (Cert.KernelIdeal.dot_S1000x1024_S1000x128_S1024x128_0_0_1_1_n_n.rhsIdx i q 0).val = (q ⟨0, by decide⟩).val :=
  Cert.KernelIdeal.dot_S1000x1024_S1000x128_S1024x128_0_0_1_1_n_n.rhsIdx_val_of_single rfl i q
theorem rhs_seg_1 (i : S1024x128.Idx) (q : Cert.KernelIdeal.dot_S1000x1024_S1000x128_S1024x128_0_0_1_1_n_n.contr.Idx) :
    (Cert.KernelIdeal.dot_S1000x1024_S1000x128_S1024x128_0_0_1_1_n_n.rhsIdx i q 1).val = (i 1).val := by
  unfold DotDims.rhsIdx
  rw [dif_neg (show ¬(1 : Fin S1000x128.rank) ∈ Cert.KernelIdeal.dot_S1000x1024_S1000x128_S1024x128_0_0_1_1_n_n.rhsBatch by decide), dif_pos (show (1 : Fin S1000x128.rank) ∈ Cert.KernelIdeal.dot_S1000x1024_S1000x128_S1024x128_0_0_1_1_n_n.rhsNonContracting by decide)]
  rfl

/-- The indicator columns times a block of 1000 rows, at (lane, feature): the sum over the rows. -/
theorem segdot_apply (L : FVec Ideal S1000x1024 .bf16) (R : FVec Ideal S1000x128 .bf16) (s : Fin 1024) (d : Fin 128) :
    matmul Cert.KernelIdeal.dot_S1000x1024_S1000x128_S1024x128_0_0_1_1_n_n none L R (constant S1024x128 .f32 0x00000000#32) (ix2 s d)
      = ∑ r : Fin 1000, L (ix2 r s) * R (ix2 r d) := by
  show FloatOps.matmul Cert.KernelIdeal.dot_S1000x1024_S1000x128_S1024x128_0_0_1_1_n_n none L R (constant S1024x128 .f32 0x00000000#32) (ix2 s d) = _
  rw [Ideal.matmul_constant_zero_apply, ← Equiv.sum_comp (ValueIdx.contrEquiv1 Cert.KernelIdeal.dot_S1000x1024_S1000x128_S1024x128_0_0_1_1_n_n 1000 rfl rfl).symm]
  refine Finset.sum_congr rfl fun k _ => ?_
  have hk := ValueIdx.contrEquiv1_symm_val Cert.KernelIdeal.dot_S1000x1024_S1000x128_S1024x128_0_0_1_1_n_n 1000 rfl rfl k
  have el : Cert.KernelIdeal.dot_S1000x1024_S1000x128_S1024x128_0_0_1_1_n_n.lhsIdx (ix2 s d) ((ValueIdx.contrEquiv1 Cert.KernelIdeal.dot_S1000x1024_S1000x128_S1024x128_0_0_1_1_n_n 1000 rfl rfl).symm k) = ix2 k s := funext fun a => Fin.ext (by
    match a with
    | ⟨0, _⟩ => exact (lhs_seg_0 _ _).trans hk
    | ⟨1, _⟩ => exact lhs_seg_1 _ _)
  have er : Cert.KernelIdeal.dot_S1000x1024_S1000x128_S1024x128_0_0_1_1_n_n.rhsIdx (ix2 s d) ((ValueIdx.contrEquiv1 Cert.KernelIdeal.dot_S1000x1024_S1000x128_S1024x128_0_0_1_1_n_n 1000 rfl rfl).symm k) = ix2 k d := funext fun a => Fin.ext (by
    match a with
    | ⟨0, _⟩ => exact (rhs_seg_0 _ _).trans hk
    | ⟨1, _⟩ => exact rhs_seg_1 _ _)
  rw [el, er]

/-- One chunk's update of the segment sums, for the chunk whose rows start at `o` in the point's block. -/
def chunkS (o : ℕ) (hsl : S5000x128.Slices ![o, 0] S1000x128) (a : FVec Ideal S5000x128 .bf16) (e : Vec Ideal S1x1000x1 .i32)
    (acc : Vec Ideal S1024x128 .f32) : FVec Ideal S1024x128 .f32 :=
  shapeCast S1024x128 (addf acc (matmul Cert.KernelIdeal.dot_S1000x1024_S1000x128_S1024x128_0_0_1_1_n_n none
    (truncf .bf16 (k0_pay2 (F := Ideal) laneIds e) bitsLt_bf16_f32) (extractStridedSlice S1000x128 ![o, 0] a hsl)
    (constant S1024x128 .f32 0x00000000#32))) shapeCasts_S1024x128_S1024x128

/-- It adds, at (lane, feature), the sum over the chunk's rows of the indicator times the activation. -/
theorem chunkS_apply (o : ℕ) (hsl : S5000x128.Slices ![o, 0] S1000x128) (a : FVec Ideal S5000x128 .bf16) (e : Vec Ideal S1x1000x1 .i32)
    (acc : Vec Ideal S1024x128 .f32) (s : Fin 1024) (d : Fin 128) :
    chunkS o hsl a e acc (ix2 s d) = acc (ix2 s d)
      + ∑ r : Fin 1000, ind (e (ix3 0 r 0)) s * a (ix2 ⟨o + r.val, Nat.lt_of_lt_of_le (Nat.add_lt_add_left r.isLt o) (hsl.2 0)⟩ d) := by
  unfold chunkS
  rw [shapeCast_self]
  show acc (ix2 s d) + matmul Cert.KernelIdeal.dot_S1000x1024_S1000x128_S1024x128_0_0_1_1_n_n none
    (truncf .bf16 (k0_pay2 (F := Ideal) laneIds e) bitsLt_bf16_f32) (extractStridedSlice S1000x128 ![o, 0] a hsl)
    (constant S1024x128 .f32 0x00000000#32) (ix2 s d) = _
  rw [segdot_apply]
  refine congrArg (acc (ix2 s d) + ·) (Finset.sum_congr rfl fun r _ => ?_)
  rw [slice2_axis0_eq o a hsl r d]
  exact congrArg (· * _) (indic_apply e r s)

theorem pay3_eq (a : FVec Ideal S5000x128 .bf16) (e : Vec Ideal S1x1000x1 .i32) (acc : Vec Ideal S1024x128 .f32) :
    k0_pay3 a laneIds e acc = chunkS 4000 slices_S5000x128_o4000_0_S1000x128 a e acc := rfl
theorem pay24_eq (a : FVec Ideal S5000x128 .bf16) (e : Vec Ideal S1x1000x1 .i32) (acc : Vec Ideal S1024x128 .f32) :
    k0_pay24 a laneIds e acc = chunkS 3000 slices_S5000x128_o3000_0_S1000x128 a e acc := rfl
theorem pay21_eq (a : FVec Ideal S5000x128 .bf16) (e : Vec Ideal S1x1000x1 .i32) (acc : Vec Ideal S1024x128 .f32) :
    k0_pay21 (k0_pay19 laneIds e) (k0_pay20 a) acc = chunkS 2000 slices_S5000x128_o2000_0_S1000x128 a e acc := rfl
theorem pay16_eq (a : FVec Ideal S5000x128 .bf16) (e : Vec Ideal S1x1000x1 .i32) (acc : Vec Ideal S1024x128 .f32) :
    k0_pay16 a laneIds e acc = chunkS 1000 slices_S5000x128_o1000_0_S1000x128 a e acc := rfl
theorem pay12_eq (h : FVec Ideal S5000x256 .f32) (z : Ideal .f32) (w3 : Vec Ideal S256x256 .bf16) (b3 : Vec Ideal S256 .f32)
    (w4 : Vec Ideal S256x128 .bf16) (b4 : Vec Ideal S128 .f32) (e : Vec Ideal S1x1000x1 .i32) (acc : Vec Ideal S1024x128 .f32) :
    k0_pay12 h z w3 b3 w4 b4 e acc = chunkS 0 slices_S5000x128_o0_0_S1000x128 (k0_pay10 h z w3 b3 w4 b4) e acc := rfl

/-! ## One chunk's update of the segment counts -/

/-- One chunk's update of the segment counts: the indicator columns' sums added. -/
def chunkC (e : Vec Ideal S1x1000x1 .i32) (acc : Vec Ideal S1x1024 .f32) : FVec Ideal S1x1024 .f32 :=
  shapeCast S1x1024 (addf acc (shapeCast S1x1024
    (multiReduction (F := Ideal) .add [0] S1024 (k0_pay2 (F := Ideal) laneIds e) 0x00000000#32 reduces_S1000x1024_S1024 (.inl rfl) rfl)
    shapeCasts_S1024_S1x1024)) shapeCasts_S1x1024_S1x1024

/-- It adds, at a lane, the number of the chunk's rows whose segment id is the lane. -/
theorem chunkC_apply (e : Vec Ideal S1x1000x1 .i32) (acc : Vec Ideal S1x1024 .f32) (u : Fin 1) (s : Fin 1024) :
    chunkC e acc (ix2 u s) = acc (ix2 u s) + ∑ r : Fin 1000, ind (e (ix3 0 r 0)) s := by
  unfold chunkC
  rw [shapeCast_self]
  show acc (ix2 u s) + shapeCast S1x1024
    (multiReduction (F := Ideal) .add [0] S1024 (k0_pay2 (F := Ideal) laneIds e) 0x00000000#32 reduces_S1000x1024_S1024 (.inl rfl) rfl)
    shapeCasts_S1024_S1x1024 (ix2 u s) = _
  rw [shapeCast_a_1a_apply]
  refine congrArg (acc (ix2 u s) + ·) ?_
  refine (Ideal.multiReduction_add_single (k0_pay2 (F := Ideal) laneIds e) _ reduces_S1000x1024_S1024 _ _ (ix1 s)).trans ?_
  refine Finset.sum_congr rfl fun r _ => ?_
  have hl : reduces_S1000x1024_S1024.lift (ix1 s) r = ix2 r s := funext fun a => Fin.ext (by
    match a with
    | ⟨0, _⟩ => rfl
    | ⟨1, _⟩ => rfl)
  rw [hl]
  exact indic_apply e r s

theorem pay4_eq (e : Vec Ideal S1x1000x1 .i32) (acc : Vec Ideal S1x1024 .f32) :
    k0_pay4 laneIds e acc = chunkC e acc := rfl
theorem pay25_eq (e : Vec Ideal S1x1000x1 .i32) (acc : Vec Ideal S1x1024 .f32) :
    k0_pay1 (k0_pay25 laneIds e acc) = chunkC e acc := rfl
theorem pay22_eq (e : Vec Ideal S1x1000x1 .i32) (acc : Vec Ideal S1x1024 .f32) :
    k0_pay22 (k0_pay18 laneIds e) acc = chunkC e acc := rfl
theorem pay17_eq (e : Vec Ideal S1x1000x1 .i32) (acc : Vec Ideal S1x1024 .f32) :
    k0_pay17 laneIds e acc = chunkC e acc := rfl
theorem pay14_eq (e : Vec Ideal S1x1000x1 .i32) (acc : Vec Ideal S1x1024 .f32) :
    k0_pay14 acc (k0_pay13 e) = chunkC e acc := rfl

/-! ## A chunk's segment ids, loaded from the point's block of ids -/

/-- The chunk of ids starting at row `o`, at row `r`: the block's id at row `o + r`. -/
theorem ld_ids (eiB : Vec Ideal S1x5000x1 .i32) (o : ℕ) (inb : ∀ a, (![0, o, 0] : Fin 3 → ℕ) a + S1x1000x1.size a ≤ S1x5000x1.size a)
    (r : Fin 1000) (ho : o + r.val < 5000) :
    View.ld eiB (Rect.unit (s := S1x5000x1) ![0, o, 0] S1x1000x1.size inb) (ix3 0 r 0) = eiB (ix3 0 ⟨o + r.val, ho⟩ 0) := by
  show eiB _ = eiB _
  refine congrArg eiB (funext fun a => Fin.ext ?_)
  match a with
  | ⟨0, _⟩ => rfl
  | ⟨1, _⟩ => show o + 1 * r.val = o + r.val; omega
  | ⟨2, _⟩ => rfl

/-! ## The perceptron on the point's rows -/

theorem lhs_l1_0 (i : S5000x256.Idx) (q : Cert.KernelIdeal.dot_S5000x512_S512x256_S5000x256_1_0_0_1_n_n.contr.Idx) :
    (Cert.KernelIdeal.dot_S5000x512_S512x256_S5000x256_1_0_0_1_n_n.lhsIdx i q 0).val = (i 0).val := by
  unfold DotDims.lhsIdx
  rw [dif_neg (show ¬(0 : Fin S5000x512.rank) ∈ Cert.KernelIdeal.dot_S5000x512_S512x256_S5000x256_1_0_0_1_n_n.lhsBatch by decide), dif_pos (show (0 : Fin S5000x512.rank) ∈ Cert.KernelIdeal.dot_S5000x512_S512x256_S5000x256_1_0_0_1_n_n.lhsNonContracting by decide)]
  rfl
theorem lhs_l1_1 (i : S5000x256.Idx) (q : Cert.KernelIdeal.dot_S5000x512_S512x256_S5000x256_1_0_0_1_n_n.contr.Idx) :
    (Cert.KernelIdeal.dot_S5000x512_S512x256_S5000x256_1_0_0_1_n_n.lhsIdx i q 1).val = (q ⟨0, by decide⟩).val :=
  Cert.KernelIdeal.dot_S5000x512_S512x256_S5000x256_1_0_0_1_n_n.lhsIdx_val_of_single rfl i q
theorem rhs_l1_0 (i : S5000x256.Idx) (q : Cert.KernelIdeal.dot_S5000x512_S512x256_S5000x256_1_0_0_1_n_n.contr.Idx) :
    (Cert.KernelIdeal.dot_S5000x512_S512x256_S5000x256_1_0_0_1_n_n.rhsIdx i q 0).val = (q ⟨0, by decide⟩).val :=
  Cert.KernelIdeal.dot_S5000x512_S512x256_S5000x256_1_0_0_1_n_n.rhsIdx_val_of_single rfl i q
theorem rhs_l1_1 (i : S5000x256.Idx) (q : Cert.KernelIdeal.dot_S5000x512_S512x256_S5000x256_1_0_0_1_n_n.contr.Idx) :
    (Cert.KernelIdeal.dot_S5000x512_S512x256_S5000x256_1_0_0_1_n_n.rhsIdx i q 1).val = (i 1).val := by
  unfold DotDims.rhsIdx
  rw [dif_neg (show ¬(1 : Fin S512x256.rank) ∈ Cert.KernelIdeal.dot_S5000x512_S512x256_S5000x256_1_0_0_1_n_n.rhsBatch by decide), dif_pos (show (1 : Fin S512x256.rank) ∈ Cert.KernelIdeal.dot_S5000x512_S512x256_S5000x256_1_0_0_1_n_n.rhsNonContracting by decide)]
  rfl

/-- Rows times a [512, 256] parameter array, at (row, output): the sum over the input width. -/
theorem dot_l1_apply (L : FVec Ideal S5000x512 .bf16) (W : FVec Ideal S512x256 .bf16) (r : Fin 5000) (o : Fin 256) :
    matmul Cert.KernelIdeal.dot_S5000x512_S512x256_S5000x256_1_0_0_1_n_n none L W (constant S5000x256 .f32 0x00000000#32) (ix2 r o)
      = ∑ q : Fin 512, L (ix2 r q) * W (ix2 q o) := by
  show FloatOps.matmul Cert.KernelIdeal.dot_S5000x512_S512x256_S5000x256_1_0_0_1_n_n none L W (constant S5000x256 .f32 0x00000000#32) (ix2 r o) = _
  rw [Ideal.matmul_constant_zero_apply, ← Equiv.sum_comp (ValueIdx.contrEquiv1 Cert.KernelIdeal.dot_S5000x512_S512x256_S5000x256_1_0_0_1_n_n 512 rfl rfl).symm]
  refine Finset.sum_congr rfl fun k _ => ?_
  have hk := ValueIdx.contrEquiv1_symm_val Cert.KernelIdeal.dot_S5000x512_S512x256_S5000x256_1_0_0_1_n_n 512 rfl rfl k
  have el : Cert.KernelIdeal.dot_S5000x512_S512x256_S5000x256_1_0_0_1_n_n.lhsIdx (ix2 r o) ((ValueIdx.contrEquiv1 Cert.KernelIdeal.dot_S5000x512_S512x256_S5000x256_1_0_0_1_n_n 512 rfl rfl).symm k) = ix2 r k := funext fun a => Fin.ext (by
    match a with
    | ⟨0, _⟩ => exact lhs_l1_0 _ _
    | ⟨1, _⟩ => exact (lhs_l1_1 _ _).trans hk)
  have er : Cert.KernelIdeal.dot_S5000x512_S512x256_S5000x256_1_0_0_1_n_n.rhsIdx (ix2 r o) ((ValueIdx.contrEquiv1 Cert.KernelIdeal.dot_S5000x512_S512x256_S5000x256_1_0_0_1_n_n 512 rfl rfl).symm k) = ix2 k o := funext fun a => Fin.ext (by
    match a with
    | ⟨0, _⟩ => exact (rhs_l1_0 _ _).trans hk
    | ⟨1, _⟩ => exact rhs_l1_1 _ _)
  rw [el, er]

/-- A dense layer on the point's rows: the product with the parameter array plus the bias row spread over the rows. -/
def dense_l1 (X : FVec Ideal S5000x512 .bf16) (W : Vec Ideal S512x256 .bf16) (b : Vec Ideal S256 .f32) : FVec Ideal S5000x256 .f32 :=
  addf (matmul Cert.KernelIdeal.dot_S5000x512_S512x256_S5000x256_1_0_0_1_n_n none X (shapeCast S512x256 W shapeCasts_S512x256_S512x256 : FVec Ideal S512x256 .bf16) (constant S5000x256 .f32 0x00000000#32))
    (broadcastTo S5000x256 (shapeCast S1x256 b shapeCasts_S256_S1x256 : FVec Ideal S1x256 .f32) broadcasts_S1x256_S5000x256)

/-- Row by row it is the dense layer of the row. -/
theorem dense_l1_apply (X : FVec Ideal S5000x512 .bf16) (W : Vec Ideal S512x256 .bf16) (b : Vec Ideal S256 .f32) (r : Fin 5000) (o : Fin 256) :
    dense_l1 X W b (ix2 r o) = linRow (fun q => X (ix2 r q)) (fun q o => W (ix2 q o)) (fun o => b (ix1 o)) o := by
  unfold dense_l1 linRow
  rw [shapeCast_self]
  show matmul Cert.KernelIdeal.dot_S5000x512_S512x256_S5000x256_1_0_0_1_n_n none X W (constant S5000x256 .f32 0x00000000#32) (ix2 r o)
    + broadcastTo S5000x256 (shapeCast S1x256 b shapeCasts_S256_S1x256) broadcasts_S1x256_S5000x256 (ix2 r o) = _
  rw [dot_l1_apply, broadcastTo_1b_ab_apply, shapeCast_a_1a_apply]

theorem lhs_l2_0 (i : S5000x256.Idx) (q : Cert.KernelIdeal.dot_S5000x256_S256x256_S5000x256_1_0_0_1_n_n.contr.Idx) :
    (Cert.KernelIdeal.dot_S5000x256_S256x256_S5000x256_1_0_0_1_n_n.lhsIdx i q 0).val = (i 0).val := by
  unfold DotDims.lhsIdx
  rw [dif_neg (show ¬(0 : Fin S5000x256.rank) ∈ Cert.KernelIdeal.dot_S5000x256_S256x256_S5000x256_1_0_0_1_n_n.lhsBatch by decide), dif_pos (show (0 : Fin S5000x256.rank) ∈ Cert.KernelIdeal.dot_S5000x256_S256x256_S5000x256_1_0_0_1_n_n.lhsNonContracting by decide)]
  rfl
theorem lhs_l2_1 (i : S5000x256.Idx) (q : Cert.KernelIdeal.dot_S5000x256_S256x256_S5000x256_1_0_0_1_n_n.contr.Idx) :
    (Cert.KernelIdeal.dot_S5000x256_S256x256_S5000x256_1_0_0_1_n_n.lhsIdx i q 1).val = (q ⟨0, by decide⟩).val :=
  Cert.KernelIdeal.dot_S5000x256_S256x256_S5000x256_1_0_0_1_n_n.lhsIdx_val_of_single rfl i q
theorem rhs_l2_0 (i : S5000x256.Idx) (q : Cert.KernelIdeal.dot_S5000x256_S256x256_S5000x256_1_0_0_1_n_n.contr.Idx) :
    (Cert.KernelIdeal.dot_S5000x256_S256x256_S5000x256_1_0_0_1_n_n.rhsIdx i q 0).val = (q ⟨0, by decide⟩).val :=
  Cert.KernelIdeal.dot_S5000x256_S256x256_S5000x256_1_0_0_1_n_n.rhsIdx_val_of_single rfl i q
theorem rhs_l2_1 (i : S5000x256.Idx) (q : Cert.KernelIdeal.dot_S5000x256_S256x256_S5000x256_1_0_0_1_n_n.contr.Idx) :
    (Cert.KernelIdeal.dot_S5000x256_S256x256_S5000x256_1_0_0_1_n_n.rhsIdx i q 1).val = (i 1).val := by
  unfold DotDims.rhsIdx
  rw [dif_neg (show ¬(1 : Fin S256x256.rank) ∈ Cert.KernelIdeal.dot_S5000x256_S256x256_S5000x256_1_0_0_1_n_n.rhsBatch by decide), dif_pos (show (1 : Fin S256x256.rank) ∈ Cert.KernelIdeal.dot_S5000x256_S256x256_S5000x256_1_0_0_1_n_n.rhsNonContracting by decide)]
  rfl

/-- Rows times a [256, 256] parameter array, at (row, output): the sum over the input width. -/
theorem dot_l2_apply (L : FVec Ideal S5000x256 .bf16) (W : FVec Ideal S256x256 .bf16) (r : Fin 5000) (o : Fin 256) :
    matmul Cert.KernelIdeal.dot_S5000x256_S256x256_S5000x256_1_0_0_1_n_n none L W (constant S5000x256 .f32 0x00000000#32) (ix2 r o)
      = ∑ q : Fin 256, L (ix2 r q) * W (ix2 q o) := by
  show FloatOps.matmul Cert.KernelIdeal.dot_S5000x256_S256x256_S5000x256_1_0_0_1_n_n none L W (constant S5000x256 .f32 0x00000000#32) (ix2 r o) = _
  rw [Ideal.matmul_constant_zero_apply, ← Equiv.sum_comp (ValueIdx.contrEquiv1 Cert.KernelIdeal.dot_S5000x256_S256x256_S5000x256_1_0_0_1_n_n 256 rfl rfl).symm]
  refine Finset.sum_congr rfl fun k _ => ?_
  have hk := ValueIdx.contrEquiv1_symm_val Cert.KernelIdeal.dot_S5000x256_S256x256_S5000x256_1_0_0_1_n_n 256 rfl rfl k
  have el : Cert.KernelIdeal.dot_S5000x256_S256x256_S5000x256_1_0_0_1_n_n.lhsIdx (ix2 r o) ((ValueIdx.contrEquiv1 Cert.KernelIdeal.dot_S5000x256_S256x256_S5000x256_1_0_0_1_n_n 256 rfl rfl).symm k) = ix2 r k := funext fun a => Fin.ext (by
    match a with
    | ⟨0, _⟩ => exact lhs_l2_0 _ _
    | ⟨1, _⟩ => exact (lhs_l2_1 _ _).trans hk)
  have er : Cert.KernelIdeal.dot_S5000x256_S256x256_S5000x256_1_0_0_1_n_n.rhsIdx (ix2 r o) ((ValueIdx.contrEquiv1 Cert.KernelIdeal.dot_S5000x256_S256x256_S5000x256_1_0_0_1_n_n 256 rfl rfl).symm k) = ix2 k o := funext fun a => Fin.ext (by
    match a with
    | ⟨0, _⟩ => exact (rhs_l2_0 _ _).trans hk
    | ⟨1, _⟩ => exact rhs_l2_1 _ _)
  rw [el, er]

/-- A dense layer on the point's rows: the product with the parameter array plus the bias row spread over the rows. -/
def dense_l2 (X : FVec Ideal S5000x256 .bf16) (W : Vec Ideal S256x256 .bf16) (b : Vec Ideal S256 .f32) : FVec Ideal S5000x256 .f32 :=
  addf (matmul Cert.KernelIdeal.dot_S5000x256_S256x256_S5000x256_1_0_0_1_n_n none X (shapeCast S256x256 W shapeCasts_S256x256_S256x256 : FVec Ideal S256x256 .bf16) (constant S5000x256 .f32 0x00000000#32))
    (broadcastTo S5000x256 (shapeCast S1x256 b shapeCasts_S256_S1x256 : FVec Ideal S1x256 .f32) broadcasts_S1x256_S5000x256)

/-- Row by row it is the dense layer of the row. -/
theorem dense_l2_apply (X : FVec Ideal S5000x256 .bf16) (W : Vec Ideal S256x256 .bf16) (b : Vec Ideal S256 .f32) (r : Fin 5000) (o : Fin 256) :
    dense_l2 X W b (ix2 r o) = linRow (fun q => X (ix2 r q)) (fun q o => W (ix2 q o)) (fun o => b (ix1 o)) o := by
  unfold dense_l2 linRow
  rw [shapeCast_self]
  show matmul Cert.KernelIdeal.dot_S5000x256_S256x256_S5000x256_1_0_0_1_n_n none X W (constant S5000x256 .f32 0x00000000#32) (ix2 r o)
    + broadcastTo S5000x256 (shapeCast S1x256 b shapeCasts_S256_S1x256) broadcasts_S1x256_S5000x256 (ix2 r o) = _
  rw [dot_l2_apply, broadcastTo_1b_ab_apply, shapeCast_a_1a_apply]

theorem lhs_l4_0 (i : S5000x128.Idx) (q : Cert.KernelIdeal.dot_S5000x256_S256x128_S5000x128_1_0_0_1_n_n.contr.Idx) :
    (Cert.KernelIdeal.dot_S5000x256_S256x128_S5000x128_1_0_0_1_n_n.lhsIdx i q 0).val = (i 0).val := by
  unfold DotDims.lhsIdx
  rw [dif_neg (show ¬(0 : Fin S5000x256.rank) ∈ Cert.KernelIdeal.dot_S5000x256_S256x128_S5000x128_1_0_0_1_n_n.lhsBatch by decide), dif_pos (show (0 : Fin S5000x256.rank) ∈ Cert.KernelIdeal.dot_S5000x256_S256x128_S5000x128_1_0_0_1_n_n.lhsNonContracting by decide)]
  rfl
theorem lhs_l4_1 (i : S5000x128.Idx) (q : Cert.KernelIdeal.dot_S5000x256_S256x128_S5000x128_1_0_0_1_n_n.contr.Idx) :
    (Cert.KernelIdeal.dot_S5000x256_S256x128_S5000x128_1_0_0_1_n_n.lhsIdx i q 1).val = (q ⟨0, by decide⟩).val :=
  Cert.KernelIdeal.dot_S5000x256_S256x128_S5000x128_1_0_0_1_n_n.lhsIdx_val_of_single rfl i q
theorem rhs_l4_0 (i : S5000x128.Idx) (q : Cert.KernelIdeal.dot_S5000x256_S256x128_S5000x128_1_0_0_1_n_n.contr.Idx) :
    (Cert.KernelIdeal.dot_S5000x256_S256x128_S5000x128_1_0_0_1_n_n.rhsIdx i q 0).val = (q ⟨0, by decide⟩).val :=
  Cert.KernelIdeal.dot_S5000x256_S256x128_S5000x128_1_0_0_1_n_n.rhsIdx_val_of_single rfl i q
theorem rhs_l4_1 (i : S5000x128.Idx) (q : Cert.KernelIdeal.dot_S5000x256_S256x128_S5000x128_1_0_0_1_n_n.contr.Idx) :
    (Cert.KernelIdeal.dot_S5000x256_S256x128_S5000x128_1_0_0_1_n_n.rhsIdx i q 1).val = (i 1).val := by
  unfold DotDims.rhsIdx
  rw [dif_neg (show ¬(1 : Fin S256x128.rank) ∈ Cert.KernelIdeal.dot_S5000x256_S256x128_S5000x128_1_0_0_1_n_n.rhsBatch by decide), dif_pos (show (1 : Fin S256x128.rank) ∈ Cert.KernelIdeal.dot_S5000x256_S256x128_S5000x128_1_0_0_1_n_n.rhsNonContracting by decide)]
  rfl

/-- Rows times a [256, 128] parameter array, at (row, output): the sum over the input width. -/
theorem dot_l4_apply (L : FVec Ideal S5000x256 .bf16) (W : FVec Ideal S256x128 .bf16) (r : Fin 5000) (o : Fin 128) :
    matmul Cert.KernelIdeal.dot_S5000x256_S256x128_S5000x128_1_0_0_1_n_n none L W (constant S5000x128 .f32 0x00000000#32) (ix2 r o)
      = ∑ q : Fin 256, L (ix2 r q) * W (ix2 q o) := by
  show FloatOps.matmul Cert.KernelIdeal.dot_S5000x256_S256x128_S5000x128_1_0_0_1_n_n none L W (constant S5000x128 .f32 0x00000000#32) (ix2 r o) = _
  rw [Ideal.matmul_constant_zero_apply, ← Equiv.sum_comp (ValueIdx.contrEquiv1 Cert.KernelIdeal.dot_S5000x256_S256x128_S5000x128_1_0_0_1_n_n 256 rfl rfl).symm]
  refine Finset.sum_congr rfl fun k _ => ?_
  have hk := ValueIdx.contrEquiv1_symm_val Cert.KernelIdeal.dot_S5000x256_S256x128_S5000x128_1_0_0_1_n_n 256 rfl rfl k
  have el : Cert.KernelIdeal.dot_S5000x256_S256x128_S5000x128_1_0_0_1_n_n.lhsIdx (ix2 r o) ((ValueIdx.contrEquiv1 Cert.KernelIdeal.dot_S5000x256_S256x128_S5000x128_1_0_0_1_n_n 256 rfl rfl).symm k) = ix2 r k := funext fun a => Fin.ext (by
    match a with
    | ⟨0, _⟩ => exact lhs_l4_0 _ _
    | ⟨1, _⟩ => exact (lhs_l4_1 _ _).trans hk)
  have er : Cert.KernelIdeal.dot_S5000x256_S256x128_S5000x128_1_0_0_1_n_n.rhsIdx (ix2 r o) ((ValueIdx.contrEquiv1 Cert.KernelIdeal.dot_S5000x256_S256x128_S5000x128_1_0_0_1_n_n 256 rfl rfl).symm k) = ix2 k o := funext fun a => Fin.ext (by
    match a with
    | ⟨0, _⟩ => exact (rhs_l4_0 _ _).trans hk
    | ⟨1, _⟩ => exact rhs_l4_1 _ _)
  rw [el, er]

/-- A dense layer on the point's rows: the product with the parameter array plus the bias row spread over the rows. -/
def dense_l4 (X : FVec Ideal S5000x256 .bf16) (W : Vec Ideal S256x128 .bf16) (b : Vec Ideal S128 .f32) : FVec Ideal S5000x128 .f32 :=
  addf (matmul Cert.KernelIdeal.dot_S5000x256_S256x128_S5000x128_1_0_0_1_n_n none X (shapeCast S256x128 W shapeCasts_S256x128_S256x128 : FVec Ideal S256x128 .bf16) (constant S5000x128 .f32 0x00000000#32))
    (broadcastTo S5000x128 (shapeCast S1x128 b shapeCasts_S128_S1x128 : FVec Ideal S1x128 .f32) broadcasts_S1x128_S5000x128)

/-- Row by row it is the dense layer of the row. -/
theorem dense_l4_apply (X : FVec Ideal S5000x256 .bf16) (W : Vec Ideal S256x128 .bf16) (b : Vec Ideal S128 .f32) (r : Fin 5000) (o : Fin 128) :
    dense_l4 X W b (ix2 r o) = linRow (fun q => X (ix2 r q)) (fun q o => W (ix2 q o)) (fun o => b (ix1 o)) o := by
  unfold dense_l4 linRow
  rw [shapeCast_self]
  show matmul Cert.KernelIdeal.dot_S5000x256_S256x128_S5000x128_1_0_0_1_n_n none X W (constant S5000x128 .f32 0x00000000#32) (ix2 r o)
    + broadcastTo S5000x128 (shapeCast S1x128 b shapeCasts_S128_S1x128) broadcasts_S1x128_S5000x128 (ix2 r o) = _
  rw [dot_l4_apply, broadcastTo_1b_ab_apply, shapeCast_a_1a_apply]
/-- The rectifier on the point's rows, narrowed for the next product (narrowing changes no value here). -/
def relu256 (X : FVec Ideal S5000x256 .f32) (z : Ideal .f32) : FVec Ideal S5000x256 .bf16 :=
  truncf .bf16 (maximumf X (broadcast S5000x256 z)) bitsLt_bf16_f32

theorem relu256_apply (X : FVec Ideal S5000x256 .f32) (i : S5000x256.Idx) :
    relu256 X (Scalar.ofBits .f32 0x00000000#32) i = max (X i) 0 := by
  show max (X i) (Ideal.ofBits .f32 0x00000000#32) = _
  rw [Ideal.ofBits_zero_f32]

/-- The four feature blocks as rows, laid side by side, at (row, position): the feature row's entry. -/
theorem feat_apply (p0 p1 p2 p3 : FVec Ideal S5000x128 .bf16) (r : Fin 5000) (q : Fin 512) :
    concatenate S5000x512 1 [⟨S5000x128, p0⟩, ⟨S5000x128, p1⟩, ⟨S5000x128, p2⟩, ⟨S5000x128, p3⟩]
        concatenates_S5000x128_S5000x128_S5000x128_S5000x128_S5000x512_d1 (ix2 r q)
      = featRow (fun k => p0 (ix2 r k)) (fun k => p1 (ix2 r k)) (fun k => p2 (ix2 r k)) (fun k => p3 (ix2 r k)) q := by
  have hq := q.isLt
  unfold featRow
  by_cases h0 : q.val < 128
  · rw [dif_pos h0]
    exact concatenate_apply_piece 1 _ _ (ix2 r q) 0 (by show (0 : ℕ) < 4; omega) S5000x128 p0 rfl rfl 0 rfl (ix2 r ⟨q.val, h0⟩)
      (fun b hb => match b with | ⟨0, _⟩ => rfl | ⟨1, _⟩ => absurd rfl hb) (by show 0 + q.val = q.val; omega)
  · rw [dif_neg h0]
    by_cases h1 : q.val < 256
    · rw [dif_pos h1]
      exact concatenate_apply_piece 1 _ _ (ix2 r q) 1 (by show (1 : ℕ) < 4; omega) S5000x128 p1 rfl rfl 128 rfl (ix2 r ⟨q.val - 128, by omega⟩)
        (fun b hb => match b with | ⟨0, _⟩ => rfl | ⟨1, _⟩ => absurd rfl hb) (by show 128 + (q.val - 128) = q.val; omega)
    · rw [dif_neg h1]
      by_cases h2 : q.val < 384
      · rw [dif_pos h2]
        exact concatenate_apply_piece 1 _ _ (ix2 r q) 2 (by show (2 : ℕ) < 4; omega) S5000x128 p2 rfl rfl 256 rfl (ix2 r ⟨q.val - 256, by omega⟩)
          (fun b hb => match b with | ⟨0, _⟩ => rfl | ⟨1, _⟩ => absurd rfl hb) (by show 256 + (q.val - 256) = q.val; omega)
      · rw [dif_neg h2]
        exact concatenate_apply_piece 1 _ _ (ix2 r q) 3 (by show (3 : ℕ) < 4; omega) S5000x128 p3 rfl rfl 384 rfl (ix2 r ⟨q.val - 384, by omega⟩)
          (fun b hb => match b with | ⟨0, _⟩ => rfl | ⟨1, _⟩ => absurd rfl hb) (by show 384 + (q.val - 384) = q.val; omega)

theorem hz3 : (![0, 0, 0] : Fin 3 → ℕ) = fun _ => 0 := funext fun a => by fin_cases a <;> rfl
theorem hz2 : (![0, 0] : Fin 2 → ℕ) = fun _ => 0 := funext fun a => by fin_cases a <;> rfl
theorem hz1 : (![0] : Fin 1 → ℕ) = fun _ => 0 := funext fun a => by fin_cases a <;> rfl

/-- The four feature blocks as narrowed rows laid side by side. -/
def featBlk (x0 x1 x2 x3 : Vec Ideal S1x5000x128 .f32) : FVec Ideal S5000x512 .bf16 :=
  concatenate S5000x512 1 [
    ⟨S5000x128, (truncf .bf16 (shapeCast S5000x128 x0 shapeCasts_S1x5000x128_S5000x128 : FVec Ideal S5000x128 .f32) bitsLt_bf16_f32 : FVec Ideal S5000x128 .bf16)⟩,
    ⟨S5000x128, (truncf .bf16 (shapeCast S5000x128 x1 shapeCasts_S1x5000x128_S5000x128 : FVec Ideal S5000x128 .f32) bitsLt_bf16_f32 : FVec Ideal S5000x128 .bf16)⟩,
    ⟨S5000x128, (truncf .bf16 (shapeCast S5000x128 x2 shapeCasts_S1x5000x128_S5000x128 : FVec Ideal S5000x128 .f32) bitsLt_bf16_f32 : FVec Ideal S5000x128 .bf16)⟩,
    ⟨S5000x128, (truncf .bf16 (shapeCast S5000x128 x3 shapeCasts_S1x5000x128_S5000x128 : FVec Ideal S5000x128 .f32) bitsLt_bf16_f32 : FVec Ideal S5000x128 .bf16)⟩]
    concatenates_S5000x128_S5000x128_S5000x128_S5000x128_S5000x512_d1

theorem featBlk_apply (x0 x1 x2 x3 : Vec Ideal S1x5000x128 .f32) (r : Fin 5000) (q : Fin 512) :
    featBlk x0 x1 x2 x3 (ix2 r q) = (featRow (fun k => x0 (ix3 0 r k)) (fun k => x1 (ix3 0 r k)) (fun k => x2 (ix3 0 r k)) (fun k => x3 (ix3 0 r k))) q := by
  unfold featBlk
  rw [feat_apply]
  show featRow (fun k => shapeCast S5000x128 x0 shapeCasts_S1x5000x128_S5000x128 (ix2 r k))
    (fun k => shapeCast S5000x128 x1 shapeCasts_S1x5000x128_S5000x128 (ix2 r k))
    (fun k => shapeCast S5000x128 x2 shapeCasts_S1x5000x128_S5000x128 (ix2 r k))
    (fun k => shapeCast S5000x128 x3 shapeCasts_S1x5000x128_S5000x128 (ix2 r k)) q = _
  simp only [shapeCast_1ab_ab_apply]

/-- The first two layers as dense layers of the feature rows. -/
theorem hid_eq (x0 x1 x2 x3 : Vec Ideal S1x5000x128 .f32) (w1 : Vec Ideal S512x256 .bf16) (b1 : Vec Ideal S256 .f32) (w2 : Vec Ideal S256x256 .bf16) (b2 : Vec Ideal S256 .f32) :
    hid (F := Ideal) x0 x1 x2 x3 w1 b1 w2 b2
      = dense_l2 (relu256 (dense_l1 (featBlk x0 x1 x2 x3) w1 b1) (Scalar.ofBits .f32 0x00000000#32)) w2 b2 := by
  unfold hid
  simp only [View.ld_unit_zero (S := S1x5000x128) hz3, View.ld_unit_zero (S := S512x256) hz2, View.ld_unit_zero (S := S256x256) hz2, View.ld_unit_zero (S := S256) hz1]
  rfl

theorem hid_apply (x0 x1 x2 x3 : Vec Ideal S1x5000x128 .f32) (w1 : Vec Ideal S512x256 .bf16) (b1 : Vec Ideal S256 .f32) (w2 : Vec Ideal S256x256 .bf16) (b2 : Vec Ideal S256 .f32) (r : Fin 5000) (o : Fin 256) :
    hid (F := Ideal) x0 x1 x2 x3 w1 b1 w2 b2 (ix2 r o)
      = linRow (reluRow (linRow (featRow (fun k => x0 (ix3 0 r k)) (fun k => x1 (ix3 0 r k)) (fun k => x2 (ix3 0 r k)) (fun k => x3 (ix3 0 r k))) (fun q o => w1 (ix2 q o)) (fun o => b1 (ix1 o))))
          (fun q o => w2 (ix2 q o)) (fun o => b2 (ix1 o)) o := by
  rw [hid_eq]
  refine (dense_l2_apply _ _ _ r o).trans ?_
  refine congrArg (fun x => linRow x _ _ o) (funext fun q => ?_)
  refine (relu256_apply _ _).trans ?_
  refine congrArg (fun x => max x 0) ?_
  refine (dense_l1_apply _ _ _ r q).trans ?_
  refine congrArg (fun x => linRow x _ _ q) (funext fun k => ?_)
  exact featBlk_apply x0 x1 x2 x3 r k

/-- The last two layers over the first two. -/
theorem act_eq (x0 x1 x2 x3 : Vec Ideal S1x5000x128 .f32) (w1 : Vec Ideal S512x256 .bf16) (b1 : Vec Ideal S256 .f32) (w2 : Vec Ideal S256x256 .bf16) (b2 : Vec Ideal S256 .f32) (w3 : Vec Ideal S256x256 .bf16) (b3 : Vec Ideal S256 .f32) (w4 : Vec Ideal S256x128 .bf16) (b4 : Vec Ideal S128 .f32) :
    act (F := Ideal) x0 x1 x2 x3 w1 b1 w2 b2 w3 b3 w4 b4
      = (truncf .bf16 (dense_l4 (relu256 (dense_l2 (relu256 (hid (F := Ideal) x0 x1 x2 x3 w1 b1 w2 b2) (Scalar.ofBits .f32 0x00000000#32)) w3 b3)
          (Scalar.ofBits .f32 0x00000000#32)) w4 b4) bitsLt_bf16_f32 : FVec Ideal S5000x128 .bf16) := by
  unfold act
  simp only [View.ld_unit_zero (S := S256x256) hz2, View.ld_unit_zero (S := S256x128) hz2, View.ld_unit_zero (S := S256) hz1, View.ld_unit_zero (S := S128) hz1]
  rfl

/-- THE ACTIVATION ROWS: row by row the perceptron of the feature row. -/
theorem act_apply (x0 x1 x2 x3 : Vec Ideal S1x5000x128 .f32) (w1 : Vec Ideal S512x256 .bf16) (b1 : Vec Ideal S256 .f32) (w2 : Vec Ideal S256x256 .bf16) (b2 : Vec Ideal S256 .f32) (w3 : Vec Ideal S256x256 .bf16) (b3 : Vec Ideal S256 .f32) (w4 : Vec Ideal S256x128 .bf16) (b4 : Vec Ideal S128 .f32) (r : Fin 5000) (d : Fin 128) :
    act (F := Ideal) x0 x1 x2 x3 w1 b1 w2 b2 w3 b3 w4 b4 (ix2 r d)
      = mlpRow (weightsOf w1 b1 w2 b2 w3 b3 w4 b4) (featRow (fun k => x0 (ix3 0 r k)) (fun k => x1 (ix3 0 r k)) (fun k => x2 (ix3 0 r k)) (fun k => x3 (ix3 0 r k))) d := by
  rw [act_eq]
  show dense_l4 _ w4 b4 (ix2 r d) = _
  refine (dense_l4_apply _ _ _ r d).trans ?_
  unfold mlpRow
  refine congrArg (fun x => linRow x _ _ d) (funext fun q => ?_)
  refine (relu256_apply _ _).trans ?_
  refine congrArg (fun x => max x 0) ?_
  refine (dense_l2_apply _ _ _ r q).trans ?_
  refine congrArg (fun x => linRow x _ _ q) (funext fun q2 => ?_)
  refine (relu256_apply _ _).trans ?_
  refine congrArg (fun x => max x 0) ?_
  exact hid_apply x0 x1 x2 x3 w1 b1 w2 b2 r q2

/-! ## The point's five chunks together -/

/-- Five consecutive runs of 1000 rows are the point's 5000 rows. -/
theorem sum_five {M : Type*} [AddCommMonoid M] (f : Fin 5000 → M) (x : M) :
    x + (∑ r : Fin 1000, f ⟨0 + r.val, by have := r.isLt; omega⟩) + (∑ r : Fin 1000, f ⟨1000 + r.val, by have := r.isLt; omega⟩)
        + (∑ r : Fin 1000, f ⟨2000 + r.val, by have := r.isLt; omega⟩) + (∑ r : Fin 1000, f ⟨3000 + r.val, by have := r.isLt; omega⟩)
        + (∑ r : Fin 1000, f ⟨4000 + r.val, by have := r.isLt; omega⟩)
      = x + ∑ R : Fin 5000, f R := by
  have h : ∑ R : Fin 5000, f R = _ := sum_blocks 5 1000 f
  rw [h, Fin.sum_univ_five]
  simp only [add_assoc]
  rfl

/-- THE SEGMENT SUMS AFTER A POINT: what it was handed plus, over the point's 5000 rows, the indicator times the
    activation. -/
theorem sumsNext_apply (x0 x1 x2 x3 : Vec Ideal S1x5000x128 .f32) (eiB : Vec Ideal S1x5000x1 .i32) (w1 : Vec Ideal S512x256 .bf16) (b1 : Vec Ideal S256 .f32) (w2 : Vec Ideal S256x256 .bf16) (b2 : Vec Ideal S256 .f32) (w3 : Vec Ideal S256x256 .bf16) (b3 : Vec Ideal S256 .f32) (w4 : Vec Ideal S256x128 .bf16) (b4 : Vec Ideal S128 .f32)
    (xs0 : Vec Ideal S1024x128 .f32) (s : Fin 1024) (d : Fin 128) :
    sumsNext (F := Ideal) x0 x1 x2 x3 eiB w1 b1 w2 b2 w3 b3 w4 b4 xs0 (ix2 s d)
      = xs0 (ix2 s d) + ∑ R : Fin 5000, ind (eiB (ix3 0 R 0)) s * act (F := Ideal) x0 x1 x2 x3 w1 b1 w2 b2 w3 b3 w4 b4 (ix2 R d) := by
  have hA : k0_pay10 (hid (F := Ideal) x0 x1 x2 x3 w1 b1 w2 b2) (Scalar.ofBits .f32 0x00000000#32) (View.ld w3 rW256) (View.ld b3 rB256)
      (View.ld w4 rW4) (View.ld b4 rB128) = act (F := Ideal) x0 x1 x2 x3 w1 b1 w2 b2 w3 b3 w4 b4 := rfl
  unfold sumsNext
  rw [pay3_eq, pay24_eq, pay21_eq, pay16_eq, pay12_eq, hA]
  generalize act (F := Ideal) x0 x1 x2 x3 w1 b1 w2 b2 w3 b3 w4 b4 = A
  rw [chunkS_apply, chunkS_apply, chunkS_apply, chunkS_apply, chunkS_apply]
  have hk0 : (∑ r : Fin 1000, ind (View.ld eiB rE0 (ix3 0 r 0)) s * A (ix2 ⟨0 + r.val, by have := r.isLt; omega⟩ d))
      = ∑ r : Fin 1000, (fun R : Fin 5000 => ind (eiB (ix3 0 R 0)) s * A (ix2 R d)) ⟨0 + r.val, by have := r.isLt; omega⟩ :=
    Finset.sum_congr rfl fun r _ => by rw [ld_ids eiB 0 inb_S1x5000x1_S1x1000x1_0_0_0 r (by have := r.isLt; omega)]
  have hk1 : (∑ r : Fin 1000, ind (View.ld eiB rE1 (ix3 0 r 0)) s * A (ix2 ⟨1000 + r.val, by have := r.isLt; omega⟩ d))
      = ∑ r : Fin 1000, (fun R : Fin 5000 => ind (eiB (ix3 0 R 0)) s * A (ix2 R d)) ⟨1000 + r.val, by have := r.isLt; omega⟩ :=
    Finset.sum_congr rfl fun r _ => by rw [ld_ids eiB 1000 inb_S1x5000x1_S1x1000x1_0_1000_0 r (by have := r.isLt; omega)]
  have hk2 : (∑ r : Fin 1000, ind (View.ld eiB rE2 (ix3 0 r 0)) s * A (ix2 ⟨2000 + r.val, by have := r.isLt; omega⟩ d))
      = ∑ r : Fin 1000, (fun R : Fin 5000 => ind (eiB (ix3 0 R 0)) s * A (ix2 R d)) ⟨2000 + r.val, by have := r.isLt; omega⟩ :=
    Finset.sum_congr rfl fun r _ => by rw [ld_ids eiB 2000 inb_S1x5000x1_S1x1000x1_0_2000_0 r (by have := r.isLt; omega)]
  have hk3 : (∑ r : Fin 1000, ind (View.ld eiB rE3 (ix3 0 r 0)) s * A (ix2 ⟨3000 + r.val, by have := r.isLt; omega⟩ d))
      = ∑ r : Fin 1000, (fun R : Fin 5000 => ind (eiB (ix3 0 R 0)) s * A (ix2 R d)) ⟨3000 + r.val, by have := r.isLt; omega⟩ :=
    Finset.sum_congr rfl fun r _ => by rw [ld_ids eiB 3000 inb_S1x5000x1_S1x1000x1_0_3000_0 r (by have := r.isLt; omega)]
  have hk4 : (∑ r : Fin 1000, ind (View.ld eiB rE4 (ix3 0 r 0)) s * A (ix2 ⟨4000 + r.val, by have := r.isLt; omega⟩ d))
      = ∑ r : Fin 1000, (fun R : Fin 5000 => ind (eiB (ix3 0 R 0)) s * A (ix2 R d)) ⟨4000 + r.val, by have := r.isLt; omega⟩ :=
    Finset.sum_congr rfl fun r _ => by rw [ld_ids eiB 4000 inb_S1x5000x1_S1x1000x1_0_4000_0 r (by have := r.isLt; omega)]
  refine Eq.trans ?_ (sum_five (fun R : Fin 5000 => ind (eiB (ix3 0 R 0)) s * A (ix2 R d)) (xs0 (ix2 s d)))
  rw [← hk0, ← hk1, ← hk2, ← hk3, ← hk4]

/-- THE SEGMENT COUNTS AFTER A POINT: what it was handed plus the number of the point's rows in the segment. -/
theorem cntNext_apply (eiB : Vec Ideal S1x5000x1 .i32) (xs1 : Vec Ideal S1x1024 .f32) (u : Fin 1) (s : Fin 1024) :
    cntNext (F := Ideal) eiB xs1 (ix2 u s) = xs1 (ix2 u s) + ∑ R : Fin 5000, ind (eiB (ix3 0 R 0)) s := by
  unfold cntNext
  rw [pay4_eq, pay25_eq, pay22_eq, pay17_eq, pay14_eq]
  rw [chunkC_apply, chunkC_apply, chunkC_apply, chunkC_apply, chunkC_apply]
  have hk0 : (∑ r : Fin 1000, ind (View.ld eiB rE0 (ix3 0 r 0)) s)
      = ∑ r : Fin 1000, (fun R : Fin 5000 => ind (eiB (ix3 0 R 0)) s) ⟨0 + r.val, by have := r.isLt; omega⟩ :=
    Finset.sum_congr rfl fun r _ => by rw [ld_ids eiB 0 inb_S1x5000x1_S1x1000x1_0_0_0 r (by have := r.isLt; omega)]
  have hk1 : (∑ r : Fin 1000, ind (View.ld eiB rE1 (ix3 0 r 0)) s)
      = ∑ r : Fin 1000, (fun R : Fin 5000 => ind (eiB (ix3 0 R 0)) s) ⟨1000 + r.val, by have := r.isLt; omega⟩ :=
    Finset.sum_congr rfl fun r _ => by rw [ld_ids eiB 1000 inb_S1x5000x1_S1x1000x1_0_1000_0 r (by have := r.isLt; omega)]
  have hk2 : (∑ r : Fin 1000, ind (View.ld eiB rE2 (ix3 0 r 0)) s)
      = ∑ r : Fin 1000, (fun R : Fin 5000 => ind (eiB (ix3 0 R 0)) s) ⟨2000 + r.val, by have := r.isLt; omega⟩ :=
    Finset.sum_congr rfl fun r _ => by rw [ld_ids eiB 2000 inb_S1x5000x1_S1x1000x1_0_2000_0 r (by have := r.isLt; omega)]
  have hk3 : (∑ r : Fin 1000, ind (View.ld eiB rE3 (ix3 0 r 0)) s)
      = ∑ r : Fin 1000, (fun R : Fin 5000 => ind (eiB (ix3 0 R 0)) s) ⟨3000 + r.val, by have := r.isLt; omega⟩ :=
    Finset.sum_congr rfl fun r _ => by rw [ld_ids eiB 3000 inb_S1x5000x1_S1x1000x1_0_3000_0 r (by have := r.isLt; omega)]
  have hk4 : (∑ r : Fin 1000, ind (View.ld eiB rE4 (ix3 0 r 0)) s)
      = ∑ r : Fin 1000, (fun R : Fin 5000 => ind (eiB (ix3 0 R 0)) s) ⟨4000 + r.val, by have := r.isLt; omega⟩ :=
    Finset.sum_congr rfl fun r _ => by rw [ld_ids eiB 4000 inb_S1x5000x1_S1x1000x1_0_4000_0 r (by have := r.isLt; omega)]
  refine Eq.trans ?_ (sum_five (fun R : Fin 5000 => ind (eiB (ix3 0 R 0)) s) (xs1 (ix2 u s)))
  rw [← hk0, ← hk1, ← hk2, ← hk3, ← hk4]

/-! ## The zero fills -/

theorem zeroS_apply (i : S1024x128.Idx) : k0_pay7 (F := Ideal) i = 0 := by
  unfold k0_pay7
  rw [shapeCast_self]
  exact Ideal.ofBits_zero_f32

theorem zeroC_apply (i : S1x1024.Idx) : k0_pay8 (F := Ideal) i = 0 := by
  unfold k0_pay8
  rw [shapeCast_self]
  exact Ideal.ofBits_zero_f32

end Cert.KernelIdeal.HandValue

end
-- ==== Proof.KI.Value0Acc.lean ====
/-
  The first kernel region's accumulators after each grid point, over the extended reals, as functions of
  the arrays the region is entered with.  Point `n` is step `n % 50` of core `n / 50`; its feature and id
  blocks are rows `5000 (n % 50) …` of the core's half, its parameter blocks the whole parameter arrays.  A
  point adds to the accumulators the sums over its 5000 rows; a core's first point starts from zero; so
  after step `i` of a core the accumulators hold the sums over the core's first `5000 (i + 1)` rows, and
  after its last step the sums over all 250000.
-/
import proofs.«411350_j36593121362170_3_alg».proof.Proof.KI.Value0Pay

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.SegMean

section
variable (V : (c : Dev nD) → (b : Ref sig .tc) → Buf (Elt Ideal) ((c : Thread nD τ).loc b))

/-- The perceptron's parameters as the region finds them (the four weight arrays already narrowed). -/
def wts0 (c : Dev nD) : Weights :=
  weightsOf (V c main_v0) (V c main_arg6) (V c main_v1) (V c main_arg8) (V c main_v2) (V c main_arg10) (V c main_v3) (V c main_arg12)

/-- The activation row of edge `r` of half `cc`, from the four feature arrays as the region finds them. -/
def act0 (c : Dev nD) (cc : Fin 2) (r : Fin 250000) : Fin 128 → EReal :=
  mlpRow (wts0 V c) (featRow (fun k => V c main_v4 (ix3 cc r k)) (fun k => V c main_v5 (ix3 cc r k))
    (fun k => V c main_v6 (ix3 cc r k)) (fun k => V c main_v7 (ix3 cc r k)))

/-- The segment id of edge `r` of half `cc`. -/
def seg0 (c : Dev nD) (cc : Fin 2) (r : Fin 250000) : BitVec 32 := V c main_v8 (ix3 cc r 0)

end

/-! ## The block index maps, decided over the grid -/

theorem idx0_0 : ∀ t : Fin cfg0.N, win0_0.index t (0 : Fin 3) = t.val / 50 ∧ win0_0.index t (1 : Fin 3) = t.val % 50 ∧ win0_0.index t (2 : Fin 3) = 0 :=
  (by decide +kernel : ∀ t : Fin grid0.N, _)
theorem idx0_1 : ∀ t : Fin cfg0.N, win0_1.index t (0 : Fin 3) = t.val / 50 ∧ win0_1.index t (1 : Fin 3) = t.val % 50 ∧ win0_1.index t (2 : Fin 3) = 0 :=
  (by decide +kernel : ∀ t : Fin grid0.N, _)
theorem idx0_2 : ∀ t : Fin cfg0.N, win0_2.index t (0 : Fin 3) = t.val / 50 ∧ win0_2.index t (1 : Fin 3) = t.val % 50 ∧ win0_2.index t (2 : Fin 3) = 0 :=
  (by decide +kernel : ∀ t : Fin grid0.N, _)
theorem idx0_3 : ∀ t : Fin cfg0.N, win0_3.index t (0 : Fin 3) = t.val / 50 ∧ win0_3.index t (1 : Fin 3) = t.val % 50 ∧ win0_3.index t (2 : Fin 3) = 0 :=
  (by decide +kernel : ∀ t : Fin grid0.N, _)
theorem idx0_4 : ∀ t : Fin cfg0.N, win0_4.index t (0 : Fin 3) = t.val / 50 ∧ win0_4.index t (1 : Fin 3) = t.val % 50 ∧ win0_4.index t (2 : Fin 3) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 1) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 1) = 0 :=
  (by decide +kernel : ∀ t : Fin grid0.N, _)

/-- The core of grid position `n`. -/
def coreAt (n : ℕ) (hn : n < cfg0.N) : Fin 2 := ⟨n / 50, by have h : n < 100 := hn; omega⟩

/-- Row `R` of the block of step `j`, among a half's 250000 rows. -/
def rowAt (j : ℕ) (hj : j < 50) (R : Fin 5000) : Fin 250000 := ⟨j * 5000 + R.val, by have := R.isLt; omega⟩

/-! ## A point's blocks, read off the arrays -/

section
variable (V : (c : Dev nD) → (b : Ref sig .tc) → Buf (Elt Ideal) ((c : Thread nD τ).loc b))

theorem iblk0_0_apply (c : Dev nD) (t : Fin cfg0.N) (R : Fin 5000) (k : Fin 128) :
    iblk0 V c 0 t (ix3 0 R k) = V c main_v4 (ix3 (coreAt t.val t.isLt) (rowAt (t.val % 50) (Nat.mod_lt _ (by decide)) R) k) := by
  obtain ⟨e0, e1, e2⟩ := idx0_0 t
  show V c main_v4 (((cfg0.win 0).blk t).view.emb (ix3 0 R k)) = _
  refine congrArg (V c main_v4) (funext fun a => Fin.ext ?_)
  match a with
  | ⟨0, _⟩ => show win0_0.index t (0 : Fin 3) * 1 + 1 * 0 = t.val / 50; omega
  | ⟨1, _⟩ => show win0_0.index t (1 : Fin 3) * 5000 + 1 * R.val = t.val % 50 * 5000 + R.val; omega
  | ⟨2, _⟩ => show win0_0.index t (2 : Fin 3) * 128 + 1 * k.val = k.val; omega

theorem iblk0_1_apply (c : Dev nD) (t : Fin cfg0.N) (R : Fin 5000) (k : Fin 128) :
    iblk0 V c 1 t (ix3 0 R k) = V c main_v5 (ix3 (coreAt t.val t.isLt) (rowAt (t.val % 50) (Nat.mod_lt _ (by decide)) R) k) := by
  obtain ⟨e0, e1, e2⟩ := idx0_1 t
  show V c main_v5 (((cfg0.win 1).blk t).view.emb (ix3 0 R k)) = _
  refine congrArg (V c main_v5) (funext fun a => Fin.ext ?_)
  match a with
  | ⟨0, _⟩ => show win0_1.index t (0 : Fin 3) * 1 + 1 * 0 = t.val / 50; omega
  | ⟨1, _⟩ => show win0_1.index t (1 : Fin 3) * 5000 + 1 * R.val = t.val % 50 * 5000 + R.val; omega
  | ⟨2, _⟩ => show win0_1.index t (2 : Fin 3) * 128 + 1 * k.val = k.val; omega

theorem iblk0_2_apply (c : Dev nD) (t : Fin cfg0.N) (R : Fin 5000) (k : Fin 128) :
    iblk0 V c 2 t (ix3 0 R k) = V c main_v6 (ix3 (coreAt t.val t.isLt) (rowAt (t.val % 50) (Nat.mod_lt _ (by decide)) R) k) := by
  obtain ⟨e0, e1, e2⟩ := idx0_2 t
  show V c main_v6 (((cfg0.win 2).blk t).view.emb (ix3 0 R k)) = _
  refine congrArg (V c main_v6) (funext fun a => Fin.ext ?_)
  match a with
  | ⟨0, _⟩ => show win0_2.index t (0 : Fin 3) * 1 + 1 * 0 = t.val / 50; omega
  | ⟨1, _⟩ => show win0_2.index t (1 : Fin 3) * 5000 + 1 * R.val = t.val % 50 * 5000 + R.val; omega
  | ⟨2, _⟩ => show win0_2.index t (2 : Fin 3) * 128 + 1 * k.val = k.val; omega

theorem iblk0_3_apply (c : Dev nD) (t : Fin cfg0.N) (R : Fin 5000) (k : Fin 128) :
    iblk0 V c 3 t (ix3 0 R k) = V c main_v7 (ix3 (coreAt t.val t.isLt) (rowAt (t.val % 50) (Nat.mod_lt _ (by decide)) R) k) := by
  obtain ⟨e0, e1, e2⟩ := idx0_3 t
  show V c main_v7 (((cfg0.win 3).blk t).view.emb (ix3 0 R k)) = _
  refine congrArg (V c main_v7) (funext fun a => Fin.ext ?_)
  match a with
  | ⟨0, _⟩ => show win0_3.index t (0 : Fin 3) * 1 + 1 * 0 = t.val / 50; omega
  | ⟨1, _⟩ => show win0_3.index t (1 : Fin 3) * 5000 + 1 * R.val = t.val % 50 * 5000 + R.val; omega
  | ⟨2, _⟩ => show win0_3.index t (2 : Fin 3) * 128 + 1 * k.val = k.val; omega

theorem iblk0_4_apply (c : Dev nD) (t : Fin cfg0.N) (R : Fin 5000) :
    iblk0 V c 4 t (ix3 0 R 0) = seg0 V c (coreAt t.val t.isLt) (rowAt (t.val % 50) (Nat.mod_lt _ (by decide)) R) := by
  obtain ⟨e0, e1, e2⟩ := idx0_4 t
  show V c main_v8 (((cfg0.win 4).blk t).view.emb (ix3 0 R 0)) = V c main_v8 _
  refine congrArg (V c main_v8) (funext fun a => Fin.ext ?_)
  match a with
  | ⟨0, _⟩ => show win0_4.index t (0 : Fin 3) * 1 + 1 * 0 = t.val / 50; omega
  | ⟨1, _⟩ => show win0_4.index t (1 : Fin 3) * 5000 + 1 * R.val = t.val % 50 * 5000 + R.val; omega
  | ⟨2, _⟩ => show win0_4.index t (2 : Fin 3) * 1 + 1 * 0 = 0; omega

theorem iblk0_5_eq (c : Dev nD) (t : Fin cfg0.N) : (iblk0 V c 5 t : Vec Ideal S512x256 .bf16) = V c main_v0 := by
  obtain ⟨e0, e1⟩ := idx0_5 t
  funext j
  show V c main_v0 (((cfg0.win 5).blk t).view.emb j) = _
  refine congrArg (V c main_v0) (funext fun a => Fin.ext ?_)
  match a with
  | ⟨0, _⟩ => show win0_5.index t (0 : Fin 2) * 512 + 1 * (j 0).val = (j 0).val; omega
  | ⟨1, _⟩ => show win0_5.index t (1 : Fin 2) * 256 + 1 * (j 1).val = (j 1).val; omega

theorem iblk0_6_eq (c : Dev nD) (t : Fin cfg0.N) : (iblk0 V c 6 t : Vec Ideal S256 .f32) = V c main_arg6 := by
  have e0 := idx0_6 t
  funext j
  show V c main_arg6 (((cfg0.win 6).blk t).view.emb j) = _
  refine congrArg (V c main_arg6) (funext fun a => Fin.ext ?_)
  match a with
  | ⟨0, _⟩ => show win0_6.index t (0 : Fin 1) * 256 + 1 * (j 0).val = (j 0).val; omega

theorem iblk0_7_eq (c : Dev nD) (t : Fin cfg0.N) : (iblk0 V c 7 t : Vec Ideal S256x256 .bf16) = V c main_v1 := by
  obtain ⟨e0, e1⟩ := idx0_7 t
  funext j
  show V c main_v1 (((cfg0.win 7).blk t).view.emb j) = _
  refine congrArg (V c main_v1) (funext fun a => Fin.ext ?_)
  match a with
  | ⟨0, _⟩ => show win0_7.index t (0 : Fin 2) * 256 + 1 * (j 0).val = (j 0).val; omega
  | ⟨1, _⟩ => show win0_7.index t (1 : Fin 2) * 256 + 1 * (j 1).val = (j 1).val; omega

theorem iblk0_8_eq (c : Dev nD) (t : Fin cfg0.N) : (iblk0 V c 8 t : Vec Ideal S256 .f32) = V c main_arg8 := by
  have e0 := idx0_8 t
  funext j
  show V c main_arg8 (((cfg0.win 8).blk t).view.emb j) = _
  refine congrArg (V c main_arg8) (funext fun a => Fin.ext ?_)
  match a with
  | ⟨0, _⟩ => show win0_8.index t (0 : Fin 1) * 256 + 1 * (j 0).val = (j 0).val; omega

theorem iblk0_9_eq (c : Dev nD) (t : Fin cfg0.N) : (iblk0 V c 9 t : Vec Ideal S256x256 .bf16) = V c main_v2 := by
  obtain ⟨e0, e1⟩ := idx0_9 t
  funext j
  show V c main_v2 (((cfg0.win 9).blk t).view.emb j) = _
  refine congrArg (V c main_v2) (funext fun a => Fin.ext ?_)
  match a with
  | ⟨0, _⟩ => show win0_9.index t (0 : Fin 2) * 256 + 1 * (j 0).val = (j 0).val; omega
  | ⟨1, _⟩ => show win0_9.index t (1 : Fin 2) * 256 + 1 * (j 1).val = (j 1).val; omega

theorem iblk0_10_eq (c : Dev nD) (t : Fin cfg0.N) : (iblk0 V c 10 t : Vec Ideal S256 .f32) = V c main_arg10 := by
  have e0 := idx0_10 t
  funext j
  show V c main_arg10 (((cfg0.win 10).blk t).view.emb j) = _
  refine congrArg (V c main_arg10) (funext fun a => Fin.ext ?_)
  match a with
  | ⟨0, _⟩ => show win0_10.index t (0 : Fin 1) * 256 + 1 * (j 0).val = (j 0).val; omega

theorem iblk0_11_eq (c : Dev nD) (t : Fin cfg0.N) : (iblk0 V c 11 t : Vec Ideal S256x128 .bf16) = V c main_v3 := by
  obtain ⟨e0, e1⟩ := idx0_11 t
  funext j
  show V c main_v3 (((cfg0.win 11).blk t).view.emb j) = _
  refine congrArg (V c main_v3) (funext fun a => Fin.ext ?_)
  match a with
  | ⟨0, _⟩ => show win0_11.index t (0 : Fin 2) * 256 + 1 * (j 0).val = (j 0).val; omega
  | ⟨1, _⟩ => show win0_11.index t (1 : Fin 2) * 128 + 1 * (j 1).val = (j 1).val; omega

theorem iblk0_12_eq (c : Dev nD) (t : Fin cfg0.N) : (iblk0 V c 12 t : Vec Ideal S128 .f32) = V c main_arg12 := by
  have e0 := idx0_12 t
  funext j
  show V c main_arg12 (((cfg0.win 12).blk t).view.emb j) = _
  refine congrArg (V c main_arg12) (funext fun a => Fin.ext ?_)
  match a with
  | ⟨0, _⟩ => show win0_12.index t (0 : Fin 1) * 128 + 1 * (j 0).val = (j 0).val; omega

end

/-! ## One grid point's contribution -/

section
variable (V : (c : Dev nD) → (b : Ref sig .tc) → Buf (Elt Ideal) ((c : Thread nD τ).loc b))

/-- The segment sums over the rows of step `j`'s block of half `cc` (zero past the last step). -/
def blkS (c : Dev nD) (cc : Fin 2) (s : Fin 1024) (d : Fin 128) (j : ℕ) : EReal :=
  if hj : j < 50 then ∑ R : Fin 5000, ind (seg0 V c cc (rowAt j hj R)) s * act0 V c cc (rowAt j hj R) d else 0

/-- The segment counts over the rows of step `j`'s block of half `cc` (zero past the last step). -/
def blkC (c : Dev nD) (cc : Fin 2) (s : Fin 1024) (j : ℕ) : EReal :=
  if hj : j < 50 then ∑ R : Fin 5000, ind (seg0 V c cc (rowAt j hj R)) s else 0

/-- A point's activation rows are its half's activation rows at its block's rows. -/
theorem act_pt (c : Dev nD) (t : Fin cfg0.N) (R : Fin 5000) (d : Fin 128) :
    act (F := Ideal) (iblk0 V c 0 t) (iblk0 V c 1 t) (iblk0 V c 2 t) (iblk0 V c 3 t) (iblk0 V c 5 t) (iblk0 V c 6 t) (iblk0 V c 7 t) (iblk0 V c 8 t) (iblk0 V c 9 t) (iblk0 V c 10 t) (iblk0 V c 11 t) (iblk0 V c 12 t) (ix2 R d)
      = act0 V c (coreAt t.val t.isLt) (rowAt (t.val % 50) (Nat.mod_lt _ (by decide)) R) d := by
  have hw : weightsOf (iblk0 V c 5 t) (iblk0 V c 6 t) (iblk0 V c 7 t) (iblk0 V c 8 t) (iblk0 V c 9 t) (iblk0 V c 10 t) (iblk0 V c 11 t) (iblk0 V c 12 t) = wts0 V c := by
    unfold wts0
    rw [iblk0_5_eq V c t, iblk0_6_eq V c t, iblk0_7_eq V c t, iblk0_8_eq V c t, iblk0_9_eq V c t, iblk0_10_eq V c t,
      iblk0_11_eq V c t, iblk0_12_eq V c t]
  rw [act_apply, hw]
  unfold act0
  simp only [iblk0_0_apply, iblk0_1_apply, iblk0_2_apply, iblk0_3_apply]

/-- The segment sums after a point: what it was handed plus its block's. -/
theorem pt0_sums (c : Dev nD) (t : Fin cfg0.N) (xs0 : Vec Ideal S1024x128 .f32) (xs1 : Vec Ideal S1x1024 .f32) (s : Fin 1024) (d : Fin 128) :
    (pt0 V c t xs0 xs1).1 (ix2 s d) = xs0 (ix2 s d) + blkS V c (coreAt t.val t.isLt) s d (t.val % 50) := by
  show sumsNext (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) xs0 (ix2 s d) = _
  rw [sumsNext_apply]
  unfold blkS
  rw [dif_pos (Nat.mod_lt _ (by decide))]
  refine congrArg (xs0 (ix2 s d) + ·) (Finset.sum_congr rfl fun R _ => ?_)
  rw [iblk0_4_apply, act_pt]

/-- The segment counts after a point: what it was handed plus its block's. -/
theorem pt0_cnt (c : Dev nD) (t : Fin cfg0.N) (xs0 : Vec Ideal S1024x128 .f32) (xs1 : Vec Ideal S1x1024 .f32) (u : Fin 1) (s : Fin 1024) :
    (pt0 V c t xs0 xs1).2 (ix2 u s) = xs1 (ix2 u s) + blkC V c (coreAt t.val t.isLt) s (t.val % 50) := by
  show cntNext (F := Ideal) (iblk0 V c 4 t) xs1 (ix2 u s) = _
  rw [cntNext_apply]
  unfold blkC
  rw [dif_pos (Nat.mod_lt _ (by decide))]
  refine congrArg (xs1 (ix2 u s) + ·) (Finset.sum_congr rfl fun R _ => ?_)
  rw [iblk0_4_apply]

/-! ## The accumulators after every point -/

/-- The accumulators at a core's first step and at any other, at a position written as a natural number. -/
theorem acc_first (c : Dev nD) (n : ℕ) (hn : n < cfg0.N) (h0 : n % 50 = 0) :
    accAt0 V c n hn = pt0 V c ⟨n, hn⟩ (k0_pay7 (F := Ideal)) (k0_pay8 (F := Ideal)) := accAt0_first V c ⟨n, hn⟩ h0
theorem acc_next (c : Dev nD) (n : ℕ) (hn : n < cfg0.N) (h0 : ¬n % 50 = 0) :
    accAt0 V c n hn = pt0 V c ⟨n, hn⟩ (accAt0 V c (n - 1) (Nat.lt_of_le_of_lt (Nat.sub_le _ _) hn)).1
      (accAt0 V c (n - 1) (Nat.lt_of_le_of_lt (Nat.sub_le _ _) hn)).2 := accAt0_next V c ⟨n, hn⟩ h0

/-- After position `n` the segment sums hold the sums over the blocks of steps `0 … n % 50` of the core. -/
theorem acc_sums (c : Dev nD) (s : Fin 1024) (d : Fin 128) : ∀ (n : ℕ) (hn : n < cfg0.N),
    (accAt0 V c n hn).1 (ix2 s d) = ∑ j ∈ Finset.range (n % 50 + 1), blkS V c (coreAt n hn) s d j := by
  intro n
  induction n using Nat.strong_induction_on with
  | _ n ih =>
    intro hn
    have hn100 : n < 100 := hn
    by_cases h0 : n % 50 = 0
    · rw [acc_first V c n hn h0, pt0_sums, zeroS_apply, zero_add]
      show blkS V c (coreAt n hn) s d (n % 50) = ∑ j ∈ Finset.range (n % 50 + 1), blkS V c (coreAt n hn) s d j
      rw [h0, Finset.sum_range_one]
    · have hn' : n - 1 < cfg0.N := Nat.lt_of_le_of_lt (Nat.sub_le _ _) hn
      have hc : coreAt (n - 1) hn' = coreAt n hn := Fin.ext (by show (n - 1) / 50 = n / 50; omega)
      have hm : (n - 1) % 50 + 1 = n % 50 := by omega
      rw [acc_next V c n hn h0, pt0_sums, ih (n - 1) (by omega) hn', hc, hm]
      show _ + blkS V c (coreAt n hn) s d (n % 50) = _
      rw [Finset.sum_range_succ]

/-- After position `n` the segment counts hold the counts over the blocks of steps `0 … n % 50` of the core. -/
theorem acc_cnt (c : Dev nD) (u : Fin 1) (s : Fin 1024) : ∀ (n : ℕ) (hn : n < cfg0.N),
    (accAt0 V c n hn).2 (ix2 u s) = ∑ j ∈ Finset.range (n % 50 + 1), blkC V c (coreAt n hn) s j := by
  intro n
  induction n using Nat.strong_induction_on with
  | _ n ih =>
    intro hn
    have hn100 : n < 100 := hn
    by_cases h0 : n % 50 = 0
    · rw [acc_first V c n hn h0, pt0_cnt, zeroC_apply, zero_add]
      show blkC V c (coreAt n hn) s (n % 50) = ∑ j ∈ Finset.range (n % 50 + 1), blkC V c (coreAt n hn) s j
      rw [h0, Finset.sum_range_one]
    · have hn' : n - 1 < cfg0.N := Nat.lt_of_le_of_lt (Nat.sub_le _ _) hn
      have hc : coreAt (n - 1) hn' = coreAt n hn := Fin.ext (by show (n - 1) / 50 = n / 50; omega)
      have hm : (n - 1) % 50 + 1 = n % 50 := by omega
      rw [acc_next V c n hn h0, pt0_cnt, ih (n - 1) (by omega) hn', hc, hm]
      show _ + blkC V c (coreAt n hn) s (n % 50) = _
      rw [Finset.sum_range_succ]

/-- AFTER A CORE'S LAST STEP the segment sums are the half's segment sums. -/
theorem acc_sums_last (c : Dev nD) (n : ℕ) (hn : n < cfg0.N) (h49 : n % 50 = 49) (s : Fin 1024) (d : Fin 128) :
    (accAt0 V c n hn).1 (ix2 s d) = segSum (seg0 V c (coreAt n hn)) (act0 V c (coreAt n hn)) s d := by
  rw [acc_sums V c s d n hn, h49]
  unfold segSum
  refine Eq.trans ?_ (sum_blocks 50 5000 (fun r : Fin 250000 => ind (seg0 V c (coreAt n hn) r) s * act0 V c (coreAt n hn) r d)).symm
  show ∑ j ∈ Finset.range 50, blkS V c (coreAt n hn) s d j = _
  rw [Finset.sum_range]
  refine Finset.sum_congr rfl fun j _ => ?_
  unfold blkS
  rw [dif_pos j.isLt]
  rfl

/-- AFTER A CORE'S LAST STEP the segment counts are the half's segment counts. -/
theorem acc_cnt_last (c : Dev nD) (n : ℕ) (hn : n < cfg0.N) (h49 : n % 50 = 49) (u : Fin 1) (s : Fin 1024) :
    (accAt0 V c n hn).2 (ix2 u s) = segCnt (seg0 V c (coreAt n hn)) s := by
  rw [acc_cnt V c u s n hn, h49]
  unfold segCnt
  refine Eq.trans ?_ (sum_blocks 50 5000 (fun r : Fin 250000 => ind (seg0 V c (coreAt n hn) r) s)).symm
  show ∑ j ∈ Finset.range 50, blkC V c (coreAt n hn) s j = _
  rw [Finset.sum_range]
  refine Finset.sum_congr rfl fun j _ => ?_
  unfold blkC
  rw [dif_pos j.isLt]
  rfl

end

end Cert.KernelIdeal.HandValue

end
-- ==== Proof.KI.Value0.lean ====
/-
  What the first kernel region leaves in its two result arrays, over the extended reals, as functions of the
  arrays it is entered with: for each half `cc` of the edges, the segment sums of that half's activation rows
  and the segment counts of that half's ids.  A grid point adds to the accumulators, for each of its five
  chunks of 1000 rows, the indicator columns times the chunk's activation rows (a matrix product contracted
  over the rows) and the indicator columns' sums; fifty points of a core cover its 250000 rows once; the last
  point of a core writes the accumulators out as the core's block of the result.
-/
import proofs.«411350_j36593121362170_3_alg».proof.Proof.KI.Data0
import proofs.«411350_j36593121362170_3_alg».proof.Proof.KI.Value0Acc
import proofs.«411350_j36593121362170_3_alg».proof.Proof.Math.Algebra
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.SegMean

/-! ## The block index maps of the two result windows, decided over the grid -/

theorem idx0_13 : ∀ t : Fin cfg0.N, win0_13.index t (0 : Fin 3) = t.val / 50 ∧ win0_13.index t (1 : Fin 3) = 0 ∧ win0_13.index t (2 : Fin 3) = 0 :=
  (by decide +kernel : ∀ t : Fin grid0.N, _)
theorem idx0_14 : ∀ t : Fin cfg0.N, win0_14.index t (0 : Fin 3) = t.val / 50 ∧ win0_14.index t (1 : Fin 3) = 0 ∧ win0_14.index t (2 : Fin 3) = 0 :=
  (by decide +kernel : ∀ t : Fin grid0.N, _)

/-! ## The accumulators as the last step writes them out -/

/-- The segment sums written out as a [1, 1024, 128] block, at an index: the accumulator at its last two coordinates. -/
theorem pay5_apply (X : Vec Ideal S1024x128 .f32) (j : S1x1024x128.Idx) :
    k0_pay5 (F := Ideal) X j = X (ix2 ⟨(j 1).val, (j 1).isLt⟩ ⟨(j 2).val, (j 2).isLt⟩) := by
  unfold k0_pay5
  refine shapeCast_apply X shapeCasts_S1024x128_S1x1024x128 j _ ?_
  have h0 : (j 0).val < 1 := (j 0).isLt
  rw [Shape.rowMajor_val_three, Shape.rowMajor_val_two]
  show (j 1).val * 128 + (j 2).val = ((j 0).val * 1024 + (j 1).val) * 128 + (j 2).val
  have h00 : (j 0).val = 0 := by omega
  rw [h00, Nat.zero_mul, Nat.zero_add]

/-- The segment counts written out as a [1, 1, 1024] block, at an index: the accumulator at its last two coordinates. -/
theorem pay6_apply (X : Vec Ideal S1x1024 .f32) (j : S1x1x1024.Idx) :
    k0_pay6 (F := Ideal) X j = X (ix2 ⟨(j 1).val, (j 1).isLt⟩ ⟨(j 2).val, (j 2).isLt⟩) := by
  unfold k0_pay6
  refine shapeCast_apply X shapeCasts_S1x1024_S1x1x1024 j _ ?_
  have h0 : (j 0).val < 1 := (j 0).isLt
  rw [Shape.rowMajor_val_three, Shape.rowMajor_val_two]
  show (j 1).val * 1024 + (j 2).val = ((j 0).val * 1 + (j 1).val) * 1024 + (j 2).val
  have h00 : (j 0).val = 0 := by omega
  rw [h00, Nat.zero_mul, Nat.zero_add]

section
variable (V : (c : Dev nD) → (b : Ref sig .tc) → Buf (Elt Ideal) ((c : Thread nD τ).loc b))

/-- What the first result array ends holding, as one function of its index. -/
def G13 (c : Dev nD) : S2x1024x128.Idx → EReal := fun i =>
  segSum (seg0 V c ⟨(i 0).val, (i 0).isLt⟩) (act0 V c ⟨(i 0).val, (i 0).isLt⟩) ⟨(i 1).val, (i 1).isLt⟩ ⟨(i 2).val, (i 2).isLt⟩

/-- What the second result array ends holding, as one function of its index. -/
def G14 (c : Dev nD) : S2x1x1024.Idx → EReal := fun i =>
  segCnt (seg0 V c ⟨(i 0).val, (i 0).isLt⟩) ⟨(i 2).val, (i 2).isLt⟩

/-- A block of an array's contents read through the first result window, at an index. -/
theorem read13 (t : Fin cfg0.N) (G : S2x1024x128.Idx → EReal) (j : ((cfg0.win 13).xblock (grid0.coords t)).Idx) :
    ((cfg0.win 13).blk t).view.read (Elt Ideal) G j = G (((cfg0.win 13).blk t).view.emb j) := rfl

/-- A block of an array's contents read through the second result window, at an index. -/
theorem read14 (t : Fin cfg0.N) (G : S2x1x1024.Idx → EReal) (j : ((cfg0.win 14).xblock (grid0.coords t)).Idx) :
    ((cfg0.win 14).blk t).view.read (Elt Ideal) G j = G (((cfg0.win 14).blk t).view.emb j) := rfl

/-- What a core's last step writes back to the first result array is its block of `G13`. -/
theorem flushed13_eq (c : Dev nD) (t : Fin cfg0.N) (hf : (cfg0.win 13).flush t = true) :
    (dat0 (F := Ideal) V c).flushed 13 t = ((cfg0.win 13).blk t).view.read (Elt Ideal) (G13 V c) := by
  have h49 : t.val % 50 = 49 := (flush0_13 t).mp hf
  obtain ⟨e0, e1, e2⟩ := idx0_13 t
  show (cfg0.win 13).cut (grid0.coords t) ((dat0 (F := Ideal) V c).after 13 t) = _
  rw [after0_13]
  funext j
  refine (pay5_apply _ ((cfg0.win 13).xinj (grid0.coords t) j)).trans ?_
  refine Eq.trans ?_ (read13 t (G13 V c) j).symm
  show (accAt0 V c t.val t.isLt).1 (ix2 ⟨(j 1).val, (j 1).isLt⟩ ⟨(j 2).val, (j 2).isLt⟩) = _
  rw [acc_sums_last V c t.val t.isLt h49]
  have hj0 : (j 0).val < 1 := (j 0).isLt
  unfold G13
  have q0 : (⟨((((cfg0.win 13).blk t).view.emb j) 0).val, ((((cfg0.win 13).blk t).view.emb j) 0).isLt⟩ : Fin 2) = coreAt t.val t.isLt :=
    Fin.ext (by show win0_13.index t (0 : Fin 3) * 1 + 1 * (j 0).val = t.val / 50; omega)
  have q1 : (⟨((((cfg0.win 13).blk t).view.emb j) 1).val, ((((cfg0.win 13).blk t).view.emb j) 1).isLt⟩ : Fin 1024) = ⟨(j 1).val, (j 1).isLt⟩ :=
    Fin.ext (by show win0_13.index t (1 : Fin 3) * 1024 + 1 * (j 1).val = (j 1).val; omega)
  have q2 : (⟨((((cfg0.win 13).blk t).view.emb j) 2).val, ((((cfg0.win 13).blk t).view.emb j) 2).isLt⟩ : Fin 128) = ⟨(j 2).val, (j 2).isLt⟩ :=
    Fin.ext (by show win0_13.index t (2 : Fin 3) * 128 + 1 * (j 2).val = (j 2).val; omega)
  rw [q0, q1, q2]

/-- What a core's last step writes back to the second result array is its block of `G14`. -/
theorem flushed14_eq (c : Dev nD) (t : Fin cfg0.N) (hf : (cfg0.win 14).flush t = true) :
    (dat0 (F := Ideal) V c).flushed 14 t = ((cfg0.win 14).blk t).view.read (Elt Ideal) (G14 V c) := by
  have h49 : t.val % 50 = 49 := (flush0_14 t).mp hf
  obtain ⟨e0, e1, e2⟩ := idx0_14 t
  show (cfg0.win 14).cut (grid0.coords t) ((dat0 (F := Ideal) V c).after 14 t) = _
  rw [after0_14]
  funext j
  refine (pay6_apply _ ((cfg0.win 14).xinj (grid0.coords t) j)).trans ?_
  refine Eq.trans ?_ (read14 t (G14 V c) j).symm
  show (accAt0 V c t.val t.isLt).2 (ix2 ⟨(j 1).val, (j 1).isLt⟩ ⟨(j 2).val, (j 2).isLt⟩) = _
  rw [acc_cnt_last V c t.val t.isLt h49]
  have hj0 : (j 0).val < 1 := (j 0).isLt
  unfold G14
  have q0 : (⟨((((cfg0.win 14).blk t).view.emb j) 0).val, ((((cfg0.win 14).blk t).view.emb j) 0).isLt⟩ : Fin 2) = coreAt t.val t.isLt :=
    Fin.ext (by show win0_14.index t (0 : Fin 3) * 1 + 1 * (j 0).val = t.val / 50; omega)
  have q2 : (⟨((((cfg0.win 14).blk t).view.emb j) 2).val, ((((cfg0.win 14).blk t).view.emb j) 2).isLt⟩ : Fin 1024) = ⟨(j 2).val, (j 2).isLt⟩ :=
    Fin.ext (by show win0_14.index t (2 : Fin 3) * 1024 + 1 * (j 2).val = (j 2).val; omega)
  rw [q0, q2]

/-- An index of the first result array is in point `t`'s block iff each coordinate is in the block's range. -/
theorem mem_blk13 (t : Fin cfg0.N) (i : S2x1024x128.Idx) :
    i ∈ ((cfg0.win 13).blk t).view.set ↔ ∀ a : Fin 3, win0_13.index t a * S1x1024x128.size a ≤ (i a).val ∧ (i a).val < win0_13.index t a * S1x1024x128.size a + S1x1024x128.size a := by
  show i ∈ ((View.whole main_v9_0).slice (win0_13.rect t)).set ↔ _
  rw [View.set_slice_whole, Rect.mem_set_unit]
  exact Iff.rfl

theorem mem_blk14 (t : Fin cfg0.N) (i : S2x1x1024.Idx) :
    i ∈ ((cfg0.win 14).blk t).view.set ↔ ∀ a : Fin 3, win0_14.index t a * S1x1x1024.size a ≤ (i a).val ∧ (i a).val < win0_14.index t a * S1x1x1024.size a + S1x1x1024.size a := by
  show i ∈ ((View.whole main_v9_1).slice (win0_14.rect t)).set ↔ _
  rw [View.set_slice_whole, Rect.mem_set_unit]
  exact Iff.rfl

/-- Every index of the first result array is in the block of its core's last step. -/
theorem cover13 (i : S2x1024x128.Idx) : ∃ t : Fin cfg0.N, (cfg0.win 13).flush t = true ∧ i ∈ ((cfg0.win 13).blk t).view.set := by
  have hi0 : (i 0).val < 2 := (i 0).isLt
  have hi1 : (i 1).val < 1024 := (i 1).isLt
  have hi2 : (i 2).val < 128 := (i 2).isLt
  have hlt : 50 * (i 0).val + 49 < cfg0.N := by show _ < 100; omega
  refine ⟨⟨50 * (i 0).val + 49, hlt⟩, (flush0_13 _).mpr (by show (50 * (i 0).val + 49) % 50 = 49; omega), ?_⟩
  obtain ⟨e0, e1, e2⟩ := idx0_13 ⟨50 * (i 0).val + 49, hlt⟩
  have e0' : win0_13.index ⟨50 * (i 0).val + 49, hlt⟩ (0 : Fin 3) = (50 * (i 0).val + 49) / 50 := e0
  rw [mem_blk13]
  intro a
  match a with
  | ⟨0, _⟩ => show win0_13.index ⟨50 * (i 0).val + 49, hlt⟩ (0 : Fin 3) * 1 ≤ (i 0).val ∧ (i 0).val < win0_13.index ⟨50 * (i 0).val + 49, hlt⟩ (0 : Fin 3) * 1 + 1; omega
  | ⟨1, _⟩ => show win0_13.index ⟨50 * (i 0).val + 49, hlt⟩ (1 : Fin 3) * 1024 ≤ (i 1).val ∧ (i 1).val < win0_13.index ⟨50 * (i 0).val + 49, hlt⟩ (1 : Fin 3) * 1024 + 1024; omega
  | ⟨2, _⟩ => show win0_13.index ⟨50 * (i 0).val + 49, hlt⟩ (2 : Fin 3) * 128 ≤ (i 2).val ∧ (i 2).val < win0_13.index ⟨50 * (i 0).val + 49, hlt⟩ (2 : Fin 3) * 128 + 128; omega

/-- Every index of the second result array is in the block of its core's last step. -/
theorem cover14 (i : S2x1x1024.Idx) : ∃ t : Fin cfg0.N, (cfg0.win 14).flush t = true ∧ i ∈ ((cfg0.win 14).blk t).view.set := by
  have hi0 : (i 0).val < 2 := (i 0).isLt
  have hi1 : (i 1).val < 1 := (i 1).isLt
  have hi2 : (i 2).val < 1024 := (i 2).isLt
  have hlt : 50 * (i 0).val + 49 < cfg0.N := by show _ < 100; omega
  refine ⟨⟨50 * (i 0).val + 49, hlt⟩, (flush0_14 _).mpr (by show (50 * (i 0).val + 49) % 50 = 49; omega), ?_⟩
  obtain ⟨e0, e1, e2⟩ := idx0_14 ⟨50 * (i 0).val + 49, hlt⟩
  have e0' : win0_14.index ⟨50 * (i 0).val + 49, hlt⟩ (0 : Fin 3) = (50 * (i 0).val + 49) / 50 := e0
  rw [mem_blk14]
  intro a
  match a with
  | ⟨0, _⟩ => show win0_14.index ⟨50 * (i 0).val + 49, hlt⟩ (0 : Fin 3) * 1 ≤ (i 0).val ∧ (i 0).val < win0_14.index ⟨50 * (i 0).val + 49, hlt⟩ (0 : Fin 3) * 1 + 1; omega
  | ⟨1, _⟩ => show win0_14.index ⟨50 * (i 0).val + 49, hlt⟩ (1 : Fin 3) * 1 ≤ (i 1).val ∧ (i 1).val < win0_14.index ⟨50 * (i 0).val + 49, hlt⟩ (1 : Fin 3) * 1 + 1; omega
  | ⟨2, _⟩ => show win0_14.index ⟨50 * (i 0).val + 49, hlt⟩ (2 : Fin 3) * 1024 ≤ (i 2).val ∧ (i 2).val < win0_14.index ⟨50 * (i 0).val + 49, hlt⟩ (2 : Fin 3) * 1024 + 1024; omega

/-- The first result array after the region: half `cc`'s segment sums. -/
theorem sums_value (c : Dev nD) (cc : Fin 2) (s : Fin 1024) (d : Fin 128) :
    (dat0 (F := Ideal) V c).arrAt 13 cfg0.N (ix3 cc s d) = segSum (seg0 V c cc) (act0 V c cc) s d := by
  rw [(dat0 (F := Ideal) V c).arrAt_eq_of_cover 13 (G13 V c) (fun t hf => flushed13_eq V c t hf) (cover13)]
  rfl

/-- The second result array after the region: half `cc`'s segment counts. -/
theorem counts_value (c : Dev nD) (cc : Fin 2) (s : Fin 1024) :
    (dat0 (F := Ideal) V c).arrAt 14 cfg0.N (ix3 cc 0 s) = segCnt (seg0 V c cc) s := by
  rw [(dat0 (F := Ideal) V c).arrAt_eq_of_cover 14 (G14 V c) (fun t hf => flushed14_eq V c t hf) (cover14)]
  rfl

end

end Cert.KernelIdeal.HandValue

end
-- ==== Proof.KI.Value1.lean ====
/-
  What the second kernel region leaves in its result array, over the extended reals, as a function of the
  arrays it is entered with: row `t` is the indicator row of edge `t`'s id times the first table plus the same
  indicator row times the second table (two matrix products contracted over the 1024 segments, added).  A
  grid point writes 10000 rows in five chunks of 2000; fifty points cover the 500000 rows once.
-/
import proofs.«411350_j36593121362170_3_alg».proof.Proof.KI.Data1
import proofs.«411350_j36593121362170_3_alg».proof.Proof.Math.Spec
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.SegMean

/-! ## One chunk of 2000 rows: the indicator rows times a table -/

/-- The compare bit of two words, widened to a word and converted: one where the words agree, zero elsewhere. -/
theorem sitofp_cmp_eq_ind (w : BitVec 32) (s : Fin 1024) :
    (FloatOps.sitofp (F := Ideal) .f32 ((IntOp.cmpi .eq w (BitVec.ofNat 32 s.val)).setWidth 32) : EReal) = ind w s := by
  unfold ind
  show (((((IntOp.cmpi .eq w (BitVec.ofNat 32 s.val)).setWidth 32).toInt : ℤ) : ℝ) : EReal) = _
  by_cases h : w = BitVec.ofNat 32 s.val
  · rw [if_pos h]
    have hb : IntOp.cmpi .eq w (BitVec.ofNat 32 s.val) = 1#1 := by simp [IntOp.cmpi, h]
    rw [hb]
    have h1 : ((1#1 : BitVec 1).setWidth 32).toInt = 1 := by decide
    rw [h1]
    norm_num
  · rw [if_neg h]
    have hb : IntOp.cmpi .eq w (BitVec.ofNat 32 s.val) = 0#1 := by
      have hne : (w == BitVec.ofNat 32 s.val) = false := beq_eq_false_iff_ne.mpr h
      simp [IntOp.cmpi, hne]
    rw [hb]
    have h0 : ((0#1 : BitVec 1).setWidth 32).toInt = 0 := by decide
    rw [h0]
    norm_num

/-- The chunk's indicator rows: entry (r, s) says whether row r's id is s. -/
theorem indRows_apply (ei : Vec Ideal S2000x1 .i32) (h1 : S2000x1.ShapeCasts S2000x1) (h2 : S2000x1.Broadcasts S2000x1024)
    (h3 : S1x1024.Broadcasts S2000x1024) (h4 : 1 < 32) (h5 : FTy.bits .bf16 < FTy.bits .f32) (hi : S1x1024.Iotas .tc 32 [1])
    (r : Fin 2000) (s : Fin 1024) :
    (truncf .bf16 (sitofp .f32 (extui 32 (cmpi .eq (broadcastTo S2000x1024 (shapeCast S2000x1 ei h1) h2)
      (broadcastTo S2000x1024 (iota .tc S1x1024 32 [1] hi) h3)) h4)) h5 : FVec Ideal S2000x1024 .bf16) (ix2 r s)
      = ind (ei (ix2 r 0)) s := by
  have e1 : broadcastTo S2000x1024 (shapeCast S2000x1 ei h1) h2 (ix2 r s) = ei (ix2 r 0) := by
    rw [shapeCast_self]
    exact broadcastTo_apply ei h2 (ix2 r s) (ix2 r 0) (fun a => match a with
      | ⟨0, _⟩ => by show r.val = if (2000 : Nat) = 1 then 0 else r.val; rw [if_neg (by decide)]
      | ⟨1, _⟩ => by show 0 = if (1 : Nat) = 1 then 0 else s.val; rw [if_pos rfl])
  have e2 : broadcastTo S2000x1024 (iota .tc S1x1024 32 [1] hi) h3 (ix2 r s) = BitVec.ofNat 32 s.val := by
    refine (broadcastTo_apply (iota .tc S1x1024 32 [1] hi) h3 (ix2 r s) (ix2 0 s) (fun a => match a with
      | ⟨0, _⟩ => by show 0 = if (1 : Nat) = 1 then 0 else r.val; rw [if_pos rfl]
      | ⟨1, _⟩ => by show s.val = if (1024 : Nat) = 1 then 0 else s.val; rw [if_neg (by decide)])).trans ?_
    exact iota_single_apply .tc S1x1024 32 1 hi (ix2 0 s)
  show FloatOps.sitofp (F := Ideal) .f32 ((IntOp.cmpi .eq (broadcastTo S2000x1024 (shapeCast S2000x1 ei h1) h2 (ix2 r s))
      (broadcastTo S2000x1024 (iota .tc S1x1024 32 [1] hi) h3 (ix2 r s))).setWidth 32) = _
  rw [e1, e2]
  exact sitofp_cmp_eq_ind _ _

theorem lhs_gather_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem lhs_gather_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
theorem rhs_gather_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
theorem rhs_gather_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- The matrix product of a chunk's rows with a table, into a zero accumulator, at an entry: the sum over the
    1024 segments of the row's entry times the table's. -/
theorem chunk_matmul_apply (M : FVec Ideal S2000x1024 .bf16) (T : FVec Ideal S1024x128 .bf16) (r : Fin 2000) (d : Fin 128) :
    FloatOps.matmul dot_S2000x1024_S1024x128_S2000x128_1_0_0_1_n_n none M T (constant S2000x128 .f32 0x00000000#32) (ix2 r d)
      = ∑ s : Fin 1024, M (ix2 r s) * T (ix2 s d) := by
  rw [Ideal.matmul_constant_zero_apply, ← Equiv.sum_comp (ValueIdx.contrEquiv1 dot_S2000x1024_S1024x128_S2000x128_1_0_0_1_n_n 1024 rfl rfl).symm]
  refine Finset.sum_congr rfl fun k _ => ?_
  have hk := ValueIdx.contrEquiv1_symm_val dot_S2000x1024_S1024x128_S2000x128_1_0_0_1_n_n 1024 rfl rfl k
  have el : dot_S2000x1024_S1024x128_S2000x128_1_0_0_1_n_n.lhsIdx (ix2 r d) ((ValueIdx.contrEquiv1 dot_S2000x1024_S1024x128_S2000x128_1_0_0_1_n_n 1024 rfl rfl).symm k) = ix2 r k := funext fun a => Fin.ext (by
    match a with
    | ⟨0, _⟩ => exact lhs_gather_0 _ _
    | ⟨1, _⟩ => exact (lhs_gather_1 _ _).trans hk)
  have er : dot_S2000x1024_S1024x128_S2000x128_1_0_0_1_n_n.rhsIdx (ix2 r d) ((ValueIdx.contrEquiv1 dot_S2000x1024_S1024x128_S2000x128_1_0_0_1_n_n 1024 rfl rfl).symm k) = ix2 k d := funext fun a => Fin.ext (by
    match a with
    | ⟨0, _⟩ => exact (rhs_gather_0 _ _).trans hk
    | ⟨1, _⟩ => exact rhs_gather_1 _ _)
  rw [el, er]

/-- A chunk's product with a table when its rows are the indicator rows of the chunk's ids. -/
theorem chunk_gather_apply (M : FVec Ideal S2000x1024 .bf16) (ei : Vec Ideal S2000x1 .i32)
    (hM : ∀ (r : Fin 2000) (s : Fin 1024), M (ix2 r s) = ind (ei (ix2 r 0)) s)
    (T : FVec Ideal S1024x128 .bf16) (r : Fin 2000) (d : Fin 128) :
    FloatOps.matmul dot_S2000x1024_S1024x128_S2000x128_1_0_0_1_n_n none M T (constant S2000x128 .f32 0x00000000#32) (ix2 r d)
      = ∑ s : Fin 1024, ind (ei (ix2 r 0)) s * T (ix2 s d) := by
  rw [chunk_matmul_apply]
  exact Finset.sum_congr rfl fun s _ => by rw [hM]

/-- Chunk 0 at an entry. -/
theorem k1_pay6_apply (v1 v3 : Vec Ideal S1024x128 .bf16) (v5 : Vec Ideal S2000x1 .i32) (r : Fin 2000) (d : Fin 128) :
    k1_pay6 v1 v3 v5 (ix2 r d)
      = (∑ s : Fin 1024, ind (v5 (ix2 r 0)) s * v1 (ix2 s d)) + (∑ s : Fin 1024, ind (v5 (ix2 r 0)) s * v3 (ix2 s d)) := by
  unfold k1_pay6 k1_pay4 k1_pay5
  simp only [shapeCast_self (s := S1024x128)]
  exact congrArg₂ (· + ·)
    (chunk_gather_apply _ v5 (fun r s => indRows_apply v5 _ _ _ _ _ _ r s) v1 r d)
    (chunk_gather_apply _ v5 (fun r s => indRows_apply v5 _ _ _ _ _ _ r s) v3 r d)

/-- Chunk 1 at an entry. -/
theorem k1_pay7_apply (v1 v3 : Vec Ideal S1024x128 .bf16) (v17 : Vec Ideal S2000x1 .i32) (r : Fin 2000) (d : Fin 128) :
    k1_pay7 v1 v3 v17 (ix2 r d)
      = (∑ s : Fin 1024, ind (v17 (ix2 r 0)) s * v1 (ix2 s d)) + (∑ s : Fin 1024, ind (v17 (ix2 r 0)) s * v3 (ix2 s d)) := by
  unfold k1_pay7 k1_pay4 k1_pay5
  simp only [shapeCast_self (s := S1024x128)]
  exact congrArg₂ (· + ·)
    (chunk_gather_apply _ v17 (fun r s => indRows_apply v17 _ _ _ _ _ _ r s) v1 r d)
    (chunk_gather_apply _ v17 (fun r s => indRows_apply v17 _ _ _ _ _ _ r s) v3 r d)

/-- Chunk 2 at an entry: its first product was formed before the second. -/
theorem k1_pay1_apply (v1 v3 : Vec Ideal S1024x128 .bf16) (v29 : Vec Ideal S2000x1 .i32) (r : Fin 2000) (d : Fin 128) :
    k1_pay1 (k1_pay5 v3) (k1_pay8 v29) (k1_pay9 v1 v29) (ix2 r d)
      = (∑ s : Fin 1024, ind (v29 (ix2 r 0)) s * v1 (ix2 s d)) + (∑ s : Fin 1024, ind (v29 (ix2 r 0)) s * v3 (ix2 s d)) := by
  unfold k1_pay1 k1_pay9 k1_pay8 k1_pay4 k1_pay5
  simp only [shapeCast_self (s := S1024x128)]
  exact congrArg₂ (· + ·)
    (chunk_gather_apply _ v29 (fun r s => indRows_apply v29 _ _ _ _ _ _ r s) v1 r d)
    (chunk_gather_apply _ v29 (fun r s => indRows_apply v29 _ _ _ _ _ _ r s) v3 r d)

/-- Chunk 3 at an entry. -/
theorem k1_pay2_apply (v1 v3 : Vec Ideal S1024x128 .bf16) (v41 : Vec Ideal S2000x1 .i32) (r : Fin 2000) (d : Fin 128) :
    k1_pay2 laneIds (k1_pay4 v1) (k1_pay5 v3) v41 (ix2 r d)
      = (∑ s : Fin 1024, ind (v41 (ix2 r 0)) s * v1 (ix2 s d)) + (∑ s : Fin 1024, ind (v41 (ix2 r 0)) s * v3 (ix2 s d)) := by
  unfold k1_pay2 k1_pay4 k1_pay5
  simp only [shapeCast_self (s := S1024x128)]
  exact congrArg₂ (· + ·)
    (chunk_gather_apply _ v41 (fun r s => indRows_apply v41 _ _ _ _ _ _ r s) v1 r d)
    (chunk_gather_apply _ v41 (fun r s => indRows_apply v41 _ _ _ _ _ _ r s) v3 r d)

/-- Chunk 4 at an entry. -/
theorem k1_pay3_apply (v1 v3 : Vec Ideal S1024x128 .bf16) (v53 : Vec Ideal S2000x1 .i32) (r : Fin 2000) (d : Fin 128) :
    k1_pay3 laneIds (k1_pay4 v1) (k1_pay5 v3) v53 (ix2 r d)
      = (∑ s : Fin 1024, ind (v53 (ix2 r 0)) s * v1 (ix2 s d)) + (∑ s : Fin 1024, ind (v53 (ix2 r 0)) s * v3 (ix2 s d)) := by
  unfold k1_pay3 k1_pay4 k1_pay5
  simp only [shapeCast_self (s := S1024x128)]
  exact congrArg₂ (· + ·)
    (chunk_gather_apply _ v53 (fun r s => indRows_apply v53 _ _ _ _ _ _ r s) v1 r d)
    (chunk_gather_apply _ v53 (fun r s => indRows_apply v53 _ _ _ _ _ _ r s) v3 r d)

/-! ## One grid point: the block's 10000 rows -/

/-- Row R of a block at lane d: the indicator row of the row's id times the first table, plus the same row
    times the second. -/
def gRow (eiB : Vec Ideal S10000x1 .i32) (hi lo : Vec Ideal S1024x128 .bf16) (R : Fin 10000) (d : Fin 128) : EReal :=
  (∑ s : Fin 1024, ind (eiB (ix2 R 0)) s * hi (ix2 s d)) + (∑ s : Fin 1024, ind (eiB (ix2 R 0)) s * lo (ix2 s d))

/-- The same, as a function of the block's index. -/
def gBlk (eiB : Vec Ideal S10000x1 .i32) (hi lo : Vec Ideal S1024x128 .bf16) : Vec Ideal S10000x128 .f32 :=
  fun y => gRow eiB hi lo ⟨(y 0).val, (y 0).isLt⟩ ⟨(y 1).val, (y 1).isLt⟩

theorem hz2 : (![0, 0] : Fin 2 → Nat) = fun _ => 0 := funext fun a => by fin_cases a <;> rfl

/-- A chunk of 2000 rows that starts at row off: its payload is the block's function on its rectangle. -/
theorem piece_eq (eiB : Vec Ideal S10000x1 .i32) (hi lo : Vec Ideal S1024x128 .bf16) (off : Nat) (hoff : off + 2000 ≤ 10000)
    (inbI : ∀ a, (![off, 0] : Fin 2 → Nat) a + S2000x1.size a ≤ S10000x1.size a)
    (inbQ : ∀ a, (![off, 0] : Fin 2 → Nat) a + S2000x128.size a ≤ S10000x128.size a)
    (P : FVec Ideal S2000x128 .f32)
    (hP : ∀ (r : Fin 2000) (d : Fin 128), P (ix2 r d)
      = (∑ s : Fin 1024, ind (View.ld eiB (Rect.unit (s := S10000x1) ![off, 0] S2000x1.size inbI) (ix2 r 0)) s * hi (ix2 s d))
        + (∑ s : Fin 1024, ind (View.ld eiB (Rect.unit (s := S10000x1) ![off, 0] S2000x1.size inbI) (ix2 r 0)) s * lo (ix2 s d)))
    (x : (Rect.unit (s := S10000x128) ![off, 0] S2000x128.size inbQ).shape.Idx) :
    P x = gBlk eiB hi lo ((Rect.unit (s := S10000x128) ![off, 0] S2000x128.size inbQ).emb x) := by
  obtain ⟨r, d, rfl⟩ : ∃ (r : Fin 2000) (d : Fin 128), x = ix2 r d := ⟨x 0, x 1, eq_ix2 x⟩
  rw [hP]
  unfold gBlk gRow
  have e0 : (⟨((Rect.unit (s := S10000x128) ![off, 0] S2000x128.size inbQ).emb (ix2 r d) 0).val,
      ((Rect.unit (s := S10000x128) ![off, 0] S2000x128.size inbQ).emb (ix2 r d) 0).isLt⟩ : Fin 10000) = ⟨off + r.val, by omega⟩ :=
    Fin.ext (by show off + 1 * r.val = off + r.val; omega)
  have e1 : (⟨((Rect.unit (s := S10000x128) ![off, 0] S2000x128.size inbQ).emb (ix2 r d) 1).val,
      ((Rect.unit (s := S10000x128) ![off, 0] S2000x128.size inbQ).emb (ix2 r d) 1).isLt⟩ : Fin 128) = d :=
    Fin.ext (by show 0 + 1 * d.val = d.val; omega)
  rw [e0, e1]
  have e2 : (Rect.unit (s := S10000x1) ![off, 0] S2000x1.size inbI).idx (ix2 r 0) = ix2 (⟨off + r.val, by omega⟩ : Fin 10000) (0 : Fin 1) :=
    funext fun a => Fin.ext (by
      match a with
      | ⟨0, _⟩ => show off + 1 * r.val = off + r.val; omega
      | ⟨1, _⟩ => show 0 + 1 * 0 = 0; rfl)
  show (∑ s : Fin 1024, ind (eiB ((Rect.unit (s := S10000x1) ![off, 0] S2000x1.size inbI).idx (ix2 r 0))) s * hi (ix2 s d))
        + (∑ s : Fin 1024, ind (eiB ((Rect.unit (s := S10000x1) ![off, 0] S2000x1.size inbI).idx (ix2 r 0))) s * lo (ix2 s d)) = _
  rw [e2]

/-- What one grid point leaves in its block, entry by entry. -/
theorem gatherOut_eq (eiB : Vec Ideal S10000x1 .i32) (hi lo : Vec Ideal S1024x128 .bf16) :
    gatherOut eiB hi lo = gBlk eiB hi lo := by
  funext y
  unfold gatherOut
  have hhi : View.ld hi rT = hi := View.ld_unit_zero hz2 _ hi
  have hlo : View.ld lo rT = lo := View.ld_unit_zero hz2 _ lo
  rw [hhi, hlo]
  refine View.canon_apply_of_pieces (gBlk eiB hi lo) _ ?_ y ?_
  · intro p hp x
    simp only [List.mem_cons, List.not_mem_nil, or_false] at hp
    rcases hp with rfl | rfl | rfl | rfl | rfl
    · exact piece_eq eiB hi lo 8000 (by norm_num) inb_S10000x1_S2000x1_8000_0 inb_S10000x128_S2000x128_8000_0
        (k1_pay3 laneIds (k1_pay4 hi) (k1_pay5 lo) (View.ld eiB rI4)) (fun r d => k1_pay3_apply hi lo (View.ld eiB rI4) r d) x
    · exact piece_eq eiB hi lo 6000 (by norm_num) inb_S10000x1_S2000x1_6000_0 inb_S10000x128_S2000x128_6000_0
        (k1_pay2 laneIds (k1_pay4 hi) (k1_pay5 lo) (View.ld eiB rI3)) (fun r d => k1_pay2_apply hi lo (View.ld eiB rI3) r d) x
    · exact piece_eq eiB hi lo 4000 (by norm_num) inb_S10000x1_S2000x1_4000_0 inb_S10000x128_S2000x128_4000_0
        (k1_pay1 (k1_pay5 lo) (k1_pay8 (View.ld eiB rI2)) (k1_pay9 hi (View.ld eiB rI2))) (fun r d => k1_pay1_apply hi lo (View.ld eiB rI2) r d) x
    · exact piece_eq eiB hi lo 2000 (by norm_num) inb_S10000x1_S2000x1_2000_0 inb_S10000x128_S2000x128_2000_0
        (k1_pay7 hi lo (View.ld eiB rI1)) (fun r d => k1_pay7_apply hi lo (View.ld eiB rI1) r d) x
    · exact piece_eq eiB hi lo 0 (by norm_num) inb_S10000x1_S2000x1_0_0 inb_S10000x128_S2000x128_0_0
        (k1_pay6 hi lo (View.ld eiB rI0)) (fun r d => k1_pay6_apply hi lo (View.ld eiB rI0) r d) x
  · have h0 : (y 0).val < 10000 := (y 0).isLt
    have h1 : (y 1).val < 128 := (y 1).isLt
    by_cases c4 : 8000 ≤ (y 0).val
    · refine ⟨_, List.mem_cons_self, ?_⟩
      rw [Rect.mem_set_unit]
      intro a
      match a with
      | ⟨0, _⟩ => show 8000 ≤ (y 0).val ∧ (y 0).val < 8000 + 2000; omega
      | ⟨1, _⟩ => show 0 ≤ (y 1).val ∧ (y 1).val < 0 + 128; omega
    by_cases c3 : 6000 ≤ (y 0).val
    · refine ⟨_, List.mem_cons_of_mem _ List.mem_cons_self, ?_⟩
      rw [Rect.mem_set_unit]
      intro a
      match a with
      | ⟨0, _⟩ => show 6000 ≤ (y 0).val ∧ (y 0).val < 6000 + 2000; omega
      | ⟨1, _⟩ => show 0 ≤ (y 1).val ∧ (y 1).val < 0 + 128; omega
    by_cases c2 : 4000 ≤ (y 0).val
    · refine ⟨_, List.mem_cons_of_mem _ (List.mem_cons_of_mem _ List.mem_cons_self), ?_⟩
      rw [Rect.mem_set_unit]
      intro a
      match a with
      | ⟨0, _⟩ => show 4000 ≤ (y 0).val ∧ (y 0).val < 4000 + 2000; omega
      | ⟨1, _⟩ => show 0 ≤ (y 1).val ∧ (y 1).val < 0 + 128; omega
    by_cases c1 : 2000 ≤ (y 0).val
    · refine ⟨_, List.mem_cons_of_mem _ (List.mem_cons_of_mem _ (List.mem_cons_of_mem _ List.mem_cons_self)), ?_⟩
      rw [Rect.mem_set_unit]
      intro a
      match a with
      | ⟨0, _⟩ => show 2000 ≤ (y 0).val ∧ (y 0).val < 2000 + 2000; omega
      | ⟨1, _⟩ => show 0 ≤ (y 1).val ∧ (y 1).val < 0 + 128; omega
    · refine ⟨_, List.mem_cons_of_mem _ (List.mem_cons_of_mem _ (List.mem_cons_of_mem _ (List.mem_cons_of_mem _ List.mem_cons_self))), ?_⟩
      rw [Rect.mem_set_unit]
      intro a
      match a with
      | ⟨0, _⟩ => show 0 ≤ (y 0).val ∧ (y 0).val < 0 + 2000; omega
      | ⟨1, _⟩ => show 0 ≤ (y 1).val ∧ (y 1).val < 0 + 128; omega

/-! ## The array: fifty blocks of 10000 rows -/

section
variable (V : (c : Dev nD) → (b : Ref sig .tc) → Buf (Elt Ideal) ((c : Thread nD τ).loc b))

/-- Row t of the result at lane d, from the arrays the region is entered with. -/
def gArr (c : Dev nD) (t : Fin 500000) (d : Fin 128) : EReal :=
  (∑ s : Fin 1024, ind (V c main_v29 (ix2 t 0)) s * V c main_v25 (ix2 s d))
    + (∑ s : Fin 1024, ind (V c main_v29 (ix2 t 0)) s * V c main_v28 (ix2 s d))

/-- The same, as a function of the array's index. -/
def gFull (c : Dev nD) : S500000x128.Idx → Elt Ideal .f32 :=
  fun i => gArr V c ⟨(i 0).val, (i 0).isLt⟩ ⟨(i 1).val, (i 1).isLt⟩

/-- The block indices over the grid: the ids and the result move with the point, the tables stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem N50 : cfg1.N = 50 := N_1

/-- The ids' block at point p: rows 10000 p onward of the id column. -/
theorem iblk1_0_apply (c : Dev nD) (p : Fin cfg1.N) (r : Fin 10000) :
    iblk1 (F := Ideal) V c 0 p (ix2 r 0)
      = V c main_v29 (ix2 (⟨p.val * 10000 + r.val, by have := lt_of_lt_of_eq p.isLt N50; have := r.isLt; omega⟩ : Fin 500000) 0) := by
  obtain ⟨e0, e1, -⟩ := idx_facts1 p
  show V c main_v29 (((cfg1.win 0).blk p).view.emb (ix2 r 0)) = _
  refine congrArg (V c main_v29) (funext fun a => Fin.ext ?_)
  match a with
  | ⟨0, _⟩ => show win1_0.index p (0 : Fin 2) * 10000 + 1 * r.val = p.val * 10000 + r.val; omega
  | ⟨1, _⟩ => show win1_0.index p (1 : Fin 2) * 1 + 1 * 0 = 0; omega

/-- The first table's block at any point: the whole table. -/
theorem iblk1_1_eq (c : Dev nD) (p : Fin cfg1.N) : (iblk1 (F := Ideal) V c 1 p : Vec Ideal S1024x128 .bf16) = V c main_v25 := by
  obtain ⟨-, -, e2, e3, -⟩ := idx_facts1 p
  funext k
  show V c main_v25 (((cfg1.win 1).blk p).view.emb k) = V c main_v25 k
  refine congrArg (V c main_v25) (funext fun a => Fin.ext ?_)
  match a with
  | ⟨0, _⟩ => show win1_1.index p (0 : Fin 2) * 1024 + 1 * (k 0).val = (k 0).val; omega
  | ⟨1, _⟩ => show win1_1.index p (1 : Fin 2) * 128 + 1 * (k 1).val = (k 1).val; omega

/-- The second table's block at any point: the whole table. -/
theorem iblk1_2_eq (c : Dev nD) (p : Fin cfg1.N) : (iblk1 (F := Ideal) V c 2 p : Vec Ideal S1024x128 .bf16) = V c main_v28 := by
  obtain ⟨-, -, -, -, e4, e5, -⟩ := idx_facts1 p
  funext k
  show V c main_v28 (((cfg1.win 2).blk p).view.emb k) = V c main_v28 k
  refine congrArg (V c main_v28) (funext fun a => Fin.ext ?_)
  match a with
  | ⟨0, _⟩ => show win1_2.index p (0 : Fin 2) * 1024 + 1 * (k 0).val = (k 0).val; omega
  | ⟨1, _⟩ => show win1_2.index p (1 : Fin 2) * 128 + 1 * (k 1).val = (k 1).val; omega

/-- What point p writes back is block p of the one function of the entry arrays. -/
theorem flushed3_eq (c : Dev nD) (p : Fin cfg1.N) :
    (dat1 (F := Ideal) V c).flushed 3 p = ((cfg1.win 3).blk p).view.read (Elt Ideal) (gFull V c) := by
  show (cfg1.win 3).cut (grid1.coords p) ((dat1 (F := Ideal) V c).after 3 p) = _
  rw [after1_3, gatherOut_eq]
  obtain ⟨-, -, -, -, -, -, e6, e7⟩ := idx_facts1 p
  have hp : p.val < 50 := lt_of_lt_of_eq p.isLt N50
  funext j
  obtain ⟨r, d, rfl⟩ : ∃ (r : Fin 10000) (d : Fin 128), j = ix2 r d := ⟨j 0, j 1, eq_ix2 j⟩
  have hL : (cfg1.win 3).cut (grid1.coords p) (gBlk (iblk1 (F := Ideal) V c 0 p) (iblk1 (F := Ideal) V c 1 p) (iblk1 (F := Ideal) V c 2 p)) (ix2 r d)
      = gRow (iblk1 (F := Ideal) V c 0 p) (iblk1 (F := Ideal) V c 1 p) (iblk1 (F := Ideal) V c 2 p) r d := rfl
  have hR : ((cfg1.win 3).blk p).view.read (Elt Ideal) (gFull V c) (ix2 r d)
      = gArr V c (⟨p.val * 10000 + r.val, by have := r.isLt; omega⟩ : Fin 500000) d := by
    show gArr V c ⟨(((cfg1.win 3).blk p).view.emb (ix2 r d) 0).val, (((cfg1.win 3).blk p).view.emb (ix2 r d) 0).isLt⟩
      ⟨(((cfg1.win 3).blk p).view.emb (ix2 r d) 1).val, (((cfg1.win 3).blk p).view.emb (ix2 r d) 1).isLt⟩ = _
    have c0 : (⟨(((cfg1.win 3).blk p).view.emb (ix2 r d) 0).val, (((cfg1.win 3).blk p).view.emb (ix2 r d) 0).isLt⟩ : Fin 500000)
        = ⟨p.val * 10000 + r.val, by have := r.isLt; omega⟩ :=
      Fin.ext (by show win1_3.index p (0 : Fin 2) * 10000 + 1 * r.val = p.val * 10000 + r.val; omega)
    have c1 : (⟨(((cfg1.win 3).blk p).view.emb (ix2 r d) 1).val, (((cfg1.win 3).blk p).view.emb (ix2 r d) 1).isLt⟩ : Fin 128) = d :=
      Fin.ext (by show win1_3.index p (1 : Fin 2) * 128 + 1 * d.val = d.val; omega)
    rw [c0, c1]
  rw [hL, hR]
  unfold gRow gArr
  rw [iblk1_0_apply, iblk1_1_eq, iblk1_2_eq]

/-- An index of the result array is in point p's block iff each coordinate is in the block's range. -/
theorem mem_blk3 (p : Fin cfg1.N) (i : S500000x128.Idx) :
    i ∈ ((cfg1.win 3).blk p).view.set ↔ ∀ a : Fin 2, win1_3.index p a * S10000x128.size a ≤ (i a).val
      ∧ (i a).val < win1_3.index p a * S10000x128.size a + S10000x128.size a := by
  show i ∈ ((View.whole main_v30).slice (win1_3.rect p)).set ↔ _
  rw [View.set_slice_whole, Rect.mem_set_unit]
  exact Iff.rfl

/-- The fifty blocks cover the result array: row i is in block i / 10000. -/
theorem cover3 (i : S500000x128.Idx) :
    ∃ p : Fin cfg1.N, (cfg1.win 3).flush p = true ∧ i ∈ ((cfg1.win 3).blk p).view.set := by
  have hi0 : (i 0).val < 500000 := (i 0).isLt
  have hi1 : (i 1).val < 128 := (i 1).isLt
  have hq : (i 0).val / 10000 < cfg1.N := lt_of_lt_of_eq (by omega : (i 0).val / 10000 < 50) N50.symm
  obtain ⟨-, -, -, -, -, -, e6, e7⟩ := idx_facts1 ⟨(i 0).val / 10000, hq⟩
  refine ⟨⟨(i 0).val / 10000, hq⟩, flush1_3 _, ?_⟩
  rw [mem_blk3]
  intro a
  match a with
  | ⟨0, _⟩ =>
    show win1_3.index ⟨(i 0).val / 10000, hq⟩ (0 : Fin 2) * 10000 ≤ (i 0).val
      ∧ (i 0).val < win1_3.index ⟨(i 0).val / 10000, hq⟩ (0 : Fin 2) * 10000 + 10000
    have e6' : win1_3.index ⟨(i 0).val / 10000, hq⟩ (0 : Fin 2) = (i 0).val / 10000 := e6
    omega
  | ⟨1, _⟩ =>
    show win1_3.index ⟨(i 0).val / 10000, hq⟩ (1 : Fin 2) * 128 ≤ (i 1).val
      ∧ (i 1).val < win1_3.index ⟨(i 0).val / 10000, hq⟩ (1 : Fin 2) * 128 + 128
    omega

/-- The result array after the region, entry by entry. -/
theorem out_value (c : Dev nD) (t : Fin 500000) (d : Fin 128) :
    (dat1 (F := Ideal) V c).arrAt 3 cfg1.N (ix2 t d)
      = (∑ s : Fin 1024, ind (V c main_v29 (ix2 t 0)) s * V c main_v25 (ix2 s d))
        + (∑ s : Fin 1024, ind (V c main_v29 (ix2 t 0)) s * V c main_v28 (ix2 s d)) := by
  have h := (dat1 (F := Ideal) V c).arrAt_eq_of_cover 3 (gFull V c) (fun p _ => flushed3_eq V c p) cover3
  exact (congrFun h (ix2 t d)).trans rfl

end

end Cert.KernelIdeal.HandValue

end
-- ==== Proof.KI.Glue.lean ====
/-
  What the host operations around the two regions compute, over the extended reals, entry by entry.  Before
  the first region: the four feature arrays and the id array are re-laid as two halves of 250000 edges, and the
  four weight arrays are narrowed, which changes no value over the extended reals.  Between the regions: the
  two halves' sums are added, the two halves' counts are added and raised to at least one, the quotient is the
  table of means; the second table is the residue of the table against its own narrowing, that is the table
  minus itself; and the id array is re-laid as a column.
-/
import proofs.«411350_j36593121362170_3_alg».proof.Proof.KI.Fold
import proofs.«411350_j36593121362170_3_alg».proof.Proof.Math.Spec
import Idealize.ShloMosaic.Lib.Pipeline.Value
import Idealize.ShloMosaic.Lib.ValueLayout
import Idealize.ShloMosaic.Lib.StableHlo.Run
import Idealize.ShloMosaic.Lib.IdealHost

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.SegMean

/-! ## Re-layings read at an index -/

/-- A [500000,128] array re-laid as two halves reads, at (half, edge, feature), the array at the half's edge: both
    positions are (half · 250000 + edge) · 128 + feature in row-major order. -/
theorem halves_apply {α : Type} (x : S500000x128.Idx → α) (cc : Fin 2) (r : Fin 250000) (k : Fin 128) :
    shapeCast S2x250000x128 x shapeCasts_S500000x128_S2x250000x128 (ix3 cc r k) = x (ix2 (half cc r) k) := by
  refine shapeCast_apply _ _ _ _ ?_
  rw [Shape.rowMajor_val_two, Shape.rowMajor_val_three]
  rfl
/-- A [500000] array re-laid as two halves of unit rows reads, at (half, edge, 0), the array at the half's edge. -/
theorem halves1_apply {α : Type} (x : S500000.Idx → α) (cc : Fin 2) (r : Fin 250000) :
    shapeCast S2x250000x1 x shapeCasts_S500000_S2x250000x1 (ix3 cc r 0) = x (ix1 (half cc r)) := by
  refine shapeCast_apply _ _ _ _ ?_
  rw [Shape.rowMajor_val_one, Shape.rowMajor_val_three]
  show (half cc r).val = (cc.val * 250000 + r.val) * 1 + 0
  show cc.val * 250000 + r.val = _
  omega
/-- A [500000] array re-laid as a column reads, at (edge, 0), the array at the edge. -/
theorem column_apply {α : Type} (x : S500000.Idx → α) (t : Fin 500000) :
    shapeCast S500000x1 x shapeCasts_S500000_S500000x1 (ix2 t 0) = x (ix1 t) := by
  refine shapeCast_apply _ _ _ _ ?_
  rw [Shape.rowMajor_val_one, Shape.rowMajor_val_two]
  show t.val = t.val * 1 + 0
  omega

/-! ## The halves of the first region's results read at an index -/

/-- Half 0 of the two halves' sums as a table (the slice at offset 0 along the halves, its unit axis dropped) reads,
    at (segment, feature), the array at (0, segment, feature). -/
theorem sumHalf0_apply {α : Type} (A : S2x1024x128.Idx → α) (s : Fin 1024) (d : Fin 128) :
    shapeCast S1024x128 (extractStridedSlice S1x1024x128 ![0, 0, 0] A slices_S2x1024x128_S1x1024x128_0_0_0)
        shapeCasts_S1x1024x128_S1024x128 (ix2 s d) = A (ix3 0 s d) := by
  refine (shapeCast_apply _ _ (ix2 s d) (ix3 0 s d) ?_).trans ?_
  · rw [Shape.rowMajor_val_three, Shape.rowMajor_val_two]
    show (0 * 1024 + s.val) * 128 + d.val = s.val * 128 + d.val
    omega
  · refine extractStridedSlice_apply _ _ _ _ _ fun a => ?_
    match a with
    | ⟨0, _⟩ => rfl
    | ⟨1, _⟩ => exact (Nat.zero_add _).symm
    | ⟨2, _⟩ => exact (Nat.zero_add _).symm
/-- Half 1 likewise: the slice at offset 1 reads the array at (1, segment, feature). -/
theorem sumHalf1_apply {α : Type} (A : S2x1024x128.Idx → α) (s : Fin 1024) (d : Fin 128) :
    shapeCast S1024x128 (extractStridedSlice S1x1024x128 ![1, 0, 0] A slices_S2x1024x128_S1x1024x128_1_0_0)
        shapeCasts_S1x1024x128_S1024x128 (ix2 s d) = A (ix3 1 s d) := by
  refine (shapeCast_apply _ _ (ix2 s d) (ix3 0 s d) ?_).trans ?_
  · rw [Shape.rowMajor_val_three, Shape.rowMajor_val_two]
    show (0 * 1024 + s.val) * 128 + d.val = s.val * 128 + d.val
    omega
  · refine extractStridedSlice_apply _ _ _ _ _ fun a => ?_
    match a with
    | ⟨0, _⟩ => rfl
    | ⟨1, _⟩ => exact (Nat.zero_add _).symm
    | ⟨2, _⟩ => exact (Nat.zero_add _).symm
/-- Half 0 of the two halves' counts as a row of 1024 reads, at a segment, the array at (0, 0, segment). -/
theorem cntHalf0_apply {α : Type} (B : S2x1x1024.Idx → α) (s : Fin 1024) :
    shapeCast S1024 (extractStridedSlice S1x1x1024 ![0, 0, 0] B slices_S2x1x1024_S1x1x1024_0_0_0)
        shapeCasts_S1x1x1024_S1024 (ix1 s) = B (ix3 0 0 s) := by
  refine (shapeCast_apply _ _ (ix1 s) (ix3 0 0 s) ?_).trans ?_
  · rw [Shape.rowMajor_val_three, Shape.rowMajor_val_one]
    show (0 * 1 + 0) * 1024 + s.val = s.val
    omega
  · refine extractStridedSlice_apply _ _ _ _ _ fun a => ?_
    match a with
    | ⟨0, _⟩ => rfl
    | ⟨1, _⟩ => rfl
    | ⟨2, _⟩ => exact (Nat.zero_add _).symm
/-- Half 1 likewise: the array at (1, 0, segment). -/
theorem cntHalf1_apply {α : Type} (B : S2x1x1024.Idx → α) (s : Fin 1024) :
    shapeCast S1024 (extractStridedSlice S1x1x1024 ![1, 0, 0] B slices_S2x1x1024_S1x1x1024_1_0_0)
        shapeCasts_S1x1x1024_S1024 (ix1 s) = B (ix3 1 0 s) := by
  refine (shapeCast_apply _ _ (ix1 s) (ix3 0 0 s) ?_).trans ?_
  · rw [Shape.rowMajor_val_three, Shape.rowMajor_val_one]
    show (0 * 1 + 0) * 1024 + s.val = s.val
    omega
  · refine extractStridedSlice_apply _ _ _ _ _ fun a => ?_
    match a with
    | ⟨0, _⟩ => rfl
    | ⟨1, _⟩ => rfl
    | ⟨2, _⟩ => exact (Nat.zero_add _).symm

/-! ## The operations between the regions, stage by stage, as functions of the first region's two results -/

/-- The two halves' sums added. -/
abbrev sumsAdded (A : FVec Ideal S2x1024x128 .f32) : FVec Ideal S1024x128 .f32 :=
  addf (shapeCast S1024x128 (extractStridedSlice S1x1024x128 ![0, 0, 0] A slices_S2x1024x128_S1x1024x128_0_0_0)
          shapeCasts_S1x1024x128_S1024x128)
       (shapeCast S1024x128 (extractStridedSlice S1x1024x128 ![1, 0, 0] A slices_S2x1024x128_S1x1024x128_1_0_0)
          shapeCasts_S1x1024x128_S1024x128)
/-- The two halves' counts added. -/
abbrev cntsAdded (B : FVec Ideal S2x1x1024 .f32) : FVec Ideal S1024 .f32 :=
  addf (shapeCast S1024 (extractStridedSlice S1x1x1024 ![0, 0, 0] B slices_S2x1x1024_S1x1x1024_0_0_0)
          shapeCasts_S1x1x1024_S1024)
       (shapeCast S1024 (extractStridedSlice S1x1x1024 ![1, 0, 0] B slices_S2x1x1024_S1x1x1024_1_0_0)
          shapeCasts_S1x1x1024_S1024)
/-- The added counts as a column, raised to at least the constant one. -/
abbrev cntsRaised (B : FVec Ideal S2x1x1024 .f32) : FVec Ideal S1024x1 .f32 :=
  maximumf (broadcastInDim S1024x1 ![0] bcast_S1024_S1024x1_0 (cntsAdded B))
    (broadcastInDim S1024x1 ![] bcast_S_S1024x1 (constant (F := Ideal) S_ .f32 0x3F800000#32))
/-- The quotient: the added sums over the raised counts spread along the features. -/
abbrev quot (A : FVec Ideal S2x1024x128 .f32) (B : FVec Ideal S2x1x1024 .f32) : FVec Ideal S1024x128 .f32 :=
  Host.divf (sumsAdded A) (broadcastInDim S1024x128 ![0, 1] bcast_S1024x1_S1024x128_0_1 (cntsRaised B))

theorem sumsAdded_apply (A : FVec Ideal S2x1024x128 .f32) (s : Fin 1024) (d : Fin 128) :
    sumsAdded A (ix2 s d) = A (ix3 0 s d) + A (ix3 1 s d) := by
  show shapeCast S1024x128 _ _ (ix2 s d) + shapeCast S1024x128 _ _ (ix2 s d) = _
  rw [sumHalf0_apply, sumHalf1_apply]
theorem cntsAdded_apply (B : FVec Ideal S2x1x1024 .f32) (s : Fin 1024) :
    cntsAdded B (ix1 s) = B (ix3 0 0 s) + B (ix3 1 0 s) := by
  show shapeCast S1024 _ _ (ix1 s) + shapeCast S1024 _ _ (ix1 s) = _
  rw [cntHalf0_apply, cntHalf1_apply]
theorem cntsRaised_apply (B : FVec Ideal S2x1x1024 .f32) (s : Fin 1024) :
    cntsRaised B (ix2 s 0) = max (B (ix3 0 0 s) + B (ix3 1 0 s)) 1 := by
  show max (broadcastInDim S1024x1 ![0] bcast_S1024_S1024x1_0 (cntsAdded B) (ix2 s 0))
      (broadcastInDim S1024x1 ![] bcast_S_S1024x1 (constant (F := Ideal) S_ .f32 0x3F800000#32) (ix2 s 0)) = _
  rw [broadcastInDim_scalar_apply, constant_apply, Ideal.ofBits_one_f32,
    broadcastInDim_apply _ _ _ (ix2 s 0) (ix1 s) (fun a => match a with | ⟨0, _⟩ => rfl), cntsAdded_apply]
theorem quot_apply (A : FVec Ideal S2x1024x128 .f32) (B : FVec Ideal S2x1x1024 .f32) (s : Fin 1024) (d : Fin 128) :
    quot A B (ix2 s d) = Ideal.div (A (ix3 0 s d) + A (ix3 1 s d)) (max (B (ix3 0 0 s) + B (ix3 1 0 s)) 1) := by
  show Ideal.div (sumsAdded A (ix2 s d)) (broadcastInDim S1024x128 ![0, 1] bcast_S1024x1_S1024x128_0_1 (cntsRaised B) (ix2 s d)) = _
  rw [sumsAdded_apply, broadcastInDim_apply _ _ _ (ix2 s d) (ix2 s 0)
    (fun a => match a with | ⟨0, _⟩ => rfl | ⟨1, _⟩ => rfl), cntsRaised_apply]

section
variable (m : (ℓ : Loc nD τ sig) → Buf (Elt Ideal) ℓ) (ρ : Dev nD → PrngReg)

/-! ## At the first region's entry -/

theorem V1_main_v4 (c : Dev nD) (cc : Fin 2) (r : Fin 250000) (k : Fin 128) :
    V1 m ρ c main_v4 (ix3 cc r k) = m ((c : Thread nD τ).loc main_arg0) (ix2 (half cc r) k) := by
  have e : (V1 m ρ c main_v4 : S2x250000x128.Idx → EReal)
      = shapeCast S2x250000x128 (m ((c : Thread nD τ).loc main_arg0) : S500000x128.Idx → EReal)
          shapeCasts_S500000x128_S2x250000x128 := by
    show StableHlo.after hostOps0 _ (Proc.devRef .tc main_v4) = _
    after_results
    rfl
  rw [e]
  exact halves_apply _ cc r k
theorem V1_main_v5 (c : Dev nD) (cc : Fin 2) (r : Fin 250000) (k : Fin 128) :
    V1 m ρ c main_v5 (ix3 cc r k) = m ((c : Thread nD τ).loc main_arg1) (ix2 (half cc r) k) := by
  have e : (V1 m ρ c main_v5 : S2x250000x128.Idx → EReal)
      = shapeCast S2x250000x128 (m ((c : Thread nD τ).loc main_arg1) : S500000x128.Idx → EReal)
          shapeCasts_S500000x128_S2x250000x128 := by
    show StableHlo.after hostOps0 _ (Proc.devRef .tc main_v5) = _
    after_results
    rfl
  rw [e]
  exact halves_apply _ cc r k
theorem V1_main_v6 (c : Dev nD) (cc : Fin 2) (r : Fin 250000) (k : Fin 128) :
    V1 m ρ c main_v6 (ix3 cc r k) = m ((c : Thread nD τ).loc main_arg2) (ix2 (half cc r) k) := by
  have e : (V1 m ρ c main_v6 : S2x250000x128.Idx → EReal)
      = shapeCast S2x250000x128 (m ((c : Thread nD τ).loc main_arg2) : S500000x128.Idx → EReal)
          shapeCasts_S500000x128_S2x250000x128 := by
    show StableHlo.after hostOps0 _ (Proc.devRef .tc main_v6) = _
    after_results
    rfl
  rw [e]
  exact halves_apply _ cc r k
theorem V1_main_v7 (c : Dev nD) (cc : Fin 2) (r : Fin 250000) (k : Fin 128) :
    V1 m ρ c main_v7 (ix3 cc r k) = m ((c : Thread nD τ).loc main_arg3) (ix2 (half cc r) k) := by
  have e : (V1 m ρ c main_v7 : S2x250000x128.Idx → EReal)
      = shapeCast S2x250000x128 (m ((c : Thread nD τ).loc main_arg3) : S500000x128.Idx → EReal)
          shapeCasts_S500000x128_S2x250000x128 := by
    show StableHlo.after hostOps0 _ (Proc.devRef .tc main_v7) = _
    after_results
    rfl
  rw [e]
  exact halves_apply _ cc r k
theorem V1_main_v8 (c : Dev nD) (cc : Fin 2) (r : Fin 250000) :
    V1 m ρ c main_v8 (ix3 cc r 0) = m ((c : Thread nD τ).loc main_arg4) (ix1 (half cc r)) := by
  have e : (V1 m ρ c main_v8 : S2x250000x1.Idx → BitVec 32)
      = shapeCast S2x250000x1 (m ((c : Thread nD τ).loc main_arg4) : S500000.Idx → BitVec 32)
          shapeCasts_S500000_S2x250000x1 := by
    show StableHlo.after hostOps0 _ (Proc.devRef .tc main_v8) = _
    after_results
    rfl
  rw [e]
  exact halves1_apply _ cc r
theorem V1_main_v0 (c : Dev nD) : V1 m ρ c main_v0 = m ((c : Thread nD τ).loc main_arg5) := by
  show StableHlo.after hostOps0 _ (Proc.devRef .tc main_v0) = _
  after_results
  rfl
theorem V1_main_v1 (c : Dev nD) : V1 m ρ c main_v1 = m ((c : Thread nD τ).loc main_arg7) := by
  show StableHlo.after hostOps0 _ (Proc.devRef .tc main_v1) = _
  after_results
  rfl
theorem V1_main_v2 (c : Dev nD) : V1 m ρ c main_v2 = m ((c : Thread nD τ).loc main_arg9) := by
  show StableHlo.after hostOps0 _ (Proc.devRef .tc main_v2) = _
  after_results
  rfl
theorem V1_main_v3 (c : Dev nD) : V1 m ρ c main_v3 = m ((c : Thread nD τ).loc main_arg11) := by
  show StableHlo.after hostOps0 _ (Proc.devRef .tc main_v3) = _
  after_results
  rfl
theorem V1_main_arg6 (c : Dev nD) : V1 m ρ c main_arg6 = m ((c : Thread nD τ).loc main_arg6) := by
  show StableHlo.after hostOps0 _ (Proc.devRef .tc main_arg6) = _
  after_results
theorem V1_main_arg8 (c : Dev nD) : V1 m ρ c main_arg8 = m ((c : Thread nD τ).loc main_arg8) := by
  show StableHlo.after hostOps0 _ (Proc.devRef .tc main_arg8) = _
  after_results
theorem V1_main_arg10 (c : Dev nD) : V1 m ρ c main_arg10 = m ((c : Thread nD τ).loc main_arg10) := by
  show StableHlo.after hostOps0 _ (Proc.devRef .tc main_arg10) = _
  after_results
theorem V1_main_arg12 (c : Dev nD) : V1 m ρ c main_arg12 = m ((c : Thread nD τ).loc main_arg12) := by
  show StableHlo.after hostOps0 _ (Proc.devRef .tc main_arg12) = _
  after_results

/-! ## At the second region's entry -/

/-- The first region's two result arrays at its exit, and the second region's three operand arrays at its entry, each
    under its literal type. -/
abbrev sums2 (c : Dev nD) : S2x1024x128.Idx → EReal := W2 m ρ c (Proc.devRef .tc main_v9_0)
abbrev cnts2 (c : Dev nD) : S2x1x1024.Idx → EReal := W2 m ρ c (Proc.devRef .tc main_v9_1)
abbrev meansHi (c : Dev nD) : S1024x128.Idx → EReal := V3 m ρ c main_v25
abbrev meansLo (c : Dev nD) : S1024x128.Idx → EReal := V3 m ρ c main_v28
abbrev idsCol (c : Dev nD) : S500000x1.Idx → BitVec 32 := V3 m ρ c main_v29

/-- The first table is the quotient: its narrowing changes no value over the extended reals. -/
theorem meansHi_quot (c : Dev nD) : meansHi m ρ c = quot (sums2 m ρ c) (cnts2 m ρ c) := by
  show StableHlo.after hostOps1 _ (Proc.devRef .tc main_v25) = _
  after_results
  rfl
/-- The second table is the quotient minus its narrowing widened again, that is minus itself. -/
theorem meansLo_quot (c : Dev nD) :
    meansLo m ρ c = subf (F := Ideal) (quot (sums2 m ρ c) (cnts2 m ρ c)) (quot (sums2 m ρ c) (cnts2 m ρ c)) := by
  show StableHlo.after hostOps1 _ (Proc.devRef .tc main_v28) = _
  after_results
  rfl

/-- The table of means: the halves' sums added over the halves' counts added and raised to at least one. -/
theorem V3_main_v25 (c : Dev nD) (s : Fin 1024) (d : Fin 128) :
    meansHi m ρ c (ix2 s d)
      = Ideal.div (sums2 m ρ c (ix3 0 s d) + sums2 m ρ c (ix3 1 s d))
          (max (cnts2 m ρ c (ix3 0 0 s) + cnts2 m ρ c (ix3 1 0 s)) 1) := by
  rw [meansHi_quot]
  exact quot_apply _ _ s d
/-- The second table: the table of means minus itself. -/
theorem V3_main_v28 (c : Dev nD) (s : Fin 1024) (d : Fin 128) :
    meansLo m ρ c (ix2 s d) = meansHi m ρ c (ix2 s d) - meansHi m ρ c (ix2 s d) := by
  rw [meansLo_quot, meansHi_quot]
  rfl
/-- The id array is no array of the first region and no host operation writes it: at the first region's exit it holds
    its launch contents. -/
theorem W2_main_arg4 (c : Dev nD) : W2 m ρ c (Proc.devRef .tc main_arg4) = m ((c : Thread nD τ).loc main_arg4) := by
  rw [W2_of_ne m ρ c main_arg4 (by decide)]
  show StableHlo.after hostOps0 _ (Proc.devRef .tc main_arg4) = _
  after_results
/-- The ids as a column. -/
theorem V3_main_v29 (c : Dev nD) (t : Fin 500000) :
    idsCol m ρ c (ix2 t 0) = m ((c : Thread nD τ).loc main_arg4) (ix1 t) := by
  have e : (idsCol m ρ c : S500000x1.Idx → BitVec 32)
      = shapeCast S500000x1 (m ((c : Thread nD τ).loc main_arg4) : S500000.Idx → BitVec 32)
          shapeCasts_S500000_S500000x1 := by
    show StableHlo.after hostOps1 _ (Proc.devRef .tc main_v29) = _
    after_results
    rw [W2_main_arg4]
    rfl
  rw [e]
  exact column_apply _ t

end

end Cert.KernelIdeal.HandValue

end
-- ==== Proof.KI.Assemble.lean ====
/-
  The idealized kernel program's result, entry by entry, as the two-pass formula of the segment mean
  (`splitOut`) over the argument arrays: the second region's result is the indicator row times the two tables;
  the tables are, through the host operations between the regions, the first region's two halves of sums and
  counts combined; those are the segment sums and counts of each half's activation rows, which, through the
  host operations before the first region, are the perceptron's rows of the argument arrays.
-/
import proofs.«411350_j36593121362170_3_alg».proof.Proof.KI.RunAll
import proofs.«411350_j36593121362170_3_alg».proof.Proof.KI.Value0
import proofs.«411350_j36593121362170_3_alg».proof.Proof.KI.Value1
import proofs.«411350_j36593121362170_3_alg».proof.Proof.KI.Glue
import proofs.«411350_j36593121362170_3_alg».proof.Proof.Math.Algebra

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.SegMean

section
variable (m : (ℓ : Loc nD τ sig) → Buf (Elt Ideal) ℓ) (ρ : Dev nD → PrngReg)

/-- The argument arrays on core `c`, under their literal types. -/
abbrev xg (c : Dev nD) : S500000x128.Idx → EReal := m ((c : Thread nD τ).loc main_arg0)
abbrev xns (c : Dev nD) : S500000x128.Idx → EReal := m ((c : Thread nD τ).loc main_arg1)
abbrev xnr (c : Dev nD) : S500000x128.Idx → EReal := m ((c : Thread nD τ).loc main_arg2)
abbrev xe (c : Dev nD) : S500000x128.Idx → EReal := m ((c : Thread nD τ).loc main_arg3)
abbrev xei (c : Dev nD) : S500000.Idx → BitVec 32 := m ((c : Thread nD τ).loc main_arg4)
/-- The perceptron's parameters read off the argument arrays. -/
abbrev xP (c : Dev nD) : Weights :=
  weightsOf (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- The parameters as the first region finds them are the arguments': narrowing changes no value here. -/
theorem wts0_eq (c : Dev nD) : wts0 (V1 m ρ) c = xP m c := by
  unfold wts0 xP
  rw [V1_main_v0, V1_main_v1, V1_main_v2, V1_main_v3, V1_main_arg6, V1_main_arg8, V1_main_arg10, V1_main_arg12]

/-- A half's segment ids as the first region finds them are the arguments' ids of that half. -/
theorem seg0_eq (c : Dev nD) (cc : Fin 2) : seg0 (V1 m ρ) c cc = fun r => segOf (xei m c) (half cc r) :=
  funext fun r => V1_main_v8 m ρ c cc r

/-- A half's activation rows as the first region computes them are the arguments' activation rows of that half. -/
theorem act0_eq (c : Dev nD) (cc : Fin 2) :
    act0 (V1 m ρ) c cc = fun r => actOf (xg m c) (xns m c) (xnr m c) (xe m c) (xP m c) (half cc r) := by
  funext r
  unfold act0 actOf
  rw [wts0_eq]
  congr 1
  congr 1
  · exact funext fun k => V1_main_v4 m ρ c cc r k
  · exact funext fun k => V1_main_v5 m ρ c cc r k
  · exact funext fun k => V1_main_v6 m ρ c cc r k
  · exact funext fun k => V1_main_v7 m ρ c cc r k

/-- The table of means the second region is handed is the two-pass mean of the argument arrays. -/
theorem meansHi_eq (c : Dev nD) (s : Fin 1024) (d : Fin 128) :
    meansHi m ρ c (ix2 s d) = splitMean (segOf (xei m c)) (actOf (xg m c) (xns m c) (xnr m c) (xe m c) (xP m c)) s d := by
  rw [V3_main_v25]
  unfold splitMean
  have hs : ∀ cc : Fin 2, sums2 m ρ c (ix3 cc s d)
      = segSum (fun r => segOf (xei m c) (half cc r)) (fun r => actOf (xg m c) (xns m c) (xnr m c) (xe m c) (xP m c) (half cc r)) s d := fun cc => by
    rw [show sums2 m ρ c = (dat0 (F := Ideal) (V1 m ρ) c).arrAt 13 cfg0.N from W2_main_v9_0 m ρ c, sums_value, seg0_eq, act0_eq]
  have hc : ∀ cc : Fin 2, cnts2 m ρ c (ix3 cc 0 s) = segCnt (fun r => segOf (xei m c) (half cc r)) s := fun cc => by
    rw [show cnts2 m ρ c = (dat0 (F := Ideal) (V1 m ρ) c).arrAt 14 cfg0.N from W2_main_v9_1 m ρ c, counts_value, seg0_eq]
  rw [hs 0, hs 1, hc 0, hc 1]

/-- THE KERNEL'S VALUE: the result array at the end, entry by entry, is the two-pass formula of the arguments. -/
theorem kernel_value (c : Dev nD) (t : Fin 500000) (d : Fin 128) :
    (W4 (F := Ideal) m ρ c (Proc.devRef .tc main_v30) : S500000x128.Idx → EReal) (ix2 t d)
      = splitOut (segOf (xei m c)) (actOf (xg m c) (xns m c) (xnr m c) (xe m c) (xP m c)) t d := by
  rw [W4_main_v30, out_value]
  unfold splitOut
  have hid : (V3 m ρ c main_v29 : S500000x1.Idx → BitVec 32) (ix2 t 0) = segOf (xei m c) t := V3_main_v29 m ρ c t
  have hhi : ∀ s : Fin 1024, (V3 m ρ c main_v25 : S1024x128.Idx → EReal) (ix2 s d)
      = splitMean (segOf (xei m c)) (actOf (xg m c) (xns m c) (xnr m c) (xe m c) (xP m c)) s d := fun s => meansHi_eq m ρ c s d
  have hlo : ∀ s : Fin 1024, (V3 m ρ c main_v28 : S1024x128.Idx → EReal) (ix2 s d)
      = splitMean (segOf (xei m c)) (actOf (xg m c) (xns m c) (xnr m c) (xe m c) (xP m c)) s d
        - splitMean (segOf (xei m c)) (actOf (xg m c) (xns m c) (xnr m c) (xe m c) (xP m c)) s d := fun s => by
    rw [show (V3 m ρ c main_v28 : S1024x128.Idx → EReal) (ix2 s d) = meansLo m ρ c (ix2 s d) from rfl, V3_main_v28, meansHi_eq]
  rw [hid]
  simp only [hhi, hlo]

end

end Cert.KernelIdeal.HandValue

end
-- ==== Proof.Ref.Gen.lean ====
/- The reference program's generated run and its read-at-an-index lemmas, gathered for the modules
   that read the reference's result as a function of the argument arrays. -/
import proofs.«411350_j36593121362170_3_alg».proof.Proof.Gen.ReferenceIdeal.Run
import proofs.«411350_j36593121362170_3_alg».proof.Proof.Gen.ReferenceIdeal.Read
-- ==== Proof.Ref.Value.lean ====
/-
  The reference program's result, entry by entry, for an edge whose segment id lies in range: the sum of
  the activation rows of the edge's segment over the segment's count.  The program's dense layers are
  read as sums over the input width, its accumulating scatters as sums over the edges that land on a
  segment, and its gather as the table's row at the edge's id.
-/
import proofs.«411350_j36593121362170_3_alg».proof.Proof.Ref.Gen
import proofs.«411350_j36593121362170_3_alg».proof.Proof.Math.Spec
import Idealize.ShloMosaic.Lib.IdealHost

noncomputable section

namespace Cert.ReferenceIdeal.RefValue

open Cert.ReferenceIdeal Cert.ReferenceIdeal.Gen Idealize.ShloMosaic Idealize.ShloMosaic.ValueIdx Cert.SegMean

/-! ## Segment ids as signed words -/

/-- A word holding a segment id below 1024, read signed, is that id. -/
theorem toInt_ofNat_seg (s : Fin 1024) : (BitVec.ofNat 32 s.val).toInt = (s.val : Int) := by
  have hs := s.isLt
  rw [BitVec.toInt_eq_toNat_cond, BitVec.toNat_ofNat, Nat.mod_eq_of_lt (by omega), if_pos (by omega)]

/-! ## The accumulating scatters -/

/-- An update lands on operand index `i` exactly when, on every axis, its start plus its window coordinate is
    `i`'s coordinate. -/
theorem resultIdx?_eq_some_iff {s si u : Shape} (D : ScatterDims s si u) {w : Nat} (j : u.Idx) (idx : IVec si w) (i : s.Idx) :
    D.resultIdx? j idx = some i ↔ ∀ a, D.start j idx a + (D.window j a : Int) = ((i a).val : Int) := by
  unfold ScatterDims.resultIdx?
  constructor
  · intro H
    split at H
    · rename_i hall
      have H' := Option.some.inj H
      intro a
      have e := congrArg (fun f => (f a).val) H'
      simp only at e
      have := (hall a).1
      omega
    · exact absurd H (by simp)
  · intro H
    have hall : ∀ a, 0 ≤ D.start j idx a + (D.window j a : Int) ∧ D.start j idx a + (D.window j a : Int) < s.size a := by
      intro a; have := H a; have := (i a).isLt; omega
    rw [dif_pos hall]
    congr 1; funext a; apply Fin.ext
    have := H a
    show (D.start j idx a + (D.window j a : Int)).toNat = (i a).val
    omega

/-! ## The row scatter: updates `[500000, 128]` into a `[1024, 128]` table by the edge's id -/

/-- The start on the table's row axis for update `(t', d')`: edge `t'`'s id word, read signed. -/
theorem rows_start0 (idx : IVec S500000x1 32) (t' : Fin 500000) (d' : Fin 128) :
    scatter_S1024x128_S500000x1_S500000x128_1_0_0_1.start (ix2 t' d') idx (0 : Fin 2) = (idx (ix2 t' (0 : Fin 1))).toInt := by
  unfold ScatterDims.start
  rw [dif_pos (show (0 : Fin 2) ∈ scatter_S1024x128_S500000x1_S500000x128_1_0_0_1.scatterDimsToOperandDims from List.mem_singleton.mpr rfl)]
  have hsi : scatter_S1024x128_S500000x1_S500000x128_1_0_0_1.siIdx (ix2 t' d') ⟨List.idxOf (0 : Fin 2) scatter_S1024x128_S500000x1_S500000x128_1_0_0_1.scatterDimsToOperandDims,
      List.idxOf_lt_length_iff.2 (List.mem_singleton.mpr rfl)⟩ = ix2 t' (0 : Fin 1) := by
    funext b; refine Fin.ext ?_
    match b with
    | ⟨0, _⟩ => rfl
    | ⟨1, _⟩ => rfl
  rw [hsi]

/-- The start on the feature axis: none. -/
theorem rows_start1 (idx : IVec S500000x1 32) (t' : Fin 500000) (d' : Fin 128) :
    scatter_S1024x128_S500000x1_S500000x128_1_0_0_1.start (ix2 t' d') idx (1 : Fin 2) = 0 := by
  unfold ScatterDims.start
  rw [dif_neg (show ¬ (1 : Fin 2) ∈ scatter_S1024x128_S500000x1_S500000x128_1_0_0_1.scatterDimsToOperandDims from by decide)]

/-- The window coordinate on the row axis: none (the axis is inserted). -/
theorem rows_window0 (t' : Fin 500000) (d' : Fin 128) :
    scatter_S1024x128_S500000x1_S500000x128_1_0_0_1.window (ix2 t' d') (0 : Fin 2) = 0 := by
  unfold ScatterDims.window
  rw [dif_neg (show ¬ (0 : Fin 2) ∈ scatter_S1024x128_S500000x1_S500000x128_1_0_0_1.sKept from by decide)]

/-- The window coordinate on the feature axis: the update's feature. -/
theorem rows_window1 (t' : Fin 500000) (d' : Fin 128) :
    scatter_S1024x128_S500000x1_S500000x128_1_0_0_1.window (ix2 t' d') (1 : Fin 2) = d'.val := by
  unfold ScatterDims.window
  rw [dif_pos (show (1 : Fin 2) ∈ scatter_S1024x128_S500000x1_S500000x128_1_0_0_1.sKept from by decide)]
  rfl

/-- Update `(t', d')` lands on table entry `(s, d)` exactly when edge `t'`'s id is `s` and the features agree. -/
theorem rows_lands_iff (idx : IVec S500000x1 32) (t' : Fin 500000) (d' : Fin 128) (s : Fin 1024) (d : Fin 128) :
    scatter_S1024x128_S500000x1_S500000x128_1_0_0_1.resultIdx? (ix2 t' d') idx = some (ix2 s d)
      ↔ idx (ix2 t' (0 : Fin 1)) = BitVec.ofNat 32 s.val ∧ d' = d := by
  rw [resultIdx?_eq_some_iff, Fin.forall_fin_two, rows_start0, rows_start1, rows_window0, rows_window1]
  show ((idx (ix2 t' (0 : Fin 1))).toInt + ((0 : Nat) : Int) = (s.val : Int)) ∧ ((0 : Int) + (d'.val : Int) = (d.val : Int)) ↔ _
  constructor
  · rintro ⟨h0, h1⟩
    exact ⟨BitVec.eq_of_toInt_eq (by rw [toInt_ofNat_seg]; omega), Fin.ext (by omega)⟩
  · rintro ⟨h0, h1⟩
    rw [h0, toInt_ofNat_seg, h1]
    omega

/-- The accumulating row scatter read at `(s, d)`: the table's entry plus the sum, over the edges whose id is `s`, of
    their update rows at `d`. -/
theorem rows_scatter_apply (x : S1024x128.Idx → EReal) (idx : IVec S500000x1 32) (upd : S500000x128.Idx → EReal)
    (s : Fin 1024) (d : Fin 128) :
    Ideal.hostScatterAdd scatter_S1024x128_S500000x1_S500000x128_1_0_0_1 x idx upd (ix2 s d)
      = x (ix2 s d) + ∑ t' : Fin 500000, ind (idx (ix2 t' (0 : Fin 1))) s * upd (ix2 t' d) := by
  unfold Ideal.hostScatterAdd
  refine congrArg (x (ix2 s d) + ·) ?_
  rw [Finset.sum_filter, sum_idx2]
  refine Finset.sum_congr rfl fun t' _ => ?_
  unfold ind
  by_cases hw : idx (ix2 t' (0 : Fin 1)) = BitVec.ofNat 32 s.val
  · rw [if_pos hw, one_mul, Finset.sum_eq_single d]
    · rw [if_pos ((rows_lands_iff idx t' d s d).2 ⟨hw, rfl⟩)]
    · intro b _ hb
      rw [if_neg (fun H => hb ((rows_lands_iff idx t' b s d).1 H).2)]
    · intro h; exact absurd (Finset.mem_univ d) h
  · rw [if_neg hw, zero_mul]
    refine Finset.sum_eq_zero fun b _ => ?_
    rw [if_neg (fun H => hw ((rows_lands_iff idx t' b s d).1 H).1)]

/-! ## The count scatter: updates `[500000]` into a `[1024]` table by the edge's id -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The start on the table's one axis for update `t'`: edge `t'`'s id word, read signed. -/
theorem cnt_start0 (idx : IVec S500000x1 32) (t' : Fin 500000) :
    scatter_S1024_S500000x1_S500000_n_0_0_1.start (ix1 t') idx (0 : Fin 1) = (idx (ix2 t' (0 : Fin 1))).toInt := by
  unfold ScatterDims.start
  rw [dif_pos (show (0 : Fin 1) ∈ scatter_S1024_S500000x1_S500000_n_0_0_1.scatterDimsToOperandDims from List.mem_singleton.mpr rfl)]
  have hsi : scatter_S1024_S500000x1_S500000_n_0_0_1.siIdx (ix1 t') ⟨List.idxOf (0 : Fin 1) scatter_S1024_S500000x1_S500000_n_0_0_1.scatterDimsToOperandDims,
      List.idxOf_lt_length_iff.2 (List.mem_singleton.mpr rfl)⟩ = ix2 t' (0 : Fin 1) := by
    funext b; refine Fin.ext ?_
    match b with
    | ⟨0, _⟩ => rfl
    | ⟨1, _⟩ => rfl
  rw [hsi]

/-- No window coordinate: the table's one axis is inserted. -/
theorem cnt_window0 (t' : Fin 500000) :
    scatter_S1024_S500000x1_S500000_n_0_0_1.window (ix1 t') (0 : Fin 1) = 0 := by
  unfold ScatterDims.window
  rw [dif_neg (show ¬ (0 : Fin 1) ∈ scatter_S1024_S500000x1_S500000_n_0_0_1.sKept from by decide)]

/-- Update `t'` lands on table entry `s` exactly when edge `t'`'s id is `s`. -/
theorem cnt_lands_iff (idx : IVec S500000x1 32) (t' : Fin 500000) (s : Fin 1024) :
    scatter_S1024_S500000x1_S500000_n_0_0_1.resultIdx? (ix1 t') idx = some (ix1 s)
      ↔ idx (ix2 t' (0 : Fin 1)) = BitVec.ofNat 32 s.val := by
  rw [resultIdx?_eq_some_iff, Fin.forall_fin_one, cnt_start0, cnt_window0]
  show ((idx (ix2 t' (0 : Fin 1))).toInt + ((0 : Nat) : Int) = (s.val : Int)) ↔ _
  constructor
  · intro h0
    exact BitVec.eq_of_toInt_eq (by rw [toInt_ofNat_seg]; omega)
  · intro h0
    rw [h0, toInt_ofNat_seg]
    omega

/-- The accumulating count scatter read at `s`: the table's entry plus the sum of the updates of the edges whose id
    is `s`. -/
theorem cnt_scatter_apply (x : S1024.Idx → EReal) (idx : IVec S500000x1 32) (upd : S500000.Idx → EReal) (s : Fin 1024) :
    Ideal.hostScatterAdd scatter_S1024_S500000x1_S500000_n_0_0_1 x idx upd (ix1 s)
      = x (ix1 s) + ∑ t' : Fin 500000, ind (idx (ix2 t' (0 : Fin 1))) s * upd (ix1 t') := by
  unfold Ideal.hostScatterAdd
  refine congrArg (x (ix1 s) + ·) ?_
  rw [Finset.sum_filter, sum_idx1]
  refine Finset.sum_congr rfl fun t' _ => ?_
  unfold ind
  by_cases hw : idx (ix2 t' (0 : Fin 1)) = BitVec.ofNat 32 s.val
  · rw [if_pos hw, one_mul, if_pos ((cnt_lands_iff idx t' s).2 hw)]
  · rw [if_neg hw, zero_mul, if_neg (fun H => hw ((cnt_lands_iff idx t' s).1 H))]

/-! ## The gather of table rows -/

/-- The row coordinate the gather reads for edge `t`: the edge's start index, in range, unclamped. -/
theorem gather_coord0 (idx : IVec S500000x1 32) (t : Fin 500000) (d : Fin 128)
    (s : Fin 1024) (h : idx (ix2 t (0 : Fin 1)) = BitVec.ofNat 32 s.val) :
    (gather_S1024x128_S500000x1_S500000x128_1_0_n_n_0_1_1128.operandIdx (ix2 t d) idx (0 : Fin 2)).val = s.val := by
  show GatherDims.start _ (ix2 t d) idx 0 + GatherDims.batchCoord _ (ix2 t d) 0 + GatherDims.offCoord _ (ix2 t d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S1024x128_S500000x1_S500000x128_1_0_n_n_0_1_1128.startIndexMap from List.mem_singleton.mpr rfl)]
  have hsi : gather_S1024x128_S500000x1_S500000x128_1_0_n_n_0_1_1128.siIdx (ix2 t d) ⟨List.idxOf (0 : Fin 2) gather_S1024x128_S500000x1_S500000x128_1_0_n_n_0_1_1128.startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi, h, toInt_ofNat_seg]
  have hs := s.isLt
  show min (s.val : Int).toNat (1024 - 1) = s.val
  omega

/-- The feature coordinate the gather reads: the result's own. -/
theorem gather_coord1 (idx : IVec S500000x1 32) (t : Fin 500000) (d : Fin 128) :
    (gather_S1024x128_S500000x1_S500000x128_1_0_n_n_0_1_1128.operandIdx (ix2 t d) idx (1 : Fin 2)).val = d.val := by
  show GatherDims.start _ (ix2 t d) idx 1 + GatherDims.batchCoord _ (ix2 t d) 1 + GatherDims.offCoord _ (ix2 t d) 1 = _
  rw [GatherDims.batchCoord_eq_zero _ _ _ List.not_mem_nil]
  unfold GatherDims.start
  rw [dif_neg (show ¬ (1 : Fin 2) ∈ gather_S1024x128_S500000x1_S500000x128_1_0_n_n_0_1_1128.startIndexMap from by decide)]
  unfold GatherDims.offCoord
  rw [dif_pos (show (1 : Fin 2) ∈ gather_S1024x128_S500000x1_S500000x128_1_0_n_n_0_1_1128.sKept from by decide)]
  simp only [Nat.zero_add]
  rfl

/-- The gather of table rows read at edge `t`, feature `d`: when the edge's start index is the id `s` (in range, so
    nothing is clamped), the table's row `s` at `d`. -/
theorem gather_row_apply {α : Type} (x : S1024x128.Idx → α) (idx : IVec S500000x1 32) (t : Fin 500000) (d : Fin 128)
    (s : Fin 1024) (h : idx (ix2 t (0 : Fin 1)) = BitVec.ofNat 32 s.val) :
    Host.gather gather_S1024x128_S500000x1_S500000x128_1_0_n_n_0_1_1128 x idx (ix2 t d) = x (ix2 s d) := by
  unfold Host.gather
  congr 1
  funext a
  refine Fin.ext ?_
  match a with
  | ⟨0, _⟩ => exact gather_coord0 idx t d s h
  | ⟨1, _⟩ => exact gather_coord1 idx t d

/-! ## The feature row: the four arrays side by side -/

/-- The concatenated feature array at edge `t`, column `q`: piece `q / 128` at column `q % 128`. -/
theorem v0_apply (x0 x1 x2 x3 : (⟨S500000x128, .f32⟩ : BufTy).Contents (Elt Ideal)) (t : Fin 500000) (q : Fin 512) :
    Read.val_main_v0 (F := Ideal) x0 x1 x2 x3 (ix2 t q)
      = featRow (fun k => x0 (ix2 t k)) (fun k => x1 (ix2 t k)) (fun k => x2 (ix2 t k)) (fun k => x3 (ix2 t k)) q := by
  unfold Read.val_main_v0 featRow
  have hq := q.isLt
  by_cases h0 : q.val < 128
  · rw [dif_pos h0]
    exact concatenate_apply_piece (t := S500000x512) (1 : Fin 2) [⟨S500000x128, x0⟩, ⟨S500000x128, x1⟩, ⟨S500000x128, x2⟩, ⟨S500000x128, x3⟩] _ (ix2 t q) 0 (by simp) S500000x128 x0 rfl rfl 0 rfl (ix2 t ⟨q.val, h0⟩) (fun b hb => by match b with | ⟨0, _⟩ => rfl | ⟨1, _⟩ => exact absurd rfl hb) (by show 0 + q.val = q.val; omega)
  · rw [dif_neg h0]
    by_cases h1 : q.val < 256
    · rw [dif_pos h1]
      exact concatenate_apply_piece (t := S500000x512) (1 : Fin 2) [⟨S500000x128, x0⟩, ⟨S500000x128, x1⟩, ⟨S500000x128, x2⟩, ⟨S500000x128, x3⟩] _ (ix2 t q) 1 (by simp) S500000x128 x1 rfl rfl 128 rfl (ix2 t ⟨q.val - 128, by omega⟩) (fun b hb => by match b with | ⟨0, _⟩ => rfl | ⟨1, _⟩ => exact absurd rfl hb) (by show 128 + (q.val - 128) = q.val; omega)
    · rw [dif_neg h1]
      by_cases h2 : q.val < 384
      · rw [dif_pos h2]
        exact concatenate_apply_piece (t := S500000x512) (1 : Fin 2) [⟨S500000x128, x0⟩, ⟨S500000x128, x1⟩, ⟨S500000x128, x2⟩, ⟨S500000x128, x3⟩] _ (ix2 t q) 2 (by simp) S500000x128 x2 rfl rfl 256 rfl (ix2 t ⟨q.val - 256, by omega⟩) (fun b hb => by match b with | ⟨0, _⟩ => rfl | ⟨1, _⟩ => exact absurd rfl hb) (by show 256 + (q.val - 256) = q.val; omega)
      · rw [dif_neg h2]
        exact concatenate_apply_piece (t := S500000x512) (1 : Fin 2) [⟨S500000x128, x0⟩, ⟨S500000x128, x1⟩, ⟨S500000x128, x2⟩, ⟨S500000x128, x3⟩] _ (ix2 t q) 3 (by simp) S500000x128 x3 rfl rfl 384 rfl (ix2 t ⟨q.val - 384, by omega⟩) (fun b hb => by match b with | ⟨0, _⟩ => rfl | ⟨1, _⟩ => exact absurd rfl hb) (by show 384 + (q.val - 384) = q.val; omega)

/-! ## The perceptron, layer by layer: a dense layer is the sum over the input width plus the bias, the rectifier the
    larger of the entry and zero -/

/-- The first rectified layer at edge `t`, output `o`. -/
theorem layer1_apply (x0 x1 x2 x3 : (⟨S500000x128, .f32⟩ : BufTy).Contents (Elt Ideal)) (x5 : (⟨S512x256, .f32⟩ : BufTy).Contents (Elt Ideal)) (x6 : (⟨S256, .f32⟩ : BufTy).Contents (Elt Ideal)) (t : Fin 500000) (o : Fin 256) :
    Read.val_main_v5 (F := Ideal) x0 x1 x2 x3 x5 x6 (ix2 t o) = (reluRow (linRow (featRow (fun k => x0 (ix2 t k)) (fun k => x1 (ix2 t k)) (fun k => x2 (ix2 t k)) (fun k => x3 (ix2 t k))) (fun q o => x5 (ix2 q o)) (fun o => x6 (ix1 o)))) o := by
  rw [Read.val_main_v5_apply, Read.val_main_v4_apply, Read.val_main_v1_apply, Read.val_main_v3_apply, Read.val_main_v2_apply,
    Read.val_main_call0_v0_apply, Read.val_main_call0_cst_apply]
  have e1 : ∀ k : Fin 512, Read.lidx_main_v1 (ix2 t o) k = ix2 t k := fun k => funext fun a => Fin.ext (by
    match a with
    | ⟨0, _⟩ => rfl
    | ⟨1, _⟩ => rfl)
  have e2 : ∀ k : Fin 512, Read.ridx_main_v1 (ix2 t o) k = ix2 k o := fun k => funext fun a => Fin.ext (by
    match a with
    | ⟨0, _⟩ => rfl
    | ⟨1, _⟩ => rfl)
  have e3 : Read.idx_main_v2 (Read.idx_main_v3 (ix2 t o)) = ix1 o := funext fun a => Fin.ext (by
    match a with
    | ⟨0, _⟩ => rfl)
  simp only [e1, e2, e3, v0_apply, Ideal.maximumf_def, Ideal.addf_def, Ideal.ofBits_def, Ideal.ofBits_zero_f32]
  rfl

/-- The second rectified layer. -/
theorem layer2_apply (x0 x1 x2 x3 : (⟨S500000x128, .f32⟩ : BufTy).Contents (Elt Ideal)) (x5 : (⟨S512x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (t : Fin 500000) (o : Fin 256) :
    Read.val_main_v10 (F := Ideal) x0 x1 x2 x3 x5 x6 x7 x8 (ix2 t o) = (reluRow (linRow (reluRow (linRow (featRow (fun k => x0 (ix2 t k)) (fun k => x1 (ix2 t k)) (fun k => x2 (ix2 t k)) (fun k => x3 (ix2 t k))) (fun q o => x5 (ix2 q o)) (fun o => x6 (ix1 o)))) (fun q o => x7 (ix2 q o)) (fun o => x8 (ix1 o)))) o := by
  rw [Read.val_main_v10_apply, Read.val_main_v9_apply, Read.val_main_v6_apply, Read.val_main_v8_apply, Read.val_main_v7_apply,
    Read.val_main_call1_v0_apply, Read.val_main_call1_cst_apply]
  have e1 : ∀ k : Fin 256, Read.lidx_main_v6 (ix2 t o) k = ix2 t k := fun k => funext fun a => Fin.ext (by
    match a with
    | ⟨0, _⟩ => rfl
    | ⟨1, _⟩ => rfl)
  have e2 : ∀ k : Fin 256, Read.ridx_main_v6 (ix2 t o) k = ix2 k o := fun k => funext fun a => Fin.ext (by
    match a with
    | ⟨0, _⟩ => rfl
    | ⟨1, _⟩ => rfl)
  have e3 : Read.idx_main_v7 (Read.idx_main_v8 (ix2 t o)) = ix1 o := funext fun a => Fin.ext (by
    match a with
    | ⟨0, _⟩ => rfl)
  simp only [e1, e2, e3, layer1_apply, Ideal.maximumf_def, Ideal.addf_def, Ideal.ofBits_def, Ideal.ofBits_zero_f32]
  rfl

/-- The third rectified layer. -/
theorem layer3_apply (x0 x1 x2 x3 : (⟨S500000x128, .f32⟩ : BufTy).Contents (Elt Ideal)) (x5 : (⟨S512x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (t : Fin 500000) (o : Fin 256) :
    Read.val_main_v15 (F := Ideal) x0 x1 x2 x3 x5 x6 x7 x8 x9 x10 (ix2 t o) = (reluRow (linRow (reluRow (linRow (reluRow (linRow (featRow (fun k => x0 (ix2 t k)) (fun k => x1 (ix2 t k)) (fun k => x2 (ix2 t k)) (fun k => x3 (ix2 t k))) (fun q o => x5 (ix2 q o)) (fun o => x6 (ix1 o)))) (fun q o => x7 (ix2 q o)) (fun o => x8 (ix1 o)))) (fun q o => x9 (ix2 q o)) (fun o => x10 (ix1 o)))) o := by
  rw [Read.val_main_v15_apply, Read.val_main_v14_apply, Read.val_main_v11_apply, Read.val_main_v13_apply, Read.val_main_v12_apply,
    Read.val_main_call2_v0_apply, Read.val_main_call2_cst_apply]
  have e1 : ∀ k : Fin 256, Read.lidx_main_v11 (ix2 t o) k = ix2 t k := fun k => funext fun a => Fin.ext (by
    match a with
    | ⟨0, _⟩ => rfl
    | ⟨1, _⟩ => rfl)
  have e2 : ∀ k : Fin 256, Read.ridx_main_v11 (ix2 t o) k = ix2 k o := fun k => funext fun a => Fin.ext (by
    match a with
    | ⟨0, _⟩ => rfl
    | ⟨1, _⟩ => rfl)
  have e3 : Read.idx_main_v12 (Read.idx_main_v13 (ix2 t o)) = ix1 o := funext fun a => Fin.ext (by
    match a with
    | ⟨0, _⟩ => rfl)
  simp only [e1, e2, e3, layer2_apply, Ideal.maximumf_def, Ideal.addf_def, Ideal.ofBits_def, Ideal.ofBits_zero_f32]
  rfl

/-- The last, linear layer. -/
theorem layer4_apply (x0 x1 x2 x3 : (⟨S500000x128, .f32⟩ : BufTy).Contents (Elt Ideal)) (x5 : (⟨S512x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x128, .f32⟩ : BufTy).Contents (Elt Ideal)) (x12 : (⟨S128, .f32⟩ : BufTy).Contents (Elt Ideal)) (t : Fin 500000) (o : Fin 128) :
    Read.val_main_v19 (F := Ideal) x0 x1 x2 x3 x5 x6 x7 x8 x9 x10 x11 x12 (ix2 t o) = (linRow (reluRow (linRow (reluRow (linRow (reluRow (linRow (featRow (fun k => x0 (ix2 t k)) (fun k => x1 (ix2 t k)) (fun k => x2 (ix2 t k)) (fun k => x3 (ix2 t k))) (fun q o => x5 (ix2 q o)) (fun o => x6 (ix1 o)))) (fun q o => x7 (ix2 q o)) (fun o => x8 (ix1 o)))) (fun q o => x9 (ix2 q o)) (fun o => x10 (ix1 o)))) (fun q o => x11 (ix2 q o)) (fun o => x12 (ix1 o))) o := by
  rw [Read.val_main_v19_apply, Read.val_main_v16_apply, Read.val_main_v18_apply, Read.val_main_v17_apply]
  have e1 : ∀ k : Fin 256, Read.lidx_main_v16 (ix2 t o) k = ix2 t k := fun k => funext fun a => Fin.ext (by
    match a with
    | ⟨0, _⟩ => rfl
    | ⟨1, _⟩ => rfl)
  have e2 : ∀ k : Fin 256, Read.ridx_main_v16 (ix2 t o) k = ix2 k o := fun k => funext fun a => Fin.ext (by
    match a with
    | ⟨0, _⟩ => rfl
    | ⟨1, _⟩ => rfl)
  have e3 : Read.idx_main_v17 (Read.idx_main_v18 (ix2 t o)) = ix1 o := funext fun a => Fin.ext (by
    match a with
    | ⟨0, _⟩ => rfl)
  simp only [e1, e2, e3, layer3_apply, Ideal.addf_def]
  rfl

/-- The perceptron's result at edge `t`, feature `d`, is the edge's activation row. -/
theorem act_apply (x0 x1 x2 x3 : (⟨S500000x128, .f32⟩ : BufTy).Contents (Elt Ideal)) (x5 : (⟨S512x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x128, .f32⟩ : BufTy).Contents (Elt Ideal)) (x12 : (⟨S128, .f32⟩ : BufTy).Contents (Elt Ideal)) (t : Fin 500000) (d : Fin 128) :
    Read.val_main_v19 (F := Ideal) x0 x1 x2 x3 x5 x6 x7 x8 x9 x10 x11 x12 (ix2 t d)
      = actOf x0 x1 x2 x3 (weightsOf x5 x6 x7 x8 x9 x10 x11 x12) t d := by
  rw [layer4_apply]
  rfl

/-! ## The two tables, their quotient, the index the gather reads, and the result -/

/-- The table of segment sums at `(s, d)`: a zero table plus the activation rows of the edges of `s`. -/
theorem v22_apply (x0 x1 x2 x3 : (⟨S500000x128, .f32⟩ : BufTy).Contents (Elt Ideal)) (x4 : (⟨S500000, .i32⟩ : BufTy).Contents (Elt Ideal))
    (x5 : (⟨S512x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S256x128, .f32⟩ : BufTy).Contents (Elt Ideal)) (x12 : (⟨S128, .f32⟩ : BufTy).Contents (Elt Ideal)) (s : Fin 1024) (d : Fin 128) :
    Read.val_main_v22 (F := Ideal) x0 x1 x2 x3 x4 x5 x6 x7 x8 x9 x10 x11 x12 (ix2 s d) = segSum (segOf x4) (actOf x0 x1 x2 x3 (weightsOf x5 x6 x7 x8 x9 x10 x11 x12)) s d := by
  have e : ∀ t' : Fin 500000, Read.idx_main_v21 (ix2 t' (0 : Fin 1)) = ix1 t' := fun t' => funext fun a => Fin.ext (by
    match a with
    | ⟨0, _⟩ => rfl)
  have hv : Read.val_main_v22 (F := Ideal) x0 x1 x2 x3 x4 x5 x6 x7 x8 x9 x10 x11 x12
      = Ideal.hostScatterAdd scatter_S1024x128_S500000x1_S500000x128_1_0_0_1 (Read.val_main_v20 (F := Ideal))
        (Read.val_main_v21 (F := Ideal) x4) (Read.val_main_v19 (F := Ideal) x0 x1 x2 x3 x5 x6 x7 x8 x9 x10 x11 x12) := rfl
  rw [hv, rows_scatter_apply, Read.val_main_v20_apply, Read.val_main_cst_apply]
  simp only [Read.val_main_v21_apply, e, act_apply, Ideal.ofBits_def, Ideal.ofBits_zero_f32, zero_add]
  rfl

/-- The table of segment counts at `s`: a zero table plus a one for every edge of `s`. -/
theorem v26_apply (x4 : (⟨S500000, .i32⟩ : BufTy).Contents (Elt Ideal)) (s : Fin 1024) :
    Read.val_main_v26 (F := Ideal) x4 (ix1 s) = segCnt (segOf x4) s := by
  have e : ∀ t' : Fin 500000, Read.idx_main_v25 (ix2 t' (0 : Fin 1)) = ix1 t' := fun t' => funext fun a => Fin.ext (by
    match a with
    | ⟨0, _⟩ => rfl)
  have hv : Read.val_main_v26 (F := Ideal) x4
      = Ideal.hostScatterAdd scatter_S1024_S500000x1_S500000_n_0_0_1 (Read.val_main_v24 (F := Ideal))
        (Read.val_main_v25 (F := Ideal) x4) (Read.val_main_v23 (F := Ideal)) := rfl
  rw [hv, cnt_scatter_apply, Read.val_main_v24_apply, Read.val_main_cst_1_apply]
  simp only [Read.val_main_v25_apply, e, Read.val_main_v23_apply, Read.val_main_cst_0_apply, Ideal.ofBits_def,
    Ideal.ofBits_zero_f32, Ideal.ofBits_one_f32, zero_add, mul_one]
  rfl

/-- The table of means at `(s, d)`: the segment's sum over its count, the count spread along the feature axis. -/
theorem v29_apply (x0 x1 x2 x3 : (⟨S500000x128, .f32⟩ : BufTy).Contents (Elt Ideal)) (x4 : (⟨S500000, .i32⟩ : BufTy).Contents (Elt Ideal))
    (x5 : (⟨S512x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S256x128, .f32⟩ : BufTy).Contents (Elt Ideal)) (x12 : (⟨S128, .f32⟩ : BufTy).Contents (Elt Ideal)) (s : Fin 1024) (d : Fin 128) :
    Read.val_main_v29 (F := Ideal) x0 x1 x2 x3 x4 x5 x6 x7 x8 x9 x10 x11 x12 (ix2 s d) = plainOut (segOf x4) (actOf x0 x1 x2 x3 (weightsOf x5 x6 x7 x8 x9 x10 x11 x12)) s d := by
  have e : Read.idx_main_v27 (Read.idx_main_v28 (ix2 s d)) = ix1 s := funext fun a => Fin.ext (by
    match a with
    | ⟨0, _⟩ => rfl)
  rw [Read.val_main_v29_apply, v22_apply, Read.val_main_v28_apply, Read.val_main_v27_apply, e, v26_apply, Ideal.hostDivf_def]
  rfl

/-- A segment id below 1024 is not negative as a signed word. -/
theorem seg_not_neg (s : Fin 1024) : IntOp.cmpi .slt (BitVec.ofNat 32 s.val) 0#32 = 0#1 := by
  have h : (BitVec.ofNat 32 s.val).slt 0#32 = false := by
    simp only [BitVec.slt, toInt_ofNat_seg, BitVec.toInt_zero]
    exact decide_eq_false (by omega)
  show BitVec.ofBool ((BitVec.ofNat 32 s.val).slt 0#32) = 0#1
  rw [h]
  rfl

/-- The start index the gather reads for edge `t`: the edge's id itself, the wrap of negative ids not taken. -/
theorem v35_apply (x4 : (⟨S500000, .i32⟩ : BufTy).Contents (Elt Ideal)) (t : Fin 500000) (s : Fin 1024) (hs : x4 (ix1 t) = BitVec.ofNat 32 s.val) :
    Read.val_main_v35 (F := Ideal) x4 (ix2 t (0 : Fin 1)) = BitVec.ofNat 32 s.val := by
  have e : Read.idx_main_v35 (ix2 t (0 : Fin 1)) = ix1 t := funext fun a => Fin.ext (by
    match a with
    | ⟨0, _⟩ => rfl)
  rw [Read.val_main_v35_apply, e, Read.val_main_v34_apply, Read.val_main_v31_apply, Read.val_main_v30_apply,
    Read.val_main_c_apply, hs, seg_not_neg, select_zero]

/-- The reference's result at edge `t`, feature `d`, when `t` lies in segment `s`. -/
theorem result_apply
    (x0 x1 x2 x3 : (⟨S500000x128, .f32⟩ : BufTy).Contents (Elt Ideal)) (x4 : (⟨S500000, .i32⟩ : BufTy).Contents (Elt Ideal))
    (x5 : (⟨S512x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S256x128, .f32⟩ : BufTy).Contents (Elt Ideal)) (x12 : (⟨S128, .f32⟩ : BufTy).Contents (Elt Ideal))
    (t : Fin 500000) (s : Fin 1024) (hs : x4 (ix1 t) = BitVec.ofNat 32 s.val) (d : Fin 128) :
    Cert.ReferenceIdeal.Read.val_main_v36 (F := Ideal) x0 x1 x2 x3 x4 x5 x6 x7 x8 x9 x10 x11 x12 (ix2 t d)
      = plainOut (segOf x4) (actOf x0 x1 x2 x3 (weightsOf x5 x6 x7 x8 x9 x10 x11 x12)) s d := by
  have hv : Read.val_main_v36 (F := Ideal) x0 x1 x2 x3 x4 x5 x6 x7 x8 x9 x10 x11 x12
      = Host.gather gather_S1024x128_S500000x1_S500000x128_1_0_n_n_0_1_1128
        (Read.val_main_v29 (F := Ideal) x0 x1 x2 x3 x4 x5 x6 x7 x8 x9 x10 x11 x12) (Read.val_main_v35 (F := Ideal) x4) := rfl
  rw [hv, gather_row_apply _ _ t d s (v35_apply x4 t s hs), v29_apply]

end Cert.ReferenceIdeal.RefValue

end
-- ==== Proof.Math.PreFacts.lean ====
/-
  What the precondition says, entry by entry: every float input is a real number, and every segment id
  is one of 0, …, 1023.  The printed predicate is a conjunction of fourteen "all entries satisfy" tests;
  each is read back to its entries.
-/
import proofs.«411350_j36593121362170_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

variable [Cert.Pre_finite_inputs.Facts]

/-- Every entry of an array is a real number. -/
def Real' {s : Shape} (x : s.Idx → EReal) : Prop := ∀ i, ∃ r : ℝ, x i = (r : EReal)

/-- The shape with no axes has exactly one index. -/
instance subsingletonScalarIdx : Subsingleton S_.Idx := ⟨fun a b => funext fun d => d.elim0⟩

/-- The pattern with all exponent bits set and no fraction bits is +∞. -/
theorem top_pattern : Ideal.ofBits .f32 0x7F800000#32 = (⊤ : EReal) := by
  simp [Ideal.ofBits, Ideal.ieee]

/-- An extended real whose absolute value max(x, −x) is below +∞ is a real number:
    at −∞ and at +∞ the absolute value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- One float test, at any shape: if the conjunction over all entries of |x| < +∞ holds, every entry of x is real. -/
theorem real_of_all {s : Shape} {axes : List (Fin s.rank)}
    (hb : S_.BroadcastsInDim s (![] : Fin 0 → Fin s.rank)) (hr : s.ReducesTo axes S_) (h0 : 0 < S_.numel)
    (x : FVec Ideal s .f32) (init : IVec S_ 1) (j : S_.Idx)
    (e : Host.reduce IntOp.andi
          (cmpf .olt (Host.absf x) (broadcastInDim s ![] hb (constant S_ .f32 0x7F800000#32))) init hr h0 j = 1#1) :
    Real' x := by
  intro i
  have hi := Host.reduce_andi_all _ init hr h0 j e i
  simp only [cmpf, Host.absf, broadcastInDim, constant, Ideal.ofBits_def, Ideal.hostAbsf_def] at hi
  have ht : FloatOps.cmpf (F := Ideal) .olt (FloatOps.absf (x i)) (Ideal.ofBits .f32 0x7F800000#32)
      = Ideal.cmp .olt (max (x i) (-(x i))) ⊤ := by rw [top_pattern]; rfl
  rw [ht] at hi
  simp only [Ideal.cmp, StableHlo.Predicate.ofBool_eq_one_iff, decide_eq_true_eq] at hi
  exact real_of_abs_lt_top _ hi

/-- The two integer tests, at any shape: if every entry is ≥ 0 and every entry is < 1024 (both read signed),
    every entry is the 32-bit word of one of 0, …, 1023. -/
theorem range_of_all {s : Shape} {axes : List (Fin s.rank)}
    (hb : S_.BroadcastsInDim s (![] : Fin 0 → Fin s.rank)) (hr : s.ReducesTo axes S_) (h0 : 0 < S_.numel)
    (a : IVec s 32) (init init' : IVec S_ 1) (j : S_.Idx)
    (e1 : Host.reduce IntOp.andi
          (cmpi .sge a (broadcastInDim s ![] hb (constantI S_ 32 0#32))) init hr h0 j = 1#1)
    (e2 : Host.reduce IntOp.andi
          (cmpi .slt a (broadcastInDim s ![] hb (constantI S_ 32 1024#32))) init' hr h0 j = 1#1) :
    ∀ i, ∃ k : Fin 1024, a i = BitVec.ofNat 32 k.val := by
  intro i
  have h1 := Host.reduce_andi_all _ init hr h0 j e1 i
  have h2 := Host.reduce_andi_all _ init' hr h0 j e2 i
  simp only [cmpi, broadcastInDim, constantI] at h1 h2
  rw [IntOp.cmpi_sge] at h1
  rw [IntOp.cmpi_slt] at h2
  have z0 : (0#32 : BitVec 32).toInt = 0 := by decide
  have z1 : (1024#32 : BitVec 32).toInt = 1024 := by decide
  rw [z0] at h1
  rw [z1] at h2
  have hlt : (a i).toNat < 1024 := by
    have := BitVec.toInt_eq_toNat_cond (a i)
    have hb := (a i).isLt
    split at this <;> omega
  exact ⟨⟨(a i).toNat, hlt⟩, by simp⟩

/-- The precondition, read back: the twelve float arrays hold real numbers and the segment ids lie in range. -/
theorem decode
    (a0 a1 a2 a3 : FVec Ideal S500000x128 .f32) (a4 : IVec S500000 32) (a5 : FVec Ideal S512x256 .f32) (a6 : FVec Ideal S256 .f32)
    (a7 : FVec Ideal S256x256 .f32) (a8 : FVec Ideal S256 .f32) (a9 : FVec Ideal S256x256 .f32) (a10 : FVec Ideal S256 .f32)
    (a11 : FVec Ideal S256x128 .f32) (a12 : FVec Ideal S128 .f32)
    (h : Cert.Pre_finite_inputs.fn (F := Ideal) a0 a1 a2 a3 a4 a5 a6 a7 a8 a9 a10 a11 a12 = fun _ => 1#1) :
    Real' a0 ∧ Real' a1 ∧ Real' a2 ∧ Real' a3 ∧ Real' a5 ∧ Real' a6 ∧ Real' a7 ∧ Real' a8 ∧ Real' a9 ∧ Real' a10
      ∧ Real' a11 ∧ Real' a12 ∧ ∀ i, ∃ s : Fin 1024, a4 i = BitVec.ofNat 32 s.val := by
  -- the predicate's single entry is 1
  have h0 : Cert.Pre_finite_inputs.fn (F := Ideal) a0 a1 a2 a3 a4 a5 a6 a7 a8 a9 a10 a11 a12 ValueIdx.ix0 = 1#1 :=
    congrFun h ValueIdx.ix0
  dsimp only [fn, fn_part1, fn_part2, fn_part3, andi] at h0
  -- a conjunction of bits is 1 exactly when each bit is 1; the chain is nested to the left, the last test outermost
  obtain ⟨h0, el⟩ := IntOp.andi_eq_one.1 h0
  obtain ⟨h0, eg⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ a0 _ _ e0, real_of_all _ _ _ a1 _ _ e1, real_of_all _ _ _ a2 _ _ e2,
    real_of_all _ _ _ a3 _ _ e3, real_of_all _ _ _ a5 _ _ e5, real_of_all _ _ _ a6 _ _ e6,
    real_of_all _ _ _ a7 _ _ e7, real_of_all _ _ _ a8 _ _ e8, real_of_all _ _ _ a9 _ _ e9,
    real_of_all _ _ _ a10 _ _ e10, real_of_all _ _ _ a11 _ _ e11, real_of_all _ _ _ a12 _ _ e12,
    range_of_all _ _ _ a4 _ _ _ eg el⟩

end Cert.PreFacts

end
-- ==== Proof.lean ====
/-
  The certificate of the segment-mean kernel against its reference.

  The kernel computes, per edge, a four-layer perceptron of its features, adds the activation rows into
  per-segment sums and the indicator rows into per-segment counts in two halves of 250000 edges (one
  accumulating kernel region), forms the table of means on the host — the halves' sums over the halves' counts
  raised to at least one —, and hands every edge its segment's mean through a second kernel region that
  multiplies the edge's indicator row with the table and with the table's residue against itself.  The reference
  computes the same perceptron, scatters the activation rows and ones into the segments, divides, and gathers
  each edge's row.  Over the extended reals, for real inputs and segment ids in 0, …, 1023, both are the
  segment's sum over its count: a sum over all edges is the two halves' sums; a segment that holds the edge has
  a count of at least one; the residue of a real table against itself is zero; and exactly one entry of an
  edge's indicator row is one.

  The three frames: each kernel program's run through its two regions (the accumulating region's invariant
  carries the two accumulators from point to point), the reference's generated run.  The idealization's five
  rewrites each drop a widening after a narrowing.
-/
import proofs.«411350_j36593121362170_3_alg».proof.Defs
import proofs.«411350_j36593121362170_3_alg».proof.Proof.Gen.Kernel
import proofs.«411350_j36593121362170_3_alg».proof.Proof.Gen.KernelIdeal
import proofs.«411350_j36593121362170_3_alg».proof.Proof.Gen.ReferenceIdeal
import proofs.«411350_j36593121362170_3_alg».proof.Proof.Gen.Pre_finite_inputs
import proofs.«411350_j36593121362170_3_alg».proof.Proof.K.RunAll
import proofs.«411350_j36593121362170_3_alg».proof.Proof.KI.Assemble
import proofs.«411350_j36593121362170_3_alg».proof.Proof.Ref.Value
import proofs.«411350_j36593121362170_3_alg».proof.Proof.Math.PreFacts
import Idealize.ShloMosaic.Adequacy
import Idealize.ShloMosaic.Init

noncomputable section

namespace Cert.Proof

open Idealize.ShloMosaic Idealize.ShloMosaic.TcCoe Idealize.ShloMosaic.ValueIdx Idealize.SL.Sem Cert.SegMean

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Each of the five rewrites drops a widening to f32 after a narrowing to bf16 of an indicator block. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16⟩

/-- Both idealized programs end with one result: entry (t, d) is the sum of the activation rows of edge t's
    segment over the segment's count. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v30), ?_, ?_⟩
  · refine (θ_run Cert.KernelIdeal.defs _ _).mono (fun r h c => ?_) (Cert.KernelIdeal.Hand.run_all (F := Ideal) m ρ)
    have hb : ∀ b : Ref Cert.KernelIdeal.sig .tc, ¬ (Proc.devRef .tc b : DevRef Cert.KernelIdeal.τ Cert.KernelIdeal.sig).isScoped →
        r.2.mem ((c.tc : Thread Cert.KernelIdeal.nD Cert.KernelIdeal.τ).loc b) = Cert.KernelIdeal.Hand.W4 (F := Ideal) m ρ c (Proc.devRef .tc b) :=
      fun b hb => h c _ (Cert.KernelIdeal.Hand.mem_uc b hb)
    refine ⟨hb _ (by decide), ?_⟩
    refine ⟨(hb _ (by decide)).trans (Cert.KernelIdeal.Hand.W4_arg m ρ c _ (by simp)), (hb _ (by decide)).trans (Cert.KernelIdeal.Hand.W4_arg m ρ c _ (by simp)),
      (hb _ (by decide)).trans (Cert.KernelIdeal.Hand.W4_arg m ρ c _ (by simp)), (hb _ (by decide)).trans (Cert.KernelIdeal.Hand.W4_arg m ρ c _ (by simp)),
      (hb _ (by decide)).trans (Cert.KernelIdeal.Hand.W4_arg m ρ c _ (by simp)), (hb _ (by decide)).trans (Cert.KernelIdeal.Hand.W4_arg m ρ c _ (by simp)),
      (hb _ (by decide)).trans (Cert.KernelIdeal.Hand.W4_arg m ρ c _ (by simp)), (hb _ (by decide)).trans (Cert.KernelIdeal.Hand.W4_arg m ρ c _ (by simp)),
      (hb _ (by decide)).trans (Cert.KernelIdeal.Hand.W4_arg m ρ c _ (by simp)), (hb _ (by decide)).trans (Cert.KernelIdeal.Hand.W4_arg m ρ c _ (by simp)),
      (hb _ (by decide)).trans (Cert.KernelIdeal.Hand.W4_arg m ρ c _ (by simp)), (hb _ (by decide)).trans (Cert.KernelIdeal.Hand.W4_arg m ρ c _ (by simp)),
      (hb _ (by decide)).trans (Cert.KernelIdeal.Hand.W4_arg m ρ c _ (by simp))⟩
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2]
    obtain ⟨h0, h1, h2, h3, h5, h6, h7, h8, h9, h10, h11, h12, hei⟩ := Cert.PreFacts.decode _ _ _ _ _ _ _ _ _ _ _ _ _ (hpre c)
    funext j
    obtain ⟨t, d, rfl⟩ : ∃ (t : Fin 500000) (d : Fin 128), j = ix2 t d := ⟨j 0, j 1, eq_ix2 j⟩
    obtain ⟨s, hs⟩ := hei (ix1 t)
    have hfin : ∀ (t' : Fin 500000) (d' : Fin 128), ∃ r : ℝ,
        actOf (Cert.KernelIdeal.HandValue.xg m c) (Cert.KernelIdeal.HandValue.xns m c) (Cert.KernelIdeal.HandValue.xnr m c)
          (Cert.KernelIdeal.HandValue.xe m c) (Cert.KernelIdeal.HandValue.xP m c) t' d' = (r : EReal) := fun t' d' =>
      mlpRow_finite _ ⟨fun q o => h5 _, fun o => h6 _, fun q o => h7 _, fun o => h8 _, fun q o => h9 _, fun o => h10 _,
        fun q o => h11 _, fun o => h12 _⟩ _ (featRow_finite _ _ _ _ (fun q => h0 _) (fun q => h1 _) (fun q => h2 _) (fun q => h3 _)) d'
    exact (congrFun (Cert.ReferenceIdeal.Read.val_main_v36_eq (F := Ideal) _ _ _ _ _ _ _ _ _ _ _ _ _) (ix2 t d)).trans
      ((Cert.ReferenceIdeal.RefValue.result_apply _ _ _ _ _ _ _ _ _ _ _ _ _ t s hs d).trans
        ((splitOut_eq_plainOut (segOf (Cert.KernelIdeal.HandValue.xei m c)) _ hfin t s hs d).symm.trans
          (Cert.KernelIdeal.HandValue.kernel_value m ρ c t d).symm))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
